-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x80 : Shape := ⟨2, ![131072, 80]⟩
abbrev S16x8192 : Shape := ⟨2, ![16, 8192]⟩
abbrev S16 : Shape := ⟨1, ![16]⟩
abbrev S131072 : Shape := ⟨1, ![131072]⟩
abbrev S384x80 : Shape := ⟨2, ![384, 80]⟩
abbrev S384 : Shape := ⟨1, ![384]⟩
abbrev S_ : Shape := ⟨0, ![]⟩

class Facts : Prop where
  bcast_S_S131072x80 : S_.BroadcastsInDim S131072x80 (![] : Fin 0 → Fin S131072x80.rank)
  reducesTo_S131072x80_S_d0_1 : S131072x80.ReducesTo [0, 1] S_
  h_S_ : 0 < S_.numel
  bcast_S_S384x80 : S_.BroadcastsInDim S384x80 (![] : Fin 0 → Fin S384x80.rank)
  reducesTo_S384x80_S_d0_1 : S384x80.ReducesTo [0, 1] S_
  bcast_S_S384 : S_.BroadcastsInDim S384 (![] : Fin 0 → Fin S384.rank)
  reducesTo_S384_S_d0 : S384.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg2 : IVec S16 32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_c_6 : IVec S_ 32 := constantI S_ 32 0#32
  let main_v19 : IVec S16 32 := broadcastInDim S16 ![] bcast_S_S16 main_c_6
  let main_v20 : IVec S16 1 := cmpi .sge main_arg2 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  main_v22

def fn {F : FTy → Type} [FloatOps F] (main_arg0 : FVec F S131072x80 .f32) (main_arg1 : IVec S16x8192 1) (main_arg2 : IVec S16 32) (main_arg3 : IVec S131072 32) (main_arg4 : FVec F S384x80 .f32) (main_arg5 : FVec F S384 .f32) (main_arg6 : FVec F S384 .f32) : IVec S_ 1 :=
  let main_v0 : FVec F S131072x80 .f32 := Host.absf main_arg0
  let main_cst : FVec F S_ .f32 := constant S_ .f32 0x7F800000#32
  let main_v1 : FVec F S131072x80 .f32 := broadcastInDim S131072x80 ![] bcast_S_S131072x80 main_cst
  let main_v2 : IVec S131072x80 1 := cmpf .olt main_v0 main_v1
  let main_c : IVec S_ 1 := constantI S_ 1 1#1
  let main_v3 : IVec S_ 1 := (fun x v => Host.reduce IntOp.andi x v reducesTo_S131072x80_S_d0_1 h_S_) main_v2 main_c
  let main_v4 : FVec F S384x80 .f32 := Host.absf main_arg4
  let main_cst_0 : FVec F S_ .f32 := constant S_ .f32 0x7F800000#32
  let main_v5 : FVec F S384x80 .f32 := broadcastInDim S384x80 ![] bcast_S_S384x80 main_cst_0
  let main_v6 : IVec S384x80 1 := cmpf .olt main_v4 main_v5
  let main_c_1 : IVec S_ 1 := constantI S_ 1 1#1
  let main_v7 : IVec S_ 1 := (fun x v => Host.reduce IntOp.andi x v reducesTo_S384x80_S_d0_1 h_S_) main_v6 main_c_1
  let main_v8 : IVec S_ 1 := andi main_v3 main_v7
  let main_v9 : FVec F S384 .f32 := Host.absf main_arg5
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg6
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg2 main_v13 main_v16
-- ==== Kernel.lean ====
abbrev S131072x80 : Shape := ⟨2, ![131072, 80]⟩
abbrev S16x8192 : Shape := ⟨2, ![16, 8192]⟩
abbrev S16 : Shape := ⟨1, ![16]⟩
abbrev S131072 : Shape := ⟨1, ![131072]⟩
abbrev S384x80 : Shape := ⟨2, ![384, 80]⟩
abbrev S384 : Shape := ⟨1, ![384]⟩
abbrev S131072x1 : Shape := ⟨2, ![131072, 1]⟩
abbrev S1x384 : Shape := ⟨2, ![1, 384]⟩
abbrev S131072x384 : Shape := ⟨2, ![131072, 384]⟩
abbrev S4096x80 : Shape := ⟨2, ![4096, 80]⟩
abbrev S4096x1 : Shape := ⟨2, ![4096, 1]⟩
abbrev S4096x384 : Shape := ⟨2, ![4096, 384]⟩
abbrev S1 : Shape := ⟨1, ![1]⟩

abbrev nBuf : Space → Nat
  | .hbm => 11
  | .vmem => 9
  | .smem => 1
  | _ => 0

abbrev bufTy : (tb : Table) → Fin (tcTables nBuf tb) → BufTy
  | .hbm, ⟨0, _⟩ => ⟨S131072x80, .f32⟩
  | .hbm, ⟨1, _⟩ => ⟨S16x8192, .i1⟩
  | .hbm, ⟨2, _⟩ => ⟨S131072, .i32⟩
  | .hbm, ⟨3, _⟩ => ⟨S384x80, .f32⟩
  | .hbm, ⟨4, _⟩ => ⟨S384, .f32⟩
  | .hbm, ⟨5, _⟩ => ⟨S384, .f32⟩
  | .hbm, ⟨6, _⟩ => ⟨S131072x1, .i1⟩
  | .hbm, ⟨7, _⟩ => ⟨S131072x1, .f32⟩
  | .hbm, ⟨8, _⟩ => ⟨S1x384, .f32⟩
  | .hbm, ⟨9, _⟩ => ⟨S1x384, .f32⟩
  | .hbm, ⟨10, _⟩ => ⟨S131072x384, .f32⟩
  | .local _ .vmem, ⟨0, _⟩ => ⟨S4096x80, .f32⟩
  | .local _ .vmem, ⟨1, _⟩ => ⟨S4096x80, .f32⟩
  | .local _ .vmem, ⟨2, _⟩ => ⟨S4096x1, .f32⟩
  | .local _ .vmem, ⟨3, _⟩ => ⟨S4096x1, .f32⟩
  | .local _ .vmem, ⟨4, _⟩ => ⟨S384x80, .f32⟩
  | .local _ .vmem, ⟨5, _⟩ => ⟨S1x384, .f32⟩
  | .local _ .vmem, ⟨6, _⟩ => ⟨S1x384, .f32⟩
  | .local _ .vmem, ⟨7, _⟩ => ⟨S4096x384, .f32⟩
  | .local _ .vmem, ⟨8, _⟩ => ⟨S4096x384, .f32⟩
  | .local _ .smem, ⟨0, _⟩ => ⟨S16, .i32⟩
  | _, _ => ⟨S131072x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (v15 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v15 v14
  let v130 : Index := Scalar.indexCast v127
  let c0_43 : Index := 0#32
  ![v130.toNat, 0]
def k0_cond1 (i : grid0.Coords) (v15 : BitVec 32) : BitVec 1 :=
  let arg0 : BitVec 32 := BitVec.ofNat 32 (i 0).val
  let c4096_i32 : BitVec 32 := 4096#32
  let v14 : BitVec 32 := Scalar.muli arg0 c4096_i32
  let v16 : BitVec 1 := Scalar.cmpi .sge v15 v14
  let c4096_i32_10 : BitVec 32 := 4096#32
  let v17 : BitVec 32 := Scalar.addi v14 c4096_i32_10
  let v18 : BitVec 1 := Scalar.cmpi .slt v15 v17
  let v19 : BitVec 1 := Scalar.andi v16 v18
  let v20 : BitVec 32 := Scalar.extui v19
  let c0_i32 : BitVec 32 := 0#32
  let v21 : BitVec 1 := Scalar.cmpi .ne v20 c0_i32
  v21

def k0_chk1 (i : grid0.Coords) (v15 : BitVec 32) : Prop :=
  (∀ (k0_h1 : k0_cond1 i v15 = 1#1), ∀ a, (k0_off1 i v15) a + S1x384.size a ≤ S4096x384.size a)
instance k0_chk1.dec : ∀ (i : grid0.Coords) (v15 : BitVec 32), Decidable (k0_chk1 i v15) := fun i v15 => decidable_of_iff' _ (Iff.of_eq (k0_chk1.eq_1 i v15))
theorem k0_off1_inb : ∀ (i : grid0.Coords) (v15 : BitVec 32) (k0_hw1 : k0_chk1 i v15), ∀ (k0_h1 : k0_cond1 i v15 = 1#1), ∀ a, (k0_off1 i v15) a + S1x384.size a ≤ S4096x384.size a := fun i v15 k0_hw1 k0_h1 => k0_hw1 k0_h1

def k0_off2 (i : grid0.Coords) (v22 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v22 v14
  let v130 : Index := Scalar.indexCast v127
  let c0_43 : Index := 0#32
  ![v130.toNat, 0]
def k0_cond2 (i : grid0.Coords) (v22 : BitVec 32) : BitVec 1 :=
  let arg0 : BitVec 32 := BitVec.ofNat 32 (i 0).val
  let c4096_i32 : BitVec 32 := 4096#32
  let v14 : BitVec 32 := Scalar.muli arg0 c4096_i32
  let v23 : BitVec 1 := Scalar.cmpi .sge v22 v14
  let c4096_i32_11 : BitVec 32 := 4096#32
  let v24 : BitVec 32 := Scalar.addi v14 c4096_i32_11
  let v25 : BitVec 1 := Scalar.cmpi .slt v22 v24
  let v26 : BitVec 1 := Scalar.andi v23 v25
  let v27 : BitVec 32 := Scalar.extui v26
  let c0_i32_12 : BitVec 32 := 0#32
  let v28 : BitVec 1 := Scalar.cmpi .ne v27 c0_i32_12
  v28

def k0_chk2 (i : grid0.Coords) (v22 : BitVec 32) : Prop :=
  (∀ (k0_h2 : k0_cond2 i v22 = 1#1), ∀ a, (k0_off2 i v22) a + S1x384.size a ≤ S4096x384.size a)
instance k0_chk2.dec : ∀ (i : grid0.Coords) (v22 : BitVec 32), Decidable (k0_chk2 i v22) := fun i v22 => decidable_of_iff' _ (Iff.of_eq (k0_chk2.eq_1 i v22))
theorem k0_off2_inb : ∀ (i : grid0.Coords) (v22 : BitVec 32) (k0_hw2 : k0_chk2 i v22), ∀ (k0_h2 : k0_cond2 i v22 = 1#1), ∀ a, (k0_off2 i v22) a + S1x384.size a ≤ S4096x384.size a := fun i v22 k0_hw2 k0_h2 => k0_hw2 k0_h2

def k0_off3 (i : grid0.Coords) (v29 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v29 v14
  let v130 : Index := Scalar.indexCast v127
  let c0_43 : Index := 0#32
  ![v130.toNat, 0]
def k0_cond3 (i : grid0.Coords) (v29 : BitVec 32) : BitVec 1 :=
  let arg0 : BitVec 32 := BitVec.ofNat 32 (i 0).val
  let c4096_i32 : BitVec 32 := 4096#32
  let v14 : BitVec 32 := Scalar.muli arg0 c4096_i32
  let v30 : BitVec 1 := Scalar.cmpi .sge v29 v14
  let c4096_i32_13 : BitVec 32 := 4096#32
  let v31 : BitVec 32 := Scalar.addi v14 c4096_i32_13
  let v32 : BitVec 1 := Scalar.cmpi .slt v29 v31
  let v33 : BitVec 1 := Scalar.andi v30 v32
  let v34 : BitVec 32 := Scalar.extui v33
  let c0_i32_14 : BitVec 32 := 0#32
  let v35 : BitVec 1 := Scalar.cmpi .ne v34 c0_i32_14
  v35

def k0_chk3 (i : grid0.Coords) (v29 : BitVec 32) : Prop :=
  (∀ (k0_h3 : k0_cond3 i v29 = 1#1), ∀ a, (k0_off3 i v29) a + S1x384.size a ≤ S4096x384.size a)
instance k0_chk3.dec : ∀ (i : grid0.Coords) (v29 : BitVec 32), Decidable (k0_chk3 i v29) := fun i v29 => decidable_of_iff' _ (Iff.of_eq (k0_chk3.eq_1 i v29))
theorem k0_off3_inb : ∀ (i : grid0.Coords) (v29 : BitVec 32) (k0_hw3 : k0_chk3 i v29), ∀ (k0_h3 : k0_cond3 i v29 = 1#1), ∀ a, (k0_off3 i v29) a + S1x384.size a ≤ S4096x384.size a := fun i v29 k0_hw3 k0_h3 => k0_hw3 k0_h3

def k0_off4 (i : grid0.Coords) (v36 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v36 v14
  let v130 : Index := Scalar.indexCast v127
  let c0_43 : Index := 0#32
  ![v130.toNat, 0]
def k0_cond4 (i : grid0.Coords) (v36 : BitVec 32) : BitVec 1 :=
  let arg0 : BitVec 32 := BitVec.ofNat 32 (i 0).val
  let c4096_i32 : BitVec 32 := 4096#32
  let v14 : BitVec 32 := Scalar.muli arg0 c4096_i32
  let v37 : BitVec 1 := Scalar.cmpi .sge v36 v14
  let c4096_i32_15 : BitVec 32 := 4096#32
  let v38 : BitVec 32 := Scalar.addi v14 c4096_i32_15
  let v39 : BitVec 1 := Scalar.cmpi .slt v36 v38
  let v40 : BitVec 1 := Scalar.andi v37 v39
  let v41 : BitVec 32 := Scalar.extui v40
  let c0_i32_16 : BitVec 32 := 0#32
  let v42 : BitVec 1 := Scalar.cmpi .ne v41 c0_i32_16
  v42

def k0_chk4 (i : grid0.Coords) (v36 : BitVec 32) : Prop :=
  (∀ (k0_h4 : k0_cond4 i v36 = 1#1), ∀ a, (k0_off4 i v36) a + S1x384.size a ≤ S4096x384.size a)
instance k0_chk4.dec : ∀ (i : grid0.Coords) (v36 : BitVec 32), Decidable (k0_chk4 i v36) := fun i v36 => decidable_of_iff' _ (Iff.of_eq (k0_chk4.eq_1 i v36))
theorem k0_off4_inb : ∀ (i : grid0.Coords) (v36 : BitVec 32) (k0_hw4 : k0_chk4 i v36), ∀ (k0_h4 : k0_cond4 i v36 = 1#1), ∀ a, (k0_off4 i v36) a + S1x384.size a ≤ S4096x384.size a := fun i v36 k0_hw4 k0_h4 => k0_hw4 k0_h4

def k0_off5 (i : grid0.Coords) (v43 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v43 v14
  let v130 : Index := Scalar.indexCast v127
  let c0_43 : Index := 0#32
  ![v130.toNat, 0]
def k0_cond5 (i : grid0.Coords) (v43 : BitVec 32) : BitVec 1 :=
  let arg0 : BitVec 32 := BitVec.ofNat 32 (i 0).val
  let c4096_i32 : BitVec 32 := 4096#32
  let v14 : BitVec 32 := Scalar.muli arg0 c4096_i32
  let v44 : BitVec 1 := Scalar.cmpi .sge v43 v14
  let c4096_i32_17 : BitVec 32 := 4096#32
  let v45 : BitVec 32 := Scalar.addi v14 c4096_i32_17
  let v46 : BitVec 1 := Scalar.cmpi .slt v43 v45
  let v47 : BitVec 1 := Scalar.andi v44 v46
  let v48 : BitVec 32 := Scalar.extui v47
  let c0_i32_18 : BitVec 32 := 0#32
  let v49 : BitVec 1 := Scalar.cmpi .ne v48 c0_i32_18
  v49

def k0_chk5 (i : grid0.Coords) (v43 : BitVec 32) : Prop :=
  (∀ (k0_h5 : k0_cond5 i v43 = 1#1), ∀ a, (k0_off5 i v43) a + S1x384.size a ≤ S4096x384.size a)
instance k0_chk5.dec : ∀ (i : grid0.Coords) (v43 : BitVec 32), Decidable (k0_chk5 i v43) := fun i v43 => decidable_of_iff' _ (Iff.of_eq (k0_chk5.eq_1 i v43))
theorem k0_off5_inb : ∀ (i : grid0.Coords) (v43 : BitVec 32) (k0_hw5 : k0_chk5 i v43), ∀ (k0_h5 : k0_cond5 i v43 = 1#1), ∀ a, (k0_off5 i v43) a + S1x384.size a ≤ S4096x384.size a := fun i v43 k0_hw5 k0_h5 => k0_hw5 k0_h5

def k0_off6 (i : grid0.Coords) (v50 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v50 v14
  let v130 : Index := Scalar.indexCast v127
  let c0_43 : Index := 0#32
  ![v130.toNat, 0]
def k0_cond6 (i : grid0.Coords) (v50 : BitVec 32) : BitVec 1 :=
  let arg0 : BitVec 32 := BitVec.ofNat 32 (i 0).val
  let c4096_i32 : BitVec 32 := 4096#32
  let v14 : BitVec 32 := Scalar.muli arg0 c4096_i32
  let v51 : BitVec 1 := Scalar.cmpi .sge v50 v14
  let c4096_i32_19 : BitVec 32 := 4096#32
  let v52 : BitVec 32 := Scalar.addi v14 c4096_i32_19
  let v53 : BitVec 1 := Scalar.cmpi .slt v50 v52
  let v54 : BitVec 1 := Scalar.andi v51 v53
  let v55 : BitVec 32 := Scalar.extui v54
  let c0_i32_20 : BitVec 32 := 0#32
  let v56 : BitVec 1 := Scalar.cmpi .ne v55 c0_i32_20
  v56

def k0_chk6 (i : grid0.Coords) (v50 : BitVec 32) : Prop :=
  (∀ (k0_h6 : k0_cond6 i v50 = 1#1), ∀ a, (k0_off6 i v50) a + S1x384.size a ≤ S4096x384.size a)
instance k0_chk6.dec : ∀ (i : grid0.Coords) (v50 : BitVec 32), Decidable (k0_chk6 i v50) := fun i v50 => decidable_of_iff' _ (Iff.of_eq (k0_chk6.eq_1 i v50))
theorem k0_off6_inb : ∀ (i : grid0.Coords) (v50 : BitVec 32) (k0_hw6 : k0_chk6 i v50), ∀ (k0_h6 : k0_cond6 i v50 = 1#1), ∀ a, (k0_off6 i v50) a + S1x384.size a ≤ S4096x384.size a := fun i v50 k0_hw6 k0_h6 => k0_hw6 k0_h6

def k0_off7 (i : grid0.Coords) (v57 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v57 v14
  let v130 : Index := Scalar.indexCast v127
  let c0_43 : Index := 0#32
  ![v130.toNat, 0]
def k0_cond7 (i : grid0.Coords) (v57 : BitVec 32) : BitVec 1 :=
  let arg0 : BitVec 32 := BitVec.ofNat 32 (i 0).val
  let c4096_i32 : BitVec 32 := 4096#32
  let v14 : BitVec 32 := Scalar.muli arg0 c4096_i32
  let v58 : BitVec 1 := Scalar.cmpi .sge v57 v14
  let c4096_i32_21 : BitVec 32 := 4096#32
  let v59 : BitVec 32 := Scalar.addi v14 c4096_i32_21
  let v60 : BitVec 1 := Scalar.cmpi .slt v57 v59
  let v61 : BitVec 1 := Scalar.andi v58 v60
  let v62 : BitVec 32 := Scalar.extui v61
  let c0_i32_22 : BitVec 32 := 0#32
  let v63 : BitVec 1 := Scalar.cmpi .ne v62 c0_i32_22
  v63

def k0_chk7 (i : grid0.Coords) (v57 : BitVec 32) : Prop :=
  (∀ (k0_h7 : k0_cond7 i v57 = 1#1), ∀ a, (k0_off7 i v57) a + S1x384.size a ≤ S4096x384.size a)
instance k0_chk7.dec : ∀ (i : grid0.Coords) (v57 : BitVec 32), Decidable (k0_chk7 i v57) := fun i v57 => decidable_of_iff' _ (Iff.of_eq (k0_chk7.eq_1 i v57))
theorem k0_off7_inb : ∀ (i : grid0.Coords) (v57 : BitVec 32) (k0_hw7 : k0_chk7 i v57), ∀ (k0_h7 : k0_cond7 i v57 = 1#1), ∀ a, (k0_off7 i v57) a + S1x384.size a ≤ S4096x384.size a := fun i v57 k0_hw7 k0_h7 => k0_hw7 k0_h7

def k0_off8 (i : grid0.Coords) (v64 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v64 v14
  let v130 : Index := Scalar.indexCast v127
  let c0_43 : Index := 0#32
  ![v130.toNat, 0]
def k0_cond8 (i : grid0.Coords) (v64 : BitVec 32) : BitVec 1 :=
  let arg0 : BitVec 32 := BitVec.ofNat 32 (i 0).val
  let c4096_i32 : BitVec 32 := 4096#32
  let v14 : BitVec 32 := Scalar.muli arg0 c4096_i32
  let v65 : BitVec 1 := Scalar.cmpi .sge v64 v14
  let c4096_i32_23 : BitVec 32 := 4096#32
  let v66 : BitVec 32 := Scalar.addi v14 c4096_i32_23
  let v67 : BitVec 1 := Scalar.cmpi .slt v64 v66
  let v68 : BitVec 1 := Scalar.andi v65 v67
  let v69 : BitVec 32 := Scalar.extui v68
  let c0_i32_24 : BitVec 32 := 0#32
  let v70 : BitVec 1 := Scalar.cmpi .ne v69 c0_i32_24
  v70

def k0_chk8 (i : grid0.Coords) (v64 : BitVec 32) : Prop :=
  (∀ (k0_h8 : k0_cond8 i v64 = 1#1), ∀ a, (k0_off8 i v64) a + S1x384.size a ≤ S4096x384.size a)
instance k0_chk8.dec : ∀ (i : grid0.Coords) (v64 : BitVec 32), Decidable (k0_chk8 i v64) := fun i v64 => decidable_of_iff' _ (Iff.of_eq (k0_chk8.eq_1 i v64))
theorem k0_off8_inb : ∀ (i : grid0.Coords) (v64 : BitVec 32) (k0_hw8 : k0_chk8 i v64), ∀ (k0_h8 : k0_cond8 i v64 = 1#1), ∀ a, (k0_off8 i v64) a + S1x384.size a ≤ S4096x384.size a := fun i v64 k0_hw8 k0_h8 => k0_hw8 k0_h8

def k0_off9 (i : grid0.Coords) (v71 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v71 v14
  let v130 : Index := Scalar.indexCast v127
  let c0_43 : Index := 0#32
  ![v130.toNat, 0]
def k0_cond9 (i : grid0.Coords) (v71 : BitVec 32) : BitVec 1 :=
  let arg0 : BitVec 32 := BitVec.ofNat 32 (i 0).val
  let c4096_i32 : BitVec 32 := 4096#32
  let v14 : BitVec 32 := Scalar.muli arg0 c4096_i32
  let v72 : BitVec 1 := Scalar.cmpi .sge v71 v14
  let c4096_i32_25 : BitVec 32 := 4096#32
  let v73 : BitVec 32 := Scalar.addi v14 c4096_i32_25
  let v74 : BitVec 1 := Scalar.cmpi .slt v71 v73
  let v75 : BitVec 1 := Scalar.andi v72 v74
  let v76 : BitVec 32 := Scalar.extui v75
  let c0_i32_26 : BitVec 32 := 0#32
  let v77 : BitVec 1 := Scalar.cmpi .ne v76 c0_i32_26
  v77

def k0_chk9 (i : grid0.Coords) (v71 : BitVec 32) : Prop :=
  (∀ (k0_h9 : k0_cond9 i v71 = 1#1), ∀ a, (k0_off9 i v71) a + S1x384.size a ≤ S4096x384.size a)
instance k0_chk9.dec : ∀ (i : grid0.Coords) (v71 : BitVec 32), Decidable (k0_chk9 i v71) := fun i v71 => decidable_of_iff' _ (Iff.of_eq (k0_chk9.eq_1 i v71))
theorem k0_off9_inb : ∀ (i : grid0.Coords) (v71 : BitVec 32) (k0_hw9 : k0_chk9 i v71), ∀ (k0_h9 : k0_cond9 i v71 = 1#1), ∀ a, (k0_off9 i v71) a + S1x384.size a ≤ S4096x384.size a := fun i v71 k0_hw9 k0_h9 => k0_hw9 k0_h9

def k0_off10 (i : grid0.Coords) (v78 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v78 v14
  let v130 : Index := Scalar.indexCast v127
  let c0_43 : Index := 0#32
  ![v130.toNat, 0]
def k0_cond10 (i : grid0.Coords) (v78 : BitVec 32) : BitVec 1 :=
  let arg0 : BitVec 32 := BitVec.ofNat 32 (i 0).val
  let c4096_i32 : BitVec 32 := 4096#32
  let v14 : BitVec 32 := Scalar.muli arg0 c4096_i32
  let v79 : BitVec 1 := Scalar.cmpi .sge v78 v14
  let c4096_i32_27 : BitVec 32 := 4096#32
  let v80 : BitVec 32 := Scalar.addi v14 c4096_i32_27
  let v81 : BitVec 1 := Scalar.cmpi .slt v78 v80
  let v82 : BitVec 1 := Scalar.andi v79 v81
  let v83 : BitVec 32 := Scalar.extui v82
  let c0_i32_28 : BitVec 32 := 0#32
  let v84 : BitVec 1 := Scalar.cmpi .ne v83 c0_i32_28
  v84

def k0_chk10 (i : grid0.Coords) (v78 : BitVec 32) : Prop :=
  (∀ (k0_h10 : k0_cond10 i v78 = 1#1), ∀ a, (k0_off10 i v78) a + S1x384.size a ≤ S4096x384.size a)
instance k0_chk10.dec : ∀ (i : grid0.Coords) (v78 : BitVec 32), Decidable (k0_chk10 i v78) := fun i v78 => decidable_of_iff' _ (Iff.of_eq (k0_chk10.eq_1 i v78))
theorem k0_off10_inb : ∀ (i : grid0.Coords) (v78 : BitVec 32) (k0_hw10 : k0_chk10 i v78), ∀ (k0_h10 : k0_cond10 i v78 = 1#1), ∀ a, (k0_off10 i v78) a + S1x384.size a ≤ S4096x384.size a := fun i v78 k0_hw10 k0_h10 => k0_hw10 k0_h10

def k0_off11 (i : grid0.Coords) (v85 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v85 v14
  let v130 : Index := Scalar.indexCast v127
  let c0_43 : Index := 0#32
  ![v130.toNat, 0]
def k0_cond11 (i : grid0.Coords) (v85 : BitVec 32) : BitVec 1 :=
  let arg0 : BitVec 32 := BitVec.ofNat 32 (i 0).val
  let c4096_i32 : BitVec 32 := 4096#32
  let v14 : BitVec 32 := Scalar.muli arg0 c4096_i32
  let v86 : BitVec 1 := Scalar.cmpi .sge v85 v14
  let c4096_i32_29 : BitVec 32 := 4096#32
  let v87 : BitVec 32 := Scalar.addi v14 c4096_i32_29
  let v88 : BitVec 1 := Scalar.cmpi .slt v85 v87
  let v89 : BitVec 1 := Scalar.andi v86 v88
  let v90 : BitVec 32 := Scalar.extui v89
  let c0_i32_30 : BitVec 32 := 0#32
  let v91 : BitVec 1 := Scalar.cmpi .ne v90 c0_i32_30
  v91

def k0_chk11 (i : grid0.Coords) (v85 : BitVec 32) : Prop :=
  (∀ (k0_h11 : k0_cond11 i v85 = 1#1), ∀ a, (k0_off11 i v85) a + S1x384.size a ≤ S4096x384.size a)
instance k0_chk11.dec : ∀ (i : grid0.Coords) (v85 : BitVec 32), Decidable (k0_chk11 i v85) := fun i v85 => decidable_of_iff' _ (Iff.of_eq (k0_chk11.eq_1 i v85))
theorem k0_off11_inb : ∀ (i : grid0.Coords) (v85 : BitVec 32) (k0_hw11 : k0_chk11 i v85), ∀ (k0_h11 : k0_cond11 i v85 = 1#1), ∀ a, (k0_off11 i v85) a + S1x384.size a ≤ S4096x384.size a := fun i v85 k0_hw11 k0_h11 => k0_hw11 k0_h11

def k0_off12 (i : grid0.Coords) (v92 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v92 v14
  let v130 : Index := Scalar.indexCast v127
  let c0_43 : Index := 0#32
  ![v130.toNat, 0]
def k0_cond12 (i : grid0.Coords) (v92 : BitVec 32) : BitVec 1 :=
  let arg0 : BitVec 32 := BitVec.ofNat 32 (i 0).val
  let c4096_i32 : BitVec 32 := 4096#32
  let v14 : BitVec 32 := Scalar.muli arg0 c4096_i32
  let v93 : BitVec 1 := Scalar.cmpi .sge v92 v14
  let c4096_i32_31 : BitVec 32 := 4096#32
  let v94 : BitVec 32 := Scalar.addi v14 c4096_i32_31
  let v95 : BitVec 1 := Scalar.cmpi .slt v92 v94
  let v96 : BitVec 1 := Scalar.andi v93 v95
  let v97 : BitVec 32 := Scalar.extui v96
  let c0_i32_32 : BitVec 32 := 0#32
  let v98 : BitVec 1 := Scalar.cmpi .ne v97 c0_i32_32
  v98

def k0_chk12 (i : grid0.Coords) (v92 : BitVec 32) : Prop :=
  (∀ (k0_h12 : k0_cond12 i v92 = 1#1), ∀ a, (k0_off12 i v92) a + S1x384.size a ≤ S4096x384.size a)
instance k0_chk12.dec : ∀ (i : grid0.Coords) (v92 : BitVec 32), Decidable (k0_chk12 i v92) := fun i v92 => decidable_of_iff' _ (Iff.of_eq (k0_chk12.eq_1 i v92))
theorem k0_off12_inb : ∀ (i : grid0.Coords) (v92 : BitVec 32) (k0_hw12 : k0_chk12 i v92), ∀ (k0_h12 : k0_cond12 i v92 = 1#1), ∀ a, (k0_off12 i v92) a + S1x384.size a ≤ S4096x384.size a := fun i v92 k0_hw12 k0_h12 => k0_hw12 k0_h12

def k0_off13 (i : grid0.Coords) (v99 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v99 v14
  let v130 : Index := Scalar.indexCast v127
  let c0_43 : Index := 0#32
  ![v130.toNat, 0]
def k0_cond13 (i : grid0.Coords) (v99 : BitVec 32) : BitVec 1 :=
  let arg0 : BitVec 32 := BitVec.ofNat 32 (i 0).val
  let c4096_i32 : BitVec 32 := 4096#32
  let v14 : BitVec 32 := Scalar.muli arg0 c4096_i32
  let v100 : BitVec 1 := Scalar.cmpi .sge v99 v14
  let c4096_i32_33 : BitVec 32 := 4096#32
  let v101 : BitVec 32 := Scalar.addi v14 c4096_i32_33
  let v102 : BitVec 1 := Scalar.cmpi .slt v99 v101
  let v103 : BitVec 1 := Scalar.andi v100 v102
  let v104 : BitVec 32 := Scalar.extui v103
  let c0_i32_34 : BitVec 32 := 0#32
  let v105 : BitVec 1 := Scalar.cmpi .ne v104 c0_i32_34
  v105

def k0_chk13 (i : grid0.Coords) (v99 : BitVec 32) : Prop :=
  (∀ (k0_h13 : k0_cond13 i v99 = 1#1), ∀ a, (k0_off13 i v99) a + S1x384.size a ≤ S4096x384.size a)
instance k0_chk13.dec : ∀ (i : grid0.Coords) (v99 : BitVec 32), Decidable (k0_chk13 i v99) := fun i v99 => decidable_of_iff' _ (Iff.of_eq (k0_chk13.eq_1 i v99))
theorem k0_off13_inb : ∀ (i : grid0.Coords) (v99 : BitVec 32) (k0_hw13 : k0_chk13 i v99), ∀ (k0_h13 : k0_cond13 i v99 = 1#1), ∀ a, (k0_off13 i v99) a + S1x384.size a ≤ S4096x384.size a := fun i v99 k0_hw13 k0_h13 => k0_hw13 k0_h13

def k0_off14 (i : grid0.Coords) (v106 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v106 v14
  let v130 : Index := Scalar.indexCast v127
  let c0_43 : Index := 0#32
  ![v130.toNat, 0]
def k0_cond14 (i : grid0.Coords) (v106 : BitVec 32) : BitVec 1 :=
  let arg0 : BitVec 32 := BitVec.ofNat 32 (i 0).val
  let c4096_i32 : BitVec 32 := 4096#32
  let v14 : BitVec 32 := Scalar.muli arg0 c4096_i32
  let v107 : BitVec 1 := Scalar.cmpi .sge v106 v14
  let c4096_i32_35 : BitVec 32 := 4096#32
  let v108 : BitVec 32 := Scalar.addi v14 c4096_i32_35
  let v109 : BitVec 1 := Scalar.cmpi .slt v106 v108
  let v110 : BitVec 1 := Scalar.andi v107 v109
  let v111 : BitVec 32 := Scalar.extui v110
  let c0_i32_36 : BitVec 32 := 0#32
  let v112 : BitVec 1 := Scalar.cmpi .ne v111 c0_i32_36
  v112

def k0_chk14 (i : grid0.Coords) (v106 : BitVec 32) : Prop :=
  (∀ (k0_h14 : k0_cond14 i v106 = 1#1), ∀ a, (k0_off14 i v106) a + S1x384.size a ≤ S4096x384.size a)
instance k0_chk14.dec : ∀ (i : grid0.Coords) (v106 : BitVec 32), Decidable (k0_chk14 i v106) := fun i v106 => decidable_of_iff' _ (Iff.of_eq (k0_chk14.eq_1 i v106))
theorem k0_off14_inb : ∀ (i : grid0.Coords) (v106 : BitVec 32) (k0_hw14 : k0_chk14 i v106), ∀ (k0_h14 : k0_cond14 i v106 = 1#1), ∀ a, (k0_off14 i v106) a + S1x384.size a ≤ S4096x384.size a := fun i v106 k0_hw14 k0_h14 => k0_hw14 k0_h14

def k0_off15 (i : grid0.Coords) (v113 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v113 v14
  let v130 : Index := Scalar.indexCast v127
  let c0_43 : Index := 0#32
  ![v130.toNat, 0]
def k0_cond15 (i : grid0.Coords) (v113 : BitVec 32) : BitVec 1 :=
  let arg0 : BitVec 32 := BitVec.ofNat 32 (i 0).val
  let c4096_i32 : BitVec 32 := 4096#32
  let v14 : BitVec 32 := Scalar.muli arg0 c4096_i32
  let v114 : BitVec 1 := Scalar.cmpi .sge v113 v14
  let c4096_i32_37 : BitVec 32 := 4096#32
  let v115 : BitVec 32 := Scalar.addi v14 c4096_i32_37
  let v116 : BitVec 1 := Scalar.cmpi .slt v113 v115
  let v117 : BitVec 1 := Scalar.andi v114 v116
  let v118 : BitVec 32 := Scalar.extui v117
  let c0_i32_38 : BitVec 32 := 0#32
  let v119 : BitVec 1 := Scalar.cmpi .ne v118 c0_i32_38
  v119

def k0_chk15 (i : grid0.Coords) (v113 : BitVec 32) : Prop :=
  (∀ (k0_h15 : k0_cond15 i v113 = 1#1), ∀ a, (k0_off15 i v113) a + S1x384.size a ≤ S4096x384.size a)
instance k0_chk15.dec : ∀ (i : grid0.Coords) (v113 : BitVec 32), Decidable (k0_chk15 i v113) := fun i v113 => decidable_of_iff' _ (Iff.of_eq (k0_chk15.eq_1 i v113))
theorem k0_off15_inb : ∀ (i : grid0.Coords) (v113 : BitVec 32) (k0_hw15 : k0_chk15 i v113), ∀ (k0_h15 : k0_cond15 i v113 = 1#1), ∀ a, (k0_off15 i v113) a + S1x384.size a ≤ S4096x384.size a := fun i v113 k0_hw15 k0_h15 => k0_hw15 k0_h15

def k0_off16 (i : grid0.Coords) (v120 : BitVec 32) : Fin 2 → Nat :=
  let arg0 : BitVec 32 := BitVec.ofNat 32 (i 0).val
  let c4096_i32 : BitVec 32 := 4096#32
  let v14 : BitVec 32 := Scalar.muli arg0 c4096_i32
  let v127 : BitVec 32 := Scalar.subi v120 v14
  let v130 : Index := Scalar.indexCast v127
  let c0_43 : Index := 0#32
  ![v130.toNat, 0]
def k0_cond16 (i : grid0.Coords) (v120 : BitVec 32) : BitVec 1 :=
  let arg0 : BitVec 32 := BitVec.ofNat 32 (i 0).val
  let c4096_i32 : BitVec 32 := 4096#32
  let v14 : BitVec 32 := Scalar.muli arg0 c4096_i32
  let v121 : BitVec 1 := Scalar.cmpi .sge v120 v14
  let c4096_i32_39 : BitVec 32 := 4096#32
  let v122 : BitVec 32 := Scalar.addi v14 c4096_i32_39
  let v123 : BitVec 1 := Scalar.cmpi .slt v120 v122
  let v124 : BitVec 1 := Scalar.andi v121 v123
  let v125 : BitVec 32 := Scalar.extui v124
  let c0_i32_40 : BitVec 32 := 0#32
  let v126 : BitVec 1 := Scalar.cmpi .ne v125 c0_i32_40
  v126

def k0_chk16 (i : grid0.Coords) (v120 : BitVec 32) : Prop :=
  (∀ (k0_h16 : k0_cond16 i v120 = 1#1), ∀ a, (k0_off16 i v120) a + S1x384.size a ≤ S4096x384.size a)
instance k0_chk16.dec : ∀ (i : grid0.Coords) (v120 : BitVec 32), Decidable (k0_chk16 i v120) := fun i v120 => decidable_of_iff' _ (Iff.of_eq (k0_chk16.eq_1 i v120))
theorem k0_off16_inb : ∀ (i : grid0.Coords) (v120 : BitVec 32) (k0_hw16 : k0_chk16 i v120), ∀ (k0_h16 : k0_cond16 i v120 = 1#1), ∀ a, (k0_off16 i v120) a + S1x384.size a ≤ S4096x384.size a := fun i v120 k0_hw16 k0_h16 => k0_hw16 k0_h16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x8192_S131072x1 : S16x8192.ShapeCasts S131072x1
  shapeCasts_S384_S1x384 : S384.ShapeCasts S1x384
  inb_S4096x80_S4096x80_0_0 : ∀ a, (![0, 0] : Fin 2 → Nat) a + S4096x80.size a ≤ S4096x80.size a
  h_S4096x80 : 0 < S4096x80.numel
  bitsLt_bf16_f32 : FTy.bits .bf16 < FTy.bits .f32
  inb_S384x80_S384x80_0_0 : ∀ a, (![0, 0] : Fin 2 → Nat) a + S384x80.size a ≤ S384x80.size a
  h_S384x80 : 0 < S384x80.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x384 : S4096x1.Broadcasts S4096x384
  inb_S4096x384_S4096x384_0_0 : ∀ a, (![0, 0] : Fin 2 → Nat) a + S4096x384.size a ≤ S4096x384.size a
  h_S4096x384 : 0 < S4096x384.numel
  inb_S16_S1_0 : ∀ a, (![0] : Fin 1 → Nat) a + S1.size a ≤ S16.size a
  numel1_S1 : S1.numel = 1
  shapeCasts_S1x384_S384 : S1x384.ShapeCasts S384
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  dot_S4096x80_S384x80_S4096x384_1_1_0_0_n_n_wf : DotDims.WF S4096x80 S384x80 S4096x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x80.size a ≤ S131072x80.size a
  hwx0_0 : ∀ i : grid0.Coords, EltTy.bits .f32 = 32 ∨ (Rect.block (s := S131072x80) S4096x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x80.size a ≤ S384x80.size a
  hwx0_2 : ∀ i : grid0.Coords, EltTy.bits .f32 = 32 ∨ (Rect.block (s := S384x80) S384x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x384.size a ≤ S131072x384.size a
  hwx0_5 : ∀ i : grid0.Coords, EltTy.bits .f32 = 32 ∨ (Rect.block (s := S131072x384) S4096x384.size (cc0_transform_5 i) (hinb0_5 i)).WholeWords (EltTy.packing .f32)

variable [Facts₀]

def dot_S4096x80_S384x80_S4096x384_1_1_0_0_n_n : DotDims S4096x80 S384x80 S4096x384 where
  lhsContracting := [1]
  rhsContracting := [1]
  lhsNonContracting := [0]
  rhsNonContracting := [0]
  lhsBatch := []
  rhsBatch := []
  wf := dot_S4096x80_S384x80_S4096x384_1_1_0_0_n_n_wf

abbrev spec0_0 : Pipeline.WinSpec sig grid0.rank :=
  Pipeline.WinSpec.ofSpec (Memref.whole main_arg0) S4096x80.size reads0_0 false false 2 stage0_0 sem0_0 nbuf0_0 hstage0_0

abbrev spec0_1 : Pipeline.WinSpec sig grid0.rank :=
  Pipeline.WinSpec.ofSpec (Memref.whole main_v1) S4096x1.size reads0_1 false false 2 stage0_1 sem0_1 nbuf0_1 hstage0_1

abbrev spec0_2 : Pipeline.WinSpec sig grid0.rank :=
  Pipeline.WinSpec.ofSpec (Memref.whole main_arg4) S384x80.size reads0_2 false true 1 stage0_2 sem0_2 nbuf0_2 hstage0_2

abbrev spec0_3 : Pipeline.WinSpec sig grid0.rank :=
  Pipeline.WinSpec.ofSpec (Memref.whole main_v2) S1x384.size reads0_3 false true 1 stage0_3 sem0_3 nbuf0_3 hstage0_3

abbrev spec0_4 : Pipeline.WinSpec sig grid0.rank :=
  Pipeline.WinSpec.ofSpec (Memref.whole main_v3) S1x384.size reads0_4 false true 1 stage0_4 sem0_4 nbuf0_4 hstage0_4

abbrev spec0_5 : Pipeline.WinSpec sig grid0.rank :=
  Pipeline.WinSpec.ofSpec (Memref.whole main_v4) S4096x384.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S131072x80 : Shape := ⟨2, ![131072, 80]⟩
abbrev S16x8192 : Shape := ⟨2, ![16, 8192]⟩
abbrev S16 : Shape := ⟨1, ![16]⟩
abbrev S131072 : Shape := ⟨1, ![131072]⟩
abbrev S384x80 : Shape := ⟨2, ![384, 80]⟩
abbrev S384 : Shape := ⟨1, ![384]⟩
abbrev S80x384 : Shape := ⟨2, ![80, 384]⟩
abbrev S131072x384 : Shape := ⟨2, ![131072, 384]⟩
abbrev S1x384 : Shape := ⟨2, ![1, 384]⟩
abbrev S131072x1 : Shape := ⟨2, ![131072, 1]⟩
abbrev S_ : Shape := ⟨0, ![]⟩
abbrev S16x384 : Shape := ⟨2, ![16, 384]⟩
abbrev S16x1 : Shape := ⟨2, ![16, 1]⟩

abbrev nBuf : Space → Nat
  | .hbm => 28
  | .vmem => 0
  | .smem => 0
  | _ => 0

abbrev bufTy : (tb : Table) → Fin (tcTables nBuf tb) → BufTy
  | .hbm, ⟨0, _⟩ => ⟨S131072x80, .f32⟩
  | .hbm, ⟨1, _⟩ => ⟨S16x8192, .i1⟩
  | .hbm, ⟨2, _⟩ => ⟨S16, .i32⟩
  | .hbm, ⟨3, _⟩ => ⟨S131072, .i32⟩
  | .hbm, ⟨4, _⟩ => ⟨S384x80, .f32⟩
  | .hbm, ⟨5, _⟩ => ⟨S384, .f32⟩
  | .hbm, ⟨6, _⟩ => ⟨S384, .f32⟩
  | .hbm, ⟨7, _⟩ => ⟨S131072, .i1⟩
  | .hbm, ⟨8, _⟩ => ⟨S80x384, .f32⟩
  | .hbm, ⟨9, _⟩ => ⟨S131072x384, .f32⟩
  | .hbm, ⟨10, _⟩ => ⟨S1x384, .f32⟩
  | .hbm, ⟨11, _⟩ => ⟨S131072x384, .f32⟩
  | .hbm, ⟨12, _⟩ => ⟨S131072x384, .f32⟩
  | .hbm, ⟨13, _⟩ => ⟨S131072x1, .i1⟩
  | .hbm, ⟨14, _⟩ => ⟨S_, .f32⟩
  | .hbm, ⟨15, _⟩ => ⟨S131072x384, .i1⟩
  | .hbm, ⟨16, _⟩ => ⟨S131072x384, .f32⟩
  | .hbm, ⟨17, _⟩ => ⟨S131072x384, .f32⟩
  | .hbm, ⟨18, _⟩ => ⟨S16x384, .f32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S131072x384, .f32⟩
  | _, _ => ⟨S131072x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  shapeCasts_S16x8192_S131072 : S16x8192.ShapeCasts S131072
  transposes_S384x80_S80x384_1_0 : S384x80.Transposes [1, 0] S80x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  bcast_S131072_S131072x1_0 : S131072.BroadcastsInDim S131072x1 (![0] : Fin 1 → Fin S131072x1.rank)
  bcast_S131072x1_S131072x384_0_1 : S131072x1.BroadcastsInDim S131072x384 (![0, 1] : Fin 2 → Fin S131072x384.rank)
  bcast_S_S131072x384 : S_.BroadcastsInDim S131072x384 (![] : Fin 0 → Fin S131072x384.rank)
  bcast_S384_S16x384_1 : S384.BroadcastsInDim S16x384 (![1] : Fin 1 → Fin S16x384.rank)
  bcast_S_S16 : S_.BroadcastsInDim S16 (![] : Fin 0 → Fin S16.rank)
  bcast_S16_S16x1_0 : S16.BroadcastsInDim S16x1 (![0] : Fin 1 → Fin S16x1.rank)
  dot_S131072x80_S80x384_S131072x384_1_0_0_1_n_n_wf : DotDims.WF S131072x80 S80x384 S131072x384 [1] [0] [0] [1] [] []
  scatter_S131072x384_S16x1_S16x384_1_0_0_1_wf : ScatterDims.WF S131072x384 S16x1 S16x384 [1] [0] [0] 1

variable [Facts₀]

def dot_S131072x80_S80x384_S131072x384_1_0_0_1_n_n : DotDims S131072x80 S80x384 S131072x384 where
  lhsContracting := [1]
  rhsContracting := [0]
  lhsNonContracting := [0]
  rhsNonContracting := [1]
  lhsBatch := []
  rhsBatch := []
  wf := dot_S131072x80_S80x384_S131072x384_1_0_0_1_n_n_wf
def scatter_S131072x384_S16x1_S16x384_1_0_0_1 : ScatterDims S131072x384 S16x1 S16x384 where
  updateWindowDims := [1]
  insertedWindowDims := [0]
  scatterDimsToOperandDims := [0]
  indexVectorDim := 1
  wf := scatter_S131072x384_S16x1_S16x384_1_0_0_1_wf

class Facts : Prop extends Facts₀ where

variable [Facts]
-- ==== Proof.KKit.lean ====
/-
  What the frame proof of the kernel program is stated over, for any float instance.

  The program runs four host operations (a reshape and a conversion of the mask, two reshapes of the
  bias and the class token) and then one pipelined region over a grid of 32 points with six windows
  and one table of 16 index words held in scalar memory, which only the body reads.

  This file states, for that program: the buffers' contents when the region is entered (the launch
  memory after the four host operations), that the seven argument arrays reach the region as launched,
  the table's contents and its half share handed to the body, each window's block at a point, that an
  input window's staging buffer holds its block at every point whether or not it was fetched there,
  that the output window is written back at every point, the body as the region calls it, and that a
  run to the region's frame post is the frame claim's post for the seven arguments.
-/
import proofs.«420591_j37915971289108_2_alg».proof.Proof.Gen.Kernel.Launch
import proofs.«420591_j37915971289108_2_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Kit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the four host operations. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- The program is its four host operations and then the region: holding the buffers at the launch memory it
    reaches the region holding them at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is none of the four the host operations produce is written by none of them. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- Each argument array reaches the region as launched. -/
theorem V_main_arg0 (c : Dev nD) : V m c main_arg0 = m ((c : Thread nD τ).loc main_arg0) :=
  StableHlo.after_of_forall_not_mem (b := Proc.devRef .tc main_arg0) hostOps0 _ (not_written main_arg0 (by decide))
theorem V_main_arg1 (c : Dev nD) : V m c main_arg1 = m ((c : Thread nD τ).loc main_arg1) :=
  StableHlo.after_of_forall_not_mem (b := Proc.devRef .tc main_arg1) hostOps0 _ (not_written main_arg1 (by decide))
theorem V_main_arg2 (c : Dev nD) : V m c main_arg2 = m ((c : Thread nD τ).loc main_arg2) :=
  StableHlo.after_of_forall_not_mem (b := Proc.devRef .tc main_arg2) hostOps0 _ (not_written main_arg2 (by decide))
theorem V_main_arg3 (c : Dev nD) : V m c main_arg3 = m ((c : Thread nD τ).loc main_arg3) :=
  StableHlo.after_of_forall_not_mem (b := Proc.devRef .tc main_arg3) hostOps0 _ (not_written main_arg3 (by decide))
theorem V_main_arg4 (c : Dev nD) : V m c main_arg4 = m ((c : Thread nD τ).loc main_arg4) :=
  StableHlo.after_of_forall_not_mem (b := Proc.devRef .tc main_arg4) hostOps0 _ (not_written main_arg4 (by decide))
theorem V_main_arg5 (c : Dev nD) : V m c main_arg5 = m ((c : Thread nD τ).loc main_arg5) :=
  StableHlo.after_of_forall_not_mem (b := Proc.devRef .tc main_arg5) hostOps0 _ (not_written main_arg5 (by decide))
theorem V_main_arg6 (c : Dev nD) : V m c main_arg6 = m ((c : Thread nD τ).loc main_arg6) :=
  StableHlo.after_of_forall_not_mem (b := Proc.devRef .tc main_arg6) hostOps0 _ (not_written main_arg6 (by decide))

/-! ## The table of index words, read off the launch memory -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- The region's side condition of the table's contents: no window's index map reads the table, so it is `True`. -/
abbrev Ok : Prop := ok0 (F := F) (tbl m)
theorem ok : Ok m := trivial
/-- The table's contents as admissible contents, and the region at them. -/
abbrev adm (hO : Ok m) : (pcfg0 (F := F)).Adm := ⟨tbl m, hO⟩
abbrev cfgM (hO : Ok m) : Pipeline.Cfg sig Λ₀ := cfg0 (adm m hO)

/-- The table as the body is handed it: its whole buffer as a memref, and that memref's wholeness. -/
abbrev tbM0_0 : Memref sig .tc .smem S16 .i32 := Memref.whole main_arg2
abbrev htbM0_0 : tbM0_0.IsWhole := Memref.isWhole_whole _

/-- A table memref's buffer on core `c`: its contents type, and it held at half the full share at `f`
    (read-only: the region keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body: one table, one points-to. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! Each input window's current staging buffer holds its block at every point, fetched there or not, for any proof
    data whose array is the region-entry contents and whose body leaves the block in place: where the window is not
    fetched its block index has not moved. The five input windows are uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The schedule of the output window, the staging memrefs, the body -/

/-- The output window is written back at every point, at any contents of the table (its index map reads none). -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the region calls it with: the point's coordinates, the table's memref
    and the six windows' current staging memrefs. -/
abbrev bodyAt0 (a : (pcfg0 (F := F)).Adm) (t : Fin (cfg0 a).N) : Prog (TpuEff nD τ sig (Elt F) Λ₀ .tc) PUnit :=
  cc0__token_embed_kernel (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- Each window's current staging memref at point `t`, spelled as the region passes it, and its wholeness. -/
abbrev ms0_0 (hO : Ok m) (t : Fin (cfgM m hO).N) : Memref sig .tc .vmem S4096x80 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S384x80 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x384 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x384 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x384 .f32 := spec0_5.stage ((cfgM m hO).slots t 5)
abbrev hs0_5 (hO : Ok m) (t : Fin (cfgM m hO).N) : (ms0_5 m hO t).IsWhole := hstage0_5 (((cfgM m hO).slots t 5).cast nbuf0_5)

/-- The body as the region calls it is the kernel function on the table's memref and those six memrefs. -/
theorem bodyAt0_eq (hO : Ok m) (t : Fin (cfgM m hO).N) :
    bodyAt0 (adm m hO) t = cc0__token_embed_kernel (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) := rfl

/-! ## The frame claim's post from the region's frame post -/

/-- For any proof data whose arrays are the region-entry contents, a run to the region's frame post read at the seven
    argument arrays is the frame claim's post: the features and the weights are the arrays of input windows 0 and 2,
    which end as they were at the region's entry; the mask, the row indices, the bias, the class token and the table
    of index words bypass the region (unscoped, no window's array) and end as the region found them; and each of the
    seven reaches the region as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).1 2).trans (((dats 0 c).arrAt_in 2 rfl _).trans ((hA c 2).trans (V_main_arg4 m c))),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c)⟩) h

/-! ## The three window arrays the host operations wrote, as terms of the arguments -/

/-- Window 1's array: the mask reshaped to a column and converted to floats. -/
theorem V_main_v1 (c : Dev nD) : (V m c main_v1 : S131072x1.Idx → Elt F .f32)
    = (uitofp .f32 : (⟨S131072x1, .i1⟩ : BufTy).Contents (Elt F) → (⟨S131072x1, .f32⟩ : BufTy).Contents (Elt F))
        (shapeCast S131072x1 (m ((c : Thread nD τ).loc main_arg1)) shapeCasts_S16x8192_S131072x1) := by
  dsimp only [V, hostOps0]; after_results; rfl
/-- Window 3's array: the bias reshaped to a row. -/
theorem V_main_v2 (c : Dev nD) : (V m c main_v2 : S1x384.Idx → Elt F .f32)
    = shapeCast S1x384 (m ((c : Thread nD τ).loc main_arg5)) shapeCasts_S384_S1x384 := by
  dsimp only [V, hostOps0]; after_results; rfl
/-- Window 4's array: the class token reshaped to a row. -/
theorem V_main_v3 (c : Dev nD) : (V m c main_v3 : S1x384.Idx → Elt F .f32)
    = shapeCast S1x384 (m ((c : Thread nD τ).loc main_arg6)) shapeCasts_S384_S1x384 := by
  dsimp only [V, hostOps0]; after_results; rfl

/-! ## The body the region calls, and the body obligation from an entailment over it -/

/-- What the region runs at point `t` — the body table's row at the region's label, on the point and the windows'
    current slots — is `bodyAt0`. -/
theorem bodyAt0_spec (hO : Ok m) (t : Fin (cfgM m hO).N) :
    defs₀ (F := F) .tc (cfgM m hO).body ((cfgM m hO).bodyArgs t ((cfgM m hO).slots t)) = bodyAt0 (adm m hO) t := rfl

/-- The library's body obligation for proof data `dat` from its statement with the six windows written out: holding the
    invariant, what the core owes and each window's current staging memref at what it then holds, the body at point
    `t` runs to the invariant and the debts at the next point and each memref at what the body leaves. No window is
    idle at any point, so each is left at `dat.after`. -/
theorem body_obligation_of (hO : Ok m) {c : Dev nD} (dat : Dat τ (Elt F) Unit ℕ (UR sig nD τ) ℕ (cfgM m hO) c)
    (h : ∀ t : Fin (cfgM m hO).N,
      (iprop(dat.Φ t.castSucc ∗ dat.owesAt () t.castSucc
        ∗ (∃ d, owns (c : Thread nD τ) (ms0_0 m hO t) fullShare (dat.before 0 t d))
        ∗ (∃ d, owns (c : Thread nD τ) (ms0_1 m hO t) fullShare (dat.before 1 t d))
        ∗ (∃ d, owns (c : Thread nD τ) (ms0_2 m hO t) fullShare (dat.before 2 t d))
        ∗ (∃ d, owns (c : Thread nD τ) (ms0_3 m hO t) fullShare (dat.before 3 t d))
        ∗ (∃ d, owns (c : Thread nD τ) (ms0_4 m hO t) fullShare (dat.before 4 t d))
        ∗ (∃ d, owns (c : Thread nD τ) (ms0_5 m hO t) fullShare (dat.before 5 t d))) : sProp 𝕄)
      ⊢ wp frame (wpE (defs₀ (F := F)) Variants.none c none) Set.univ (bodyAt0 (adm m hO) t) (fun _ =>
        iprop(dat.Φ t.succ ∗ dat.owesAt () t.succ
          ∗ owns (c : Thread nD τ) (ms0_0 m hO t) fullShare (dat.after 0 t)
          ∗ owns (c : Thread nD τ) (ms0_1 m hO t) fullShare (dat.after 1 t)
          ∗ owns (c : Thread nD τ) (ms0_2 m hO t) fullShare (dat.after 2 t)
          ∗ owns (c : Thread nD τ) (ms0_3 m hO t) fullShare (dat.after 3 t)
          ∗ owns (c : Thread nD τ) (ms0_4 m hO t) fullShare (dat.after 4 t)
          ∗ owns (c : Thread nD τ) (ms0_5 m hO t) fullShare (dat.after 5 t)))) :
    BodyObligation dat (defs₀ (F := F)) Variants.none () Set.univ := fun t => by
  rw [bigSep_W0, bigSep_W0]
  exact h t

/-! ## The frame run for any proof data -/

-- the launch theorem's implicit arguments are found by unifying its conclusion with this one, which takes unfolding
-- plain definitions in a metavariable's type
set_option backward.isDefEq.respectTransparency.types false in
/-- For any proof data of the region at the table's contents whose arrays are the region-entry contents, which lend
    whole shares, owe nothing, carry the class invariant with the table's half, and meet the body obligation: every
    weakly fair execution of the program terminates, and every final state satisfies the region's frame post. -/
theorem run_of (hO : Ok m) (dats : (p : Fin 1) → (c : Dev nD) → Dat τ (Elt F) Unit ℕ (UR sig nD τ) ℕ ((Pipeline.pin pcfgs fun _ => adm m hO) p) c)
    (hbody : ∀ c, BodyObligation (dats 0 c) (defs₀ (F := F)) Variants.none () Set.univ)
    (hshare : ∀ c w, (dats 0 c).share w = fullShare) (howed : ∀ c t, (dats 0 c).owed t = 0)
    (hA : ∀ c w, (dats 0 c).A w = V m c (Pipeline.arrRef spec0 w))
    (hΦ : ∀ c t, (dats 0 c).Φ t = iprop(Pipeline.ΦA spec0 c ∗ Pipeline.ΦT pre0 (tbl m) c)) :
    θ_run defs (onTc (τ := τ) (main (F := F))) (s₀ m ρ) (Pipeline.FramePost (Pipeline.pin pcfgs fun _ => adm m hO) dats 0 (V m)) :=
  Pipeline.θ_run_frameP pcfgs (fun _ => adm m hO) dats (0 : Fin 1) launch0 defs₀ Variants.none m ρ main
    (hbody := fun c => (hbody c).loose) (hshare := hshare) (howed := howed) (V := V m) (hmain := hmain m Variants.none)
    (hA := hA) (hpf := V_pre m) (hΦ := hΦ)

end Cert.Kernel.Kit

end
-- ==== Proof.KRun.lean ====
/-
  The kernel body at one grid point, run once over arbitrary staging buffers.

  The body stores the masked affine tile  y = (feat_blk · Wᵀ + bias) ⊙ mask_col  over the whole 4096 × 384 output tile,
  and then, for each of the sixteen index words g in turn, overwrites row  g − 4096·i  of the tile with the class-token
  row when  4096·i ≤ g < 4096·i + 4096  (signed), and leaves the tile alone otherwise.  Each of the sixteen guarded
  stores is taken both ways and the two outcomes are joined into one function of the tile before the next guard, so the
  tile after the body is the sixteen-fold composition of one guarded row insertion over the masked affine tile:
  `insRaw` on raw contents, `insV` on the tile's values.  The side condition the body assumes of each word (the row
  offset lies inside the tile whenever the guard holds) is taken as a hypothesis here and proved of every word elsewhere.
-/
import proofs.«420591_j37915971289108_2_alg».proof.Proof.Gen.Kernel.Launch
import proofs.«420591_j37915971289108_2_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value
import Idealize.ShloMosaic.Lib.ValueIdx

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM : Memref sig .tc .smem S16 .i32 := Memref.whole main_arg2
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The class-token row as a guarded store's payload reads it off its staging buffer. -/
abbrev clsRow (arg6 : Memref sig .tc .vmem S1x384 .f32) (harg6 : arg6.IsWhole) (x4 : Vec F S1x384 .f32) : Vec F S1x384 .f32 :=
  k0_pay6 (View.readAt (Elt F) arg6.view (Rect.unit (s := S1x384) ![0, 0] S1x384.size inb_S1x384_S1x384_0_0).toLoadRect (harg6.unread x4))

/-- What one guarded insertion leaves of raw contents `g`: the row the word names overwritten when the word lies in the tile. -/
def insRaw (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (g : BufTy.Contents (Elt F) arg7.view.ty) : BufTy.Contents (Elt F) arg7.view.ty :=
  if hc : k0_cond1 i v = 1#1 then
    arg7.view.writes (Elt F) g [⟨Rect.unit (s := S4096x384) (k0_off1 i v) S1x384.size (k0_off1_inb i v hw hc), clsRow arg6 harg6 x4⟩]
  else g

/-- The raw contents after the masked product is stored over the whole tile. -/
def raw0 (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) : BufTy.Contents (Elt F) arg7.view.ty :=
  arg7.view.writes (Elt F) f5
    [⟨Rect.unit (s := S4096x384) ![0, 0] S4096x384.size inb_S4096x384_S4096x384_0_0,
      k0_pay5
        (View.readAt (Elt F) arg2.view (Rect.unit (s := S4096x80) ![0, 0] S4096x80.size inb_S4096x80_S4096x80_0_0).toLoadRect (harg2.unread x0))
        (View.readAt (Elt F) arg4.view (Rect.unit (s := S384x80) ![0, 0] S384x80.size inb_S384x80_S384x80_0_0).toLoadRect (harg4.unread x2))
        (View.readAt (Elt F) arg5.view (Rect.unit (s := S1x384) ![0, 0] S1x384.size inb_S1x384_S1x384_0_0).toLoadRect (harg5.unread x3))
        (View.readAt (Elt F) arg3.view (Rect.unit (s := S4096x1) ![0, 0] S4096x1.size inb_S4096x1_S4096x1_0_0).toLoadRect (harg3.unread x1))⟩]

theorem fold_raw0 (c : Dev nD) (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) :
    (View.loc (c : Thread nD τ) arg7.view ↦[arg7.view.set]{fullShare}
      arg7.view.writes (Elt F) f5
        [⟨Rect.unit (s := S4096x384) ![0, 0] S4096x384.size inb_S4096x384_S4096x384_0_0,
          k0_pay5
            (View.readAt (Elt F) arg2.view (Rect.unit (s := S4096x80) ![0, 0] S4096x80.size inb_S4096x80_S4096x80_0_0).toLoadRect (harg2.unread x0))
            (View.readAt (Elt F) arg4.view (Rect.unit (s := S384x80) ![0, 0] S384x80.size inb_S384x80_S384x80_0_0).toLoadRect (harg4.unread x2))
            (View.readAt (Elt F) arg5.view (Rect.unit (s := S1x384) ![0, 0] S1x384.size inb_S1x384_S1x384_0_0).toLoadRect (harg5.unread x3))
            (View.readAt (Elt F) arg3.view (Rect.unit (s := S4096x1) ![0, 0] S4096x1.size inb_S4096x1_S4096x1_0_0).toLoadRect (harg3.unread x1))⟩] : sProp 𝕄)
      ⊢ (View.loc (c : Thread nD τ) arg7.view ↦[arg7.view.set]{fullShare} raw0 arg2 harg2 arg3 harg3 arg4 harg4 arg5 harg5 arg7 x0 x1 x2 x3 f5) := .rfl

theorem fold_ins1 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk1 i v) (g : BufTy.Contents (Elt F) arg7.view.ty) :
    (View.loc (c : Thread nD τ) arg7.view ↦[arg7.view.set]{fullShare}
      (if hc : k0_cond1 i v = 1#1 then
        arg7.view.writes (Elt F) g [⟨Rect.unit (s := S4096x384) (k0_off1 i v) S1x384.size (k0_off1_inb i v hw' hc),
          k0_pay6 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins2 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk2 i v) (g : BufTy.Contents (Elt F) arg7.view.ty) :
    (View.loc (c : Thread nD τ) arg7.view ↦[arg7.view.set]{fullShare}
      (if hc : k0_cond2 i v = 1#1 then
        arg7.view.writes (Elt F) g [⟨Rect.unit (s := S4096x384) (k0_off2 i v) S1x384.size (k0_off2_inb i v hw' hc),
          k0_pay7 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins3 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk3 i v) (g : BufTy.Contents (Elt F) arg7.view.ty) :
    (View.loc (c : Thread nD τ) arg7.view ↦[arg7.view.set]{fullShare}
      (if hc : k0_cond3 i v = 1#1 then
        arg7.view.writes (Elt F) g [⟨Rect.unit (s := S4096x384) (k0_off3 i v) S1x384.size (k0_off3_inb i v hw' hc),
          k0_pay8 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins4 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk4 i v) (g : BufTy.Contents (Elt F) arg7.view.ty) :
    (View.loc (c : Thread nD τ) arg7.view ↦[arg7.view.set]{fullShare}
      (if hc : k0_cond4 i v = 1#1 then
        arg7.view.writes (Elt F) g [⟨Rect.unit (s := S4096x384) (k0_off4 i v) S1x384.size (k0_off4_inb i v hw' hc),
          k0_pay9 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins5 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk5 i v) (g : BufTy.Contents (Elt F) arg7.view.ty) :
    (View.loc (c : Thread nD τ) arg7.view ↦[arg7.view.set]{fullShare}
      (if hc : k0_cond5 i v = 1#1 then
        arg7.view.writes (Elt F) g [⟨Rect.unit (s := S4096x384) (k0_off5 i v) S1x384.size (k0_off5_inb i v hw' hc),
          k0_pay10 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins6 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk6 i v) (g : BufTy.Contents (Elt F) arg7.view.ty) :
    (View.loc (c : Thread nD τ) arg7.view ↦[arg7.view.set]{fullShare}
      (if hc : k0_cond6 i v = 1#1 then
        arg7.view.writes (Elt F) g [⟨Rect.unit (s := S4096x384) (k0_off6 i v) S1x384.size (k0_off6_inb i v hw' hc),
          k0_pay11 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins7 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk7 i v) (g : BufTy.Contents (Elt F) arg7.view.ty) :
    (View.loc (c : Thread nD τ) arg7.view ↦[arg7.view.set]{fullShare}
      (if hc : k0_cond7 i v = 1#1 then
        arg7.view.writes (Elt F) g [⟨Rect.unit (s := S4096x384) (k0_off7 i v) S1x384.size (k0_off7_inb i v hw' hc),
          k0_pay12 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins8 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk8 i v) (g : BufTy.Contents (Elt F) arg7.view.ty) :
    (View.loc (c : Thread nD τ) arg7.view ↦[arg7.view.set]{fullShare}
      (if hc : k0_cond8 i v = 1#1 then
        arg7.view.writes (Elt F) g [⟨Rect.unit (s := S4096x384) (k0_off8 i v) S1x384.size (k0_off8_inb i v hw' hc),
          k0_pay13 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins9 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk9 i v) (g : BufTy.Contents (Elt F) arg7.view.ty) :
    (View.loc (c : Thread nD τ) arg7.view ↦[arg7.view.set]{fullShare}
      (if hc : k0_cond9 i v = 1#1 then
        arg7.view.writes (Elt F) g [⟨Rect.unit (s := S4096x384) (k0_off9 i v) S1x384.size (k0_off9_inb i v hw' hc),
          k0_pay14 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins10 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk10 i v) (g : BufTy.Contents (Elt F) arg7.view.ty) :
    (View.loc (c : Thread nD τ) arg7.view ↦[arg7.view.set]{fullShare}
      (if hc : k0_cond10 i v = 1#1 then
        arg7.view.writes (Elt F) g [⟨Rect.unit (s := S4096x384) (k0_off10 i v) S1x384.size (k0_off10_inb i v hw' hc),
          k0_pay15 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins11 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk11 i v) (g : BufTy.Contents (Elt F) arg7.view.ty) :
    (View.loc (c : Thread nD τ) arg7.view ↦[arg7.view.set]{fullShare}
      (if hc : k0_cond11 i v = 1#1 then
        arg7.view.writes (Elt F) g [⟨Rect.unit (s := S4096x384) (k0_off11 i v) S1x384.size (k0_off11_inb i v hw' hc),
          k0_pay16 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins12 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk12 i v) (g : BufTy.Contents (Elt F) arg7.view.ty) :
    (View.loc (c : Thread nD τ) arg7.view ↦[arg7.view.set]{fullShare}
      (if hc : k0_cond12 i v = 1#1 then
        arg7.view.writes (Elt F) g [⟨Rect.unit (s := S4096x384) (k0_off12 i v) S1x384.size (k0_off12_inb i v hw' hc),
          k0_pay17 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins13 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk13 i v) (g : BufTy.Contents (Elt F) arg7.view.ty) :
    (View.loc (c : Thread nD τ) arg7.view ↦[arg7.view.set]{fullShare}
      (if hc : k0_cond13 i v = 1#1 then
        arg7.view.writes (Elt F) g [⟨Rect.unit (s := S4096x384) (k0_off13 i v) S1x384.size (k0_off13_inb i v hw' hc),
          k0_pay1 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins14 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk14 i v) (g : BufTy.Contents (Elt F) arg7.view.ty) :
    (View.loc (c : Thread nD τ) arg7.view ↦[arg7.view.set]{fullShare}
      (if hc : k0_cond14 i v = 1#1 then
        arg7.view.writes (Elt F) g [⟨Rect.unit (s := S4096x384) (k0_off14 i v) S1x384.size (k0_off14_inb i v hw' hc),
          k0_pay2 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins15 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk15 i v) (g : BufTy.Contents (Elt F) arg7.view.ty) :
    (View.loc (c : Thread nD τ) arg7.view ↦[arg7.view.set]{fullShare}
      (if hc : k0_cond15 i v = 1#1 then
        arg7.view.writes (Elt F) g [⟨Rect.unit (s := S4096x384) (k0_off15 i v) S1x384.size (k0_off15_inb i v hw' hc),
          k0_pay3 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins16 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk16 i v) (g : BufTy.Contents (Elt F) arg7.view.ty) :
    (View.loc (c : Thread nD τ) arg7.view ↦[arg7.view.set]{fullShare}
      (if hc : k0_cond16 i v = 1#1 then
        arg7.view.writes (Elt F) g [⟨Rect.unit (s := S4096x384) (k0_off16 i v) S1x384.size (k0_off16_inb i v hw' hc),
          k0_pay4 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

set_option maxHeartbeats 16000000 in
/-- The body's run: from the five input buffers at their contents, the output buffer at anything and the table's half,
    the body ends with the inputs as they were and the output buffer at `R f`, `f` what it held before — `R` the
    sixteen guarded insertions over the masked affine tile, found by the run. -/
noncomputable def kernelRun (c : Dev nD) (i : grid0.Coords)
    (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg6 : Memref sig .tc .vmem S1x384 .f32) (harg6 : arg6.IsWhole) (arg7 : Memref sig .tc .vmem S4096x384 .f32) (harg7 : arg7.IsWhole)
    (x0 : Vec F S4096x80 .f32) (x1 : Vec F S4096x1 .f32) (x2 : Vec F S384x80 .f32) (x3 : Vec F S1x384 .f32) (x4 : Vec F S1x384 .f32)
    (xt : TbBuf (F := F) c tbM)
    (hchk : ∀ (i : grid0.Coords) (v : BitVec 32), k0_chk1 i v) :
    { R : BufTy.Contents (Elt F) arg7.view.ty → BufTy.Contents (Elt F) arg7.view.ty //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ tbPt c tbM xt
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} R f) ∗ tbPt c tbM xt) -∗ K ⟨⟩))
          ⊢ wp frame (wpE (defs₀ (F := F)) Variants.none c none) E (cc0__token_embed_kernel i tbM htbM arg2 harg2 arg3 harg3 arg4 harg4 arg5 harg5 arg6 harg6 arg7 harg7) K } := by
  refine ⟨?_, fun E K => ?run⟩
  case run =>
  simp only [cc0__token_embed_kernel_eq_skeleton]; unfold cc0__token_embed_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
  obtain rfl := harg2.eq_unread hf0
  obtain rfl := harg3.eq_unread hf1
  obtain rfl := harg4.eq_unread hf2
  obtain rfl := harg5.eq_unread hf3
  obtain rfl := harg6.eq_unread hf4
  set_option sl_exec.stopBefore "k0_cond1" in sl_exec (disch := first | sl_exact (hchk _ _))
  ihave H5 := (fold_raw0 c arg2 harg2 arg3 harg3 arg4 harg4 arg5 harg5 arg7 x0 x1 x2 x3 f5) $$ H5
  set_option sl_exec.stopBefore "k0_cond2" in sl_exec (disch := first | sl_exact (hchk _ _))
  ihave H5 := (fold_ins1 c i arg6 harg6 arg7 x4 _ (hchk _ _) (hchk _ _) _) $$ H5
  set_option sl_exec.stopBefore "k0_cond3" in sl_exec (disch := first | sl_exact (hchk _ _))
  ihave H5 := (fold_ins2 c i arg6 harg6 arg7 x4 _ (hchk _ _) (hchk _ _) _) $$ H5
  set_option sl_exec.stopBefore "k0_cond4" in sl_exec (disch := first | sl_exact (hchk _ _))
  ihave H5 := (fold_ins3 c i arg6 harg6 arg7 x4 _ (hchk _ _) (hchk _ _) _) $$ H5
  set_option sl_exec.stopBefore "k0_cond5" in sl_exec (disch := first | sl_exact (hchk _ _))
  ihave H5 := (fold_ins4 c i arg6 harg6 arg7 x4 _ (hchk _ _) (hchk _ _) _) $$ H5
  set_option sl_exec.stopBefore "k0_cond6" in sl_exec (disch := first | sl_exact (hchk _ _))
  ihave H5 := (fold_ins5 c i arg6 harg6 arg7 x4 _ (hchk _ _) (hchk _ _) _) $$ H5
  set_option sl_exec.stopBefore "k0_cond7" in sl_exec (disch := first | sl_exact (hchk _ _))
  ihave H5 := (fold_ins6 c i arg6 harg6 arg7 x4 _ (hchk _ _) (hchk _ _) _) $$ H5
  set_option sl_exec.stopBefore "k0_cond8" in sl_exec (disch := first | sl_exact (hchk _ _))
  ihave H5 := (fold_ins7 c i arg6 harg6 arg7 x4 _ (hchk _ _) (hchk _ _) _) $$ H5
  set_option sl_exec.stopBefore "k0_cond9" in sl_exec (disch := first | sl_exact (hchk _ _))
  ihave H5 := (fold_ins8 c i arg6 harg6 arg7 x4 _ (hchk _ _) (hchk _ _) _) $$ H5
  set_option sl_exec.stopBefore "k0_cond10" in sl_exec (disch := first | sl_exact (hchk _ _))
  ihave H5 := (fold_ins9 c i arg6 harg6 arg7 x4 _ (hchk _ _) (hchk _ _) _) $$ H5
  set_option sl_exec.stopBefore "k0_cond11" in sl_exec (disch := first | sl_exact (hchk _ _))
  ihave H5 := (fold_ins10 c i arg6 harg6 arg7 x4 _ (hchk _ _) (hchk _ _) _) $$ H5
  set_option sl_exec.stopBefore "k0_cond12" in sl_exec (disch := first | sl_exact (hchk _ _))
  ihave H5 := (fold_ins11 c i arg6 harg6 arg7 x4 _ (hchk _ _) (hchk _ _) _) $$ H5
  set_option sl_exec.stopBefore "k0_cond13" in sl_exec (disch := first | sl_exact (hchk _ _))
  ihave H5 := (fold_ins12 c i arg6 harg6 arg7 x4 _ (hchk _ _) (hchk _ _) _) $$ H5
  set_option sl_exec.stopBefore "k0_cond14" in sl_exec (disch := first | sl_exact (hchk _ _))
  ihave H5 := (fold_ins13 c i arg6 harg6 arg7 x4 _ (hchk _ _) (hchk _ _) _) $$ H5
  set_option sl_exec.stopBefore "k0_cond15" in sl_exec (disch := first | sl_exact (hchk _ _))
  ihave H5 := (fold_ins14 c i arg6 harg6 arg7 x4 _ (hchk _ _) (hchk _ _) _) $$ H5
  set_option sl_exec.stopBefore "k0_cond16" in sl_exec (disch := first | sl_exact (hchk _ _))
  ihave H5 := (fold_ins15 c i arg6 harg6 arg7 x4 _ (hchk _ _) (hchk _ _) _) $$ H5
  sl_exec (disch := first | sl_exact (hchk _ _))
  ihave H5 := (fold_ins16 c i arg6 harg6 arg7 x4 _ (hchk _ _) (hchk _ _) _) $$ H5
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; iexact H5
  iexact HT0

/-! ## The contents read as values of the tile -/

open Idealize.ShloMosaic.ValueIdx

/-- One guarded insertion on the tile's values: row `k0_off1 i v 0` becomes `row` when the word lies in tile `i`. -/
def insV (i : grid0.Coords) (row : Vec F S1x384 .f32) (v : BitVec 32) (o : Vec F S4096x384 .f32) : Vec F S4096x384 .f32 := fun y =>
  if k0_cond1 i v = 1#1 ∧ (y 0).val = k0_off1 i v 0 then row (ix2 (0 : Fin 1) (⟨(y 1).val, (y 1).isLt⟩ : Fin 384)) else o y

theorem off1_eq (i : grid0.Coords) (v : BitVec 32) : k0_off1 i v = ![k0_off1 i v 0, 0] := by
  unfold k0_off1; rfl

/-- Reading the raw contents after one guarded insertion: the insertion on values. -/
theorem read_insRaw (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (g : BufTy.Contents (Elt F) arg7.view.ty) :
    arg7.view.read (Elt F) (insRaw i arg6 harg6 arg7 x4 v hw g) = insV i (clsRow arg6 harg6 x4) v (arg7.view.read (Elt F) g) := by
  funext y
  unfold insRaw insV
  by_cases hc : k0_cond1 i v = 1#1
  · rw [dif_pos hc]
    rw [View.read_writes_cons_rows (d := ![4096, 384]) arg7.view g (k0_off1_inb i v hw hc) _ [] y (o := k0_off1 i v 0) (W := 1)
      (off1_eq i v) rfl rfl]
    rw [View.writes_nil]
    by_cases h : k0_off1 i v 0 ≤ (y 0).val ∧ (y 0).val < k0_off1 i v 0 + 1
    · rw [dif_pos h, if_pos ⟨hc, by omega⟩]
      congr 1
      funext a
      match a with
      | ⟨0, _⟩ => apply Fin.ext; show (y 0).val - k0_off1 i v 0 = 0; omega
      | ⟨1, _⟩ => apply Fin.ext; show (y 1).val - 0 = (y 1).val; omega
    · rw [dif_neg h, if_neg (fun hh => h (by omega))]
  · rw [dif_neg hc, if_neg (fun hh => hc hh.1)]

end Cert.Kernel.Run

end
-- ==== Proof.KRead.lean ====
/-
  The tile the body leaves, as a function of the blocks it was handed.

  Reading back the raw contents the run found: a load through a whole rectangle of a buffer held at contents `x`
  reads `x`; the masked affine store covers the tile, so the tile reads as that payload; each guarded insertion reads
  as the insertion on values; and each word the body loads from the table is the table's entry at that position.  So
  the tile after the body is the left fold of the guarded row insertion over the table's sixteen entries, in order,
  starting from the masked affine tile — whatever the output buffer held before.
-/
import proofs.«420591_j37915971289108_2_alg».proof.Proof.KRun

set_option maxRecDepth 16384

noncomputable section

namespace Cert.Kernel.Run

open Cert.Kernel Cert.Kernel.Gen
open Idealize.ShloMosaic Idealize.ShloMosaic.TcCoe Idealize.ShloMosaic.ValueIdx
open Idealize.SL Idealize.SL.Sem

variable {F : FTy → Type} [FloatOps F]

theorem zero2 : (![0, 0] : Fin 2 → ℕ) = fun _ => 0 :=
  funext fun a => by match a with | ⟨0, _⟩ => rfl | ⟨1, _⟩ => rfl

/-- A load through the whole rectangle of a whole buffer held at contents `x` reads `x`. -/
theorem readAt_whole {S : Shape} (arg : Memref sig .tc .vmem S .f32) (harg : arg.IsWhole) (x : Vec F S .f32) {off : Fin S.rank → ℕ}
    (h : off = fun _ => 0) (inb : ∀ a, off a + S.size a ≤ S.size a) :
    View.readAt (Elt F) arg.view (Rect.unit (s := S) off S.size inb).toLoadRect (harg.unread x) = x := by
  rw [View.readAt_eq_ld, harg.read_unread, View.ld_unit_zero h inb]

/-- The masked affine store covers the tile: the tile reads as its payload over the four input blocks. -/
theorem read_raw0 (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) :
    arg7.view.read (Elt F) (raw0 arg2 harg2 arg3 harg3 arg4 harg4 arg5 harg5 arg7 x0 x1 x2 x3 f5) = k0_pay5 x0 x2 x3 x1 := by
  unfold raw0
  rw [readAt_whole arg2 harg2 x0 zero2, readAt_whole arg4 harg4 x2 zero2, readAt_whole arg5 harg5 x3 zero2, readAt_whole arg3 harg3 x1 zero2]
  funext y
  exact View.read_writes_cons_unit_of_mem arg7.view f5 inb_S4096x384_S4096x384_0_0 _ [] y y rfl
    (fun a => by match a with | ⟨0, _⟩ => exact (Nat.zero_add _).symm | ⟨1, _⟩ => exact (Nat.zero_add _).symm)

/-- The class-token row a guarded store writes is the row's staging buffer's contents, re-laid twice to the same shape. -/
theorem clsRow_eq (arg6 : Memref sig .tc .vmem S1x384 .f32) (harg6 : arg6.IsWhole) (x4 : Vec F S1x384 .f32) :
    clsRow arg6 harg6 x4 = k0_pay6 x4 := by
  unfold clsRow
  rw [readAt_whole arg6 harg6 x4 zero2]

/-- Entry `k` of the table as the body reads it through the table's whole buffer. -/
def wordOf (c : Dev nD) (xt : TbBuf (F := F) c tbM) (k : Fin 16) : BitVec 32 := tbM.view.read (Elt F) xt (ix1 k)

theorem sl_r_eq (c : Dev nD) (xt : TbBuf (F := F) c tbM) : kernelRun.sl.r (F := F) c xt = wordOf c xt (0 : Fin 16) := by
  unfold kernelRun.sl.r wordOf
  rw [View.readAt_apply]
  congr 1
  funext a
  match a with
  | ⟨0, _⟩ => apply Fin.ext; rfl
theorem sl_r_1_eq (c : Dev nD) (xt : TbBuf (F := F) c tbM) : kernelRun.sl.r_1 (F := F) c xt = wordOf c xt (1 : Fin 16) := by
  unfold kernelRun.sl.r_1 wordOf
  rw [View.readAt_apply]
  congr 1
  funext a
  match a with
  | ⟨0, _⟩ => apply Fin.ext; rfl
theorem sl_r_2_eq (c : Dev nD) (xt : TbBuf (F := F) c tbM) : kernelRun.sl.r_2 (F := F) c xt = wordOf c xt (2 : Fin 16) := by
  unfold kernelRun.sl.r_2 wordOf
  rw [View.readAt_apply]
  congr 1
  funext a
  match a with
  | ⟨0, _⟩ => apply Fin.ext; rfl
theorem sl_r_3_eq (c : Dev nD) (xt : TbBuf (F := F) c tbM) : kernelRun.sl.r_3 (F := F) c xt = wordOf c xt (3 : Fin 16) := by
  unfold kernelRun.sl.r_3 wordOf
  rw [View.readAt_apply]
  congr 1
  funext a
  match a with
  | ⟨0, _⟩ => apply Fin.ext; rfl
theorem sl_r_4_eq (c : Dev nD) (xt : TbBuf (F := F) c tbM) : kernelRun.sl.r_4 (F := F) c xt = wordOf c xt (4 : Fin 16) := by
  unfold kernelRun.sl.r_4 wordOf
  rw [View.readAt_apply]
  congr 1
  funext a
  match a with
  | ⟨0, _⟩ => apply Fin.ext; rfl
theorem sl_r_5_eq (c : Dev nD) (xt : TbBuf (F := F) c tbM) : kernelRun.sl.r_5 (F := F) c xt = wordOf c xt (5 : Fin 16) := by
  unfold kernelRun.sl.r_5 wordOf
  rw [View.readAt_apply]
  congr 1
  funext a
  match a with
  | ⟨0, _⟩ => apply Fin.ext; rfl
theorem sl_r_6_eq (c : Dev nD) (xt : TbBuf (F := F) c tbM) : kernelRun.sl.r_6 (F := F) c xt = wordOf c xt (6 : Fin 16) := by
  unfold kernelRun.sl.r_6 wordOf
  rw [View.readAt_apply]
  congr 1
  funext a
  match a with
  | ⟨0, _⟩ => apply Fin.ext; rfl
theorem sl_r_7_eq (c : Dev nD) (xt : TbBuf (F := F) c tbM) : kernelRun.sl.r_7 (F := F) c xt = wordOf c xt (7 : Fin 16) := by
  unfold kernelRun.sl.r_7 wordOf
  rw [View.readAt_apply]
  congr 1
  funext a
  match a with
  | ⟨0, _⟩ => apply Fin.ext; rfl
theorem sl_r_8_eq (c : Dev nD) (xt : TbBuf (F := F) c tbM) : kernelRun.sl.r_8 (F := F) c xt = wordOf c xt (8 : Fin 16) := by
  unfold kernelRun.sl.r_8 wordOf
  rw [View.readAt_apply]
  congr 1
  funext a
  match a with
  | ⟨0, _⟩ => apply Fin.ext; rfl
theorem sl_r_9_eq (c : Dev nD) (xt : TbBuf (F := F) c tbM) : kernelRun.sl.r_9 (F := F) c xt = wordOf c xt (9 : Fin 16) := by
  unfold kernelRun.sl.r_9 wordOf
  rw [View.readAt_apply]
  congr 1
  funext a
  match a with
  | ⟨0, _⟩ => apply Fin.ext; rfl
theorem sl_r_10_eq (c : Dev nD) (xt : TbBuf (F := F) c tbM) : kernelRun.sl.r_10 (F := F) c xt = wordOf c xt (10 : Fin 16) := by
  unfold kernelRun.sl.r_10 wordOf
  rw [View.readAt_apply]
  congr 1
  funext a
  match a with
  | ⟨0, _⟩ => apply Fin.ext; rfl
theorem sl_r_11_eq (c : Dev nD) (xt : TbBuf (F := F) c tbM) : kernelRun.sl.r_11 (F := F) c xt = wordOf c xt (11 : Fin 16) := by
  unfold kernelRun.sl.r_11 wordOf
  rw [View.readAt_apply]
  congr 1
  funext a
  match a with
  | ⟨0, _⟩ => apply Fin.ext; rfl
theorem sl_r_12_eq (c : Dev nD) (xt : TbBuf (F := F) c tbM) : kernelRun.sl.r_12 (F := F) c xt = wordOf c xt (12 : Fin 16) := by
  unfold kernelRun.sl.r_12 wordOf
  rw [View.readAt_apply]
  congr 1
  funext a
  match a with
  | ⟨0, _⟩ => apply Fin.ext; rfl
theorem sl_r_13_eq (c : Dev nD) (xt : TbBuf (F := F) c tbM) : kernelRun.sl.r_13 (F := F) c xt = wordOf c xt (13 : Fin 16) := by
  unfold kernelRun.sl.r_13 wordOf
  rw [View.readAt_apply]
  congr 1
  funext a
  match a with
  | ⟨0, _⟩ => apply Fin.ext; rfl
theorem sl_r_14_eq (c : Dev nD) (xt : TbBuf (F := F) c tbM) : kernelRun.sl.r_14 (F := F) c xt = wordOf c xt (14 : Fin 16) := by
  unfold kernelRun.sl.r_14 wordOf
  rw [View.readAt_apply]
  congr 1
  funext a
  match a with
  | ⟨0, _⟩ => apply Fin.ext; rfl
theorem sl_r_15_eq (c : Dev nD) (xt : TbBuf (F := F) c tbM) : kernelRun.sl.r_15 (F := F) c xt = wordOf c xt (15 : Fin 16) := by
  unfold kernelRun.sl.r_15 wordOf
  rw [View.readAt_apply]
  congr 1
  funext a
  match a with
  | ⟨0, _⟩ => apply Fin.ext; rfl

/-- The tile after the body: the guarded row insertion folded over the table's sixteen entries in order, from the masked
    affine tile. -/
def outTile (c : Dev nD) (i : grid0.Coords) (x0 : Vec F S4096x80 .f32) (x1 : Vec F S4096x1 .f32) (x2 : Vec F S384x80 .f32) (x3 : Vec F S1x384 .f32)
    (x4 : Vec F S1x384 .f32) (xt : TbBuf (F := F) c tbM) : Vec F S4096x384 .f32 :=
  [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)].foldl (fun acc v => insV i (k0_pay6 x4) v acc) (k0_pay5 x0 x2 x3 x1)

/-- What the run's contents read as, whatever the output buffer held before. -/
theorem kernelRun_read (c : Dev nD) (i : grid0.Coords)
    (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg6 : Memref sig .tc .vmem S1x384 .f32) (harg6 : arg6.IsWhole) (arg7 : Memref sig .tc .vmem S4096x384 .f32) (harg7 : arg7.IsWhole)
    (x0 : Vec F S4096x80 .f32) (x1 : Vec F S4096x1 .f32) (x2 : Vec F S384x80 .f32) (x3 : Vec F S1x384 .f32) (x4 : Vec F S1x384 .f32)
    (xt : TbBuf (F := F) c tbM)
    (hchk : ∀ (i : grid0.Coords) (v : BitVec 32), k0_chk1 i v) (f5 : BufTy.Contents (Elt F) arg7.view.ty) :
    arg7.view.read (Elt F) ((kernelRun c i arg2 harg2 arg3 harg3 arg4 harg4 arg5 harg5 arg6 harg6 arg7 harg7 x0 x1 x2 x3 x4 xt hchk).1 f5)
      = outTile c i x0 x1 x2 x3 x4 xt := by
  unfold outTile
  simp only [List.foldl]
  rw [← sl_r_eq c xt, ← sl_r_1_eq c xt, ← sl_r_2_eq c xt, ← sl_r_3_eq c xt, ← sl_r_4_eq c xt, ← sl_r_5_eq c xt, ← sl_r_6_eq c xt, ← sl_r_7_eq c xt, ← sl_r_8_eq c xt, ← sl_r_9_eq c xt, ← sl_r_10_eq c xt, ← sl_r_11_eq c xt, ← sl_r_12_eq c xt, ← sl_r_13_eq c xt, ← sl_r_14_eq c xt, ← sl_r_15_eq c xt, ← clsRow_eq arg6 harg6 x4]
  simp only [← read_raw0 arg2 harg2 arg3 harg3 arg4 harg4 arg5 harg5 arg7 x0 x1 x2 x3 f5]
  simp only [← read_insRaw i arg6 harg6 arg7 x4 _ (hchk _ _)]
  rfl

end Cert.Kernel.Run

end
-- ==== Proof.KWords.lean ====
/-
  Facts about the sixteen index words of the row-overwrite step.

  For a tile number n < 32 and a 32-bit word v read as a two's-complement integer, the guard of the
  overwrite is the test 4096·n ≤ v < 4096·n + 4096, and under the guard the row offset v − 4096·n,
  computed modulo 2^32, is the integer v − 4096·n, which lies in [0, 4096).  Nothing wraps because
  4096·n + 4096 ≤ 2^17.  The access of one row of 384 columns at that offset therefore stays inside
  the 4096 × 384 tile.  The sixteen copies of the guard, the offset and the side condition are the same
  functions.
-/
import proofs.«420591_j37915971289108_2_alg».proof.Kernel
import Mathlib.Data.Fin.VecNotation

namespace Cert.Kernel.Words

open Idealize.ShloMosaic
open Cert.Kernel

/-- The tile's first row, 4096·n as a 32-bit product, is the integer 4096·n. -/
theorem base_toInt (n : Nat) (hn : n < 32) :
    (BitVec.ofNat 32 n * 4096#32).toInt = 4096 * (n : Int) := by
  rw [BitVec.toInt_eq_toNat_cond]
  simp only [BitVec.toNat_mul, BitVec.toNat_ofNat]
  omega

/-- One past the tile's last row, 4096·n + 4096 as a 32-bit sum, is the integer 4096·n + 4096. -/
theorem top_toInt (n : Nat) (hn : n < 32) :
    (BitVec.ofNat 32 n * 4096#32 + 4096#32).toInt = 4096 * (n : Int) + 4096 := by
  rw [BitVec.toInt_eq_toNat_cond]
  simp only [BitVec.toNat_add, BitVec.toNat_mul, BitVec.toNat_ofNat]
  omega

/-- The guard holds exactly when the word, as a signed integer, names a row of tile `i 0`. -/
theorem cond1_iff (i : grid0.Coords) (v : BitVec 32) :
    k0_cond1 i v = 1#1 ↔
      ((4096 * ((i 0).val : Int) ≤ v.toInt) ∧ (v.toInt < 4096 * ((i 0).val : Int) + 4096)) := by
  have hi : (i 0).val < 32 := (i 0).isLt
  unfold k0_cond1
  simp only [Scalar.cmpi, Scalar.muli, Scalar.addi, Scalar.andi, Scalar.extui, IntOp.cmpi,
    IntOp.muli, IntOp.addi, IntOp.andi]
  rw [BitVec.sle_eq_decide, BitVec.slt_eq_decide, base_toInt _ hi, top_toInt _ hi]
  by_cases hA : 4096 * ((i 0).val : Int) ≤ v.toInt <;>
    by_cases hB : v.toInt < 4096 * ((i 0).val : Int) + 4096 <;>
    simp [hA, hB]

/-- Under the guard the row offset is the integer difference between the word and the tile's first row. -/
theorem off1_row (i : grid0.Coords) (v : BitVec 32) (h : k0_cond1 i v = 1#1) :
    ((k0_off1 i v 0 : Nat) : Int) = v.toInt - 4096 * ((i 0).val : Int) := by
  have hi : (i 0).val < 32 := (i 0).isLt
  obtain ⟨hA, hB⟩ := (cond1_iff i v).mp h
  unfold k0_off1
  simp only [Scalar.subi, Scalar.muli, Scalar.indexCast, IntOp.subi, IntOp.muli,
    Matrix.cons_val_zero]
  rw [BitVec.toInt_eq_toNat_cond] at hA hB ⊢
  simp only [BitVec.toNat_sub, BitVec.toNat_mul, BitVec.toNat_ofNat]
  omega

/-- The column offset is zero. -/
theorem off1_col (i : grid0.Coords) (v : BitVec 32) : k0_off1 i v 1 = 0 := rfl

/-- The side condition of the first word: one row of 384 columns at the offset fits the 4096 × 384 tile. -/
theorem chk1 (i : grid0.Coords) (v : BitVec 32) : k0_chk1 i v := by
  intro h a
  have hrow := off1_row i v h
  obtain ⟨hA, hB⟩ := (cond1_iff i v).mp h
  refine Fin.cases ?_ (fun b => Fin.cases ?_ (fun c => c.elim0) b) a
  · show k0_off1 i v 0 + 1 ≤ 4096
    omega
  · show k0_off1 i v 1 + 384 ≤ 384
    rw [off1_col]

theorem cond2_eq : k0_cond2 = k0_cond1 := rfl
theorem off2_eq : k0_off2 = k0_off1 := rfl
theorem chk2 : ∀ (i : grid0.Coords) (v : BitVec 32), k0_chk2 i v := chk1

theorem cond3_eq : k0_cond3 = k0_cond1 := rfl
theorem off3_eq : k0_off3 = k0_off1 := rfl
theorem chk3 : ∀ (i : grid0.Coords) (v : BitVec 32), k0_chk3 i v := chk1

theorem cond4_eq : k0_cond4 = k0_cond1 := rfl
theorem off4_eq : k0_off4 = k0_off1 := rfl
theorem chk4 : ∀ (i : grid0.Coords) (v : BitVec 32), k0_chk4 i v := chk1

theorem cond5_eq : k0_cond5 = k0_cond1 := rfl
theorem off5_eq : k0_off5 = k0_off1 := rfl
theorem chk5 : ∀ (i : grid0.Coords) (v : BitVec 32), k0_chk5 i v := chk1

theorem cond6_eq : k0_cond6 = k0_cond1 := rfl
theorem off6_eq : k0_off6 = k0_off1 := rfl
theorem chk6 : ∀ (i : grid0.Coords) (v : BitVec 32), k0_chk6 i v := chk1

theorem cond7_eq : k0_cond7 = k0_cond1 := rfl
theorem off7_eq : k0_off7 = k0_off1 := rfl
theorem chk7 : ∀ (i : grid0.Coords) (v : BitVec 32), k0_chk7 i v := chk1

theorem cond8_eq : k0_cond8 = k0_cond1 := rfl
theorem off8_eq : k0_off8 = k0_off1 := rfl
theorem chk8 : ∀ (i : grid0.Coords) (v : BitVec 32), k0_chk8 i v := chk1

theorem cond9_eq : k0_cond9 = k0_cond1 := rfl
theorem off9_eq : k0_off9 = k0_off1 := rfl
theorem chk9 : ∀ (i : grid0.Coords) (v : BitVec 32), k0_chk9 i v := chk1

theorem cond10_eq : k0_cond10 = k0_cond1 := rfl
theorem off10_eq : k0_off10 = k0_off1 := rfl
theorem chk10 : ∀ (i : grid0.Coords) (v : BitVec 32), k0_chk10 i v := chk1

theorem cond11_eq : k0_cond11 = k0_cond1 := rfl
theorem off11_eq : k0_off11 = k0_off1 := rfl
theorem chk11 : ∀ (i : grid0.Coords) (v : BitVec 32), k0_chk11 i v := chk1

theorem cond12_eq : k0_cond12 = k0_cond1 := rfl
theorem off12_eq : k0_off12 = k0_off1 := rfl
theorem chk12 : ∀ (i : grid0.Coords) (v : BitVec 32), k0_chk12 i v := chk1

theorem cond13_eq : k0_cond13 = k0_cond1 := rfl
theorem off13_eq : k0_off13 = k0_off1 := rfl
theorem chk13 : ∀ (i : grid0.Coords) (v : BitVec 32), k0_chk13 i v := chk1

theorem cond14_eq : k0_cond14 = k0_cond1 := rfl
theorem off14_eq : k0_off14 = k0_off1 := rfl
theorem chk14 : ∀ (i : grid0.Coords) (v : BitVec 32), k0_chk14 i v := chk1

theorem cond15_eq : k0_cond15 = k0_cond1 := rfl
theorem off15_eq : k0_off15 = k0_off1 := rfl
theorem chk15 : ∀ (i : grid0.Coords) (v : BitVec 32), k0_chk15 i v := chk1

theorem cond16_eq : k0_cond16 = k0_cond1 := rfl
theorem off16_eq : k0_off16 = k0_off1 := rfl
theorem chk16 : ∀ (i : grid0.Coords) (v : BitVec 32), k0_chk16 i v := chk1

end Cert.Kernel.Words
-- ==== Proof.KFrame.lean ====
/-
  The frame of the kernel program, for any float instance: the program runs, and ends with its seven argument arrays
  as launched.

  The proof data of the one pipelined region: every window's array as the region finds it; after the body at a point
  each of the five input windows' staging buffers still at its block, and the output window's at the tile the body
  leaves there — the sixteen guarded row insertions folded over the table's entries from the masked affine tile of the
  point's blocks; the class invariant with the table's half share; whole shares; nothing owed.  The body at a generic
  point meets its obligation by the body's one run over arbitrary staging buffers, read back as that tile.  The region's
  launch theorem then gives the run, and the run read at the seven arguments is the frame.
-/
import proofs.«420591_j37915971289108_2_alg».proof.Proof.KKit
import proofs.«420591_j37915971289108_2_alg».proof.Proof.KRead
import proofs.«420591_j37915971289108_2_alg».proof.Proof.KWords

set_option maxRecDepth 16384

noncomputable section

namespace Cert.Kernel.Frame

open Cert.Kernel Cert.Kernel.Gen Cert.Kernel.Kit Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- The proof data of the region on core `c`: the arrays as the region finds them; after the body at point `t` each
    input's buffer at its block (features, mask column, weights, bias row, class-token row, in the windows' order) and
    the output's at the tile the body leaves of those five blocks and the table's words; the class invariant and the
    table's half; full shares; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outTile c (grid0.coords t) (iblk m hO c 0 t) (iblk m hO c 1 t) (iblk m hO c 2 t) (iblk m hO c 3 t) (iblk m hO c 4 t) (tbl m 0)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) :
    (dats m hO 0 c).after 5 t = outTile c (grid0.coords t) (iblk m hO c 0 t) (iblk m hO c 1 t) (iblk m hO c 2 t) (iblk m hO c 3 t) (iblk m hO c 4 t) (tbl m 0) := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- The body at any point: the five inputs' memrefs hold their blocks, so the body's run applies; it hands the inputs
    and the table's half back as they were and the output's buffer at contents that read as the tile; the invariant
    passes through unread; the core owes nothing throughout. -/
theorem sound_body (hO : Ok m) (c : Dev nD) (t : Fin (cfgM m hO).N) :
    (iprop((dats m hO 0 c).Φ t.castSucc ∗ (dats m hO 0 c).owesAt () t.castSucc
        ∗ (∃ d, owns (c : Thread nD τ) (ms0_0 m hO t) fullShare ((dats m hO 0 c).before 0 t d))
        ∗ (∃ d, owns (c : Thread nD τ) (ms0_1 m hO t) fullShare ((dats m hO 0 c).before 1 t d))
        ∗ (∃ d, owns (c : Thread nD τ) (ms0_2 m hO t) fullShare ((dats m hO 0 c).before 2 t d))
        ∗ (∃ d, owns (c : Thread nD τ) (ms0_3 m hO t) fullShare ((dats m hO 0 c).before 3 t d))
        ∗ (∃ d, owns (c : Thread nD τ) (ms0_4 m hO t) fullShare ((dats m hO 0 c).before 4 t d))
        ∗ (∃ d, owns (c : Thread nD τ) (ms0_5 m hO t) fullShare ((dats m hO 0 c).before 5 t d))) : sProp 𝕄)
      ⊢ wp frame (wpE (defs₀ (F := F)) Variants.none c none) Set.univ (bodyAt0 (adm m hO) t) (fun _ =>
        iprop((dats m hO 0 c).Φ t.succ ∗ (dats m hO 0 c).owesAt () t.succ
          ∗ owns (c : Thread nD τ) (ms0_0 m hO t) fullShare ((dats m hO 0 c).after 0 t)
          ∗ owns (c : Thread nD τ) (ms0_1 m hO t) fullShare ((dats m hO 0 c).after 1 t)
          ∗ owns (c : Thread nD τ) (ms0_2 m hO t) fullShare ((dats m hO 0 c).after 2 t)
          ∗ owns (c : Thread nD τ) (ms0_3 m hO t) fullShare ((dats m hO 0 c).after 3 t)
          ∗ owns (c : Thread nD τ) (ms0_4 m hO t) fullShare ((dats m hO 0 c).after 4 t)
          ∗ owns (c : Thread nD τ) (ms0_5 m hO t) fullShare ((dats m hO 0 c).after 5 t))) := by
  unfold bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m hO c 0 t) (iblk m hO c 1 t) (iblk m hO c 2 t) (iblk m hO c 3 t) (iblk m hO c 4 t) (tbl m 0) Words.chk1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  iintro ⟨H0, H1, H2, H3, H4, ⟨%f5, H5⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact kernelRun_read c (grid0.coords t) _ _ _ _ _ _ _ _ _ _ _ _ _ _ _ _ _ _ Words.chk1 f5

/-- The library's body obligation, at every point. -/
theorem body_obligation (hO : Ok m) (c : Dev nD) : BodyObligation (dats (F := F) m hO 0 c) (defs₀ (F := F)) Variants.none () Set.univ :=
  body_obligation_of m hO (dats m hO 0 c) (sound_body m hO c)

/-! ## The run and the frame -/

/-- From any memory with zero counters every weakly fair execution of the program terminates, and every final state has
    every array of the region at what the proof data give and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  run_of m ρ hO (dats m hO) (body_obligation m hO) (fun c => (dats m hO 0 c).share_full fun _ => rfl) (fun _ _ => rfl)
    (A_eq m hO) (fun _ _ => rfl)

/-- The frame: the program runs and its seven argument arrays end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

end Cert.Kernel.Frame

end
-- ==== Proof.KIKit.lean ====
/-
  What the frame proof of the kernel program is stated over, for any float instance.

  The program runs four host operations (a reshape and a conversion of the mask, two reshapes of the
  bias and the class token) and then one pipelined region over a grid of 32 points with six windows
  and one table of 16 index words held in scalar memory, which only the body reads.

  This file states, for that program: the buffers' contents when the region is entered (the launch
  memory after the four host operations), that the seven argument arrays reach the region as launched,
  the table's contents and its half share handed to the body, each window's block at a point, that an
  input window's staging buffer holds its block at every point whether or not it was fetched there,
  that the output window is written back at every point, the body as the region calls it, and that a
  run to the region's frame post is the frame claim's post for the seven arguments.
-/
import proofs.«420591_j37915971289108_2_alg».proof.Proof.Gen.KernelIdeal.Launch
import proofs.«420591_j37915971289108_2_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the four host operations. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- The program is its four host operations and then the region: holding the buffers at the launch memory it
    reaches the region holding them at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is none of the four the host operations produce is written by none of them. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- Each argument array reaches the region as launched. -/
theorem V_main_arg0 (c : Dev nD) : V m c main_arg0 = m ((c : Thread nD τ).loc main_arg0) :=
  StableHlo.after_of_forall_not_mem (b := Proc.devRef .tc main_arg0) hostOps0 _ (not_written main_arg0 (by decide))
theorem V_main_arg1 (c : Dev nD) : V m c main_arg1 = m ((c : Thread nD τ).loc main_arg1) :=
  StableHlo.after_of_forall_not_mem (b := Proc.devRef .tc main_arg1) hostOps0 _ (not_written main_arg1 (by decide))
theorem V_main_arg2 (c : Dev nD) : V m c main_arg2 = m ((c : Thread nD τ).loc main_arg2) :=
  StableHlo.after_of_forall_not_mem (b := Proc.devRef .tc main_arg2) hostOps0 _ (not_written main_arg2 (by decide))
theorem V_main_arg3 (c : Dev nD) : V m c main_arg3 = m ((c : Thread nD τ).loc main_arg3) :=
  StableHlo.after_of_forall_not_mem (b := Proc.devRef .tc main_arg3) hostOps0 _ (not_written main_arg3 (by decide))
theorem V_main_arg4 (c : Dev nD) : V m c main_arg4 = m ((c : Thread nD τ).loc main_arg4) :=
  StableHlo.after_of_forall_not_mem (b := Proc.devRef .tc main_arg4) hostOps0 _ (not_written main_arg4 (by decide))
theorem V_main_arg5 (c : Dev nD) : V m c main_arg5 = m ((c : Thread nD τ).loc main_arg5) :=
  StableHlo.after_of_forall_not_mem (b := Proc.devRef .tc main_arg5) hostOps0 _ (not_written main_arg5 (by decide))
theorem V_main_arg6 (c : Dev nD) : V m c main_arg6 = m ((c : Thread nD τ).loc main_arg6) :=
  StableHlo.after_of_forall_not_mem (b := Proc.devRef .tc main_arg6) hostOps0 _ (not_written main_arg6 (by decide))

/-! ## The table of index words, read off the launch memory -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- The region's side condition of the table's contents: no window's index map reads the table, so it is `True`. -/
abbrev Ok : Prop := ok0 (F := F) (tbl m)
theorem ok : Ok m := trivial
/-- The table's contents as admissible contents, and the region at them. -/
abbrev adm (hO : Ok m) : (pcfg0 (F := F)).Adm := ⟨tbl m, hO⟩
abbrev cfgM (hO : Ok m) : Pipeline.Cfg sig Λ₀ := cfg0 (adm m hO)

/-- The table as the body is handed it: its whole buffer as a memref, and that memref's wholeness. -/
abbrev tbM0_0 : Memref sig .tc .smem S16 .i32 := Memref.whole main_arg2
abbrev htbM0_0 : tbM0_0.IsWhole := Memref.isWhole_whole _

/-- A table memref's buffer on core `c`: its contents type, and it held at half the full share at `f`
    (read-only: the region keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body: one table, one points-to. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! Each input window's current staging buffer holds its block at every point, fetched there or not, for any proof
    data whose array is the region-entry contents and whose body leaves the block in place: where the window is not
    fetched its block index has not moved. The five input windows are uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The schedule of the output window, the staging memrefs, the body -/

/-- The output window is written back at every point, at any contents of the table (its index map reads none). -/
theorem flush0_5 (a : (pcfg0 (F := F)).Adm) : ∀ t : Fin (cfg0 a).N, ((cfg0 a).win 5).flush t = true :=
  (by decide +kernel : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the region calls it with: the point's coordinates, the table's memref
    and the six windows' current staging memrefs. -/
abbrev bodyAt0 (a : (pcfg0 (F := F)).Adm) (t : Fin (cfg0 a).N) : Prog (TpuEff nD τ sig (Elt F) Λ₀ .tc) PUnit :=
  cc0__token_embed_kernel (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- Each window's current staging memref at point `t`, spelled as the region passes it, and its wholeness. -/
abbrev ms0_0 (hO : Ok m) (t : Fin (cfgM m hO).N) : Memref sig .tc .vmem S4096x80 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S384x80 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x384 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x384 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x384 .f32 := spec0_5.stage ((cfgM m hO).slots t 5)
abbrev hs0_5 (hO : Ok m) (t : Fin (cfgM m hO).N) : (ms0_5 m hO t).IsWhole := hstage0_5 (((cfgM m hO).slots t 5).cast nbuf0_5)

/-- The body as the region calls it is the kernel function on the table's memref and those six memrefs. -/
theorem bodyAt0_eq (hO : Ok m) (t : Fin (cfgM m hO).N) :
    bodyAt0 (adm m hO) t = cc0__token_embed_kernel (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) := rfl

/-! ## The frame claim's post from the region's frame post -/

/-- For any proof data whose arrays are the region-entry contents, a run to the region's frame post read at the seven
    argument arrays is the frame claim's post: the features and the weights are the arrays of input windows 0 and 2,
    which end as they were at the region's entry; the mask, the row indices, the bias, the class token and the table
    of index words bypass the region (unscoped, no window's array) and end as the region found them; and each of the
    seven reaches the region as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).1 2).trans (((dats 0 c).arrAt_in 2 rfl _).trans ((hA c 2).trans (V_main_arg4 m c))),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c)⟩) h

/-! ## The three window arrays the host operations wrote, as terms of the arguments -/

/-- Window 1's array: the mask reshaped to a column and converted to floats. -/
theorem V_main_v1 (c : Dev nD) : (V m c main_v1 : S131072x1.Idx → Elt F .f32)
    = (uitofp .f32 : (⟨S131072x1, .i1⟩ : BufTy).Contents (Elt F) → (⟨S131072x1, .f32⟩ : BufTy).Contents (Elt F))
        (shapeCast S131072x1 (m ((c : Thread nD τ).loc main_arg1)) shapeCasts_S16x8192_S131072x1) := by
  dsimp only [V, hostOps0]; after_results; rfl
/-- Window 3's array: the bias reshaped to a row. -/
theorem V_main_v2 (c : Dev nD) : (V m c main_v2 : S1x384.Idx → Elt F .f32)
    = shapeCast S1x384 (m ((c : Thread nD τ).loc main_arg5)) shapeCasts_S384_S1x384 := by
  dsimp only [V, hostOps0]; after_results; rfl
/-- Window 4's array: the class token reshaped to a row. -/
theorem V_main_v3 (c : Dev nD) : (V m c main_v3 : S1x384.Idx → Elt F .f32)
    = shapeCast S1x384 (m ((c : Thread nD τ).loc main_arg6)) shapeCasts_S384_S1x384 := by
  dsimp only [V, hostOps0]; after_results; rfl

/-! ## The body the region calls, and the body obligation from an entailment over it -/

/-- What the region runs at point `t` — the body table's row at the region's label, on the point and the windows'
    current slots — is `bodyAt0`. -/
theorem bodyAt0_spec (hO : Ok m) (t : Fin (cfgM m hO).N) :
    defs₀ (F := F) .tc (cfgM m hO).body ((cfgM m hO).bodyArgs t ((cfgM m hO).slots t)) = bodyAt0 (adm m hO) t := rfl

/-- The library's body obligation for proof data `dat` from its statement with the six windows written out: holding the
    invariant, what the core owes and each window's current staging memref at what it then holds, the body at point
    `t` runs to the invariant and the debts at the next point and each memref at what the body leaves. No window is
    idle at any point, so each is left at `dat.after`. -/
theorem body_obligation_of (hO : Ok m) {c : Dev nD} (dat : Dat τ (Elt F) Unit ℕ (UR sig nD τ) ℕ (cfgM m hO) c)
    (h : ∀ t : Fin (cfgM m hO).N,
      (iprop(dat.Φ t.castSucc ∗ dat.owesAt () t.castSucc
        ∗ (∃ d, owns (c : Thread nD τ) (ms0_0 m hO t) fullShare (dat.before 0 t d))
        ∗ (∃ d, owns (c : Thread nD τ) (ms0_1 m hO t) fullShare (dat.before 1 t d))
        ∗ (∃ d, owns (c : Thread nD τ) (ms0_2 m hO t) fullShare (dat.before 2 t d))
        ∗ (∃ d, owns (c : Thread nD τ) (ms0_3 m hO t) fullShare (dat.before 3 t d))
        ∗ (∃ d, owns (c : Thread nD τ) (ms0_4 m hO t) fullShare (dat.before 4 t d))
        ∗ (∃ d, owns (c : Thread nD τ) (ms0_5 m hO t) fullShare (dat.before 5 t d))) : sProp 𝕄)
      ⊢ wp frame (wpE (defs₀ (F := F)) Variants.none c none) Set.univ (bodyAt0 (adm m hO) t) (fun _ =>
        iprop(dat.Φ t.succ ∗ dat.owesAt () t.succ
          ∗ owns (c : Thread nD τ) (ms0_0 m hO t) fullShare (dat.after 0 t)
          ∗ owns (c : Thread nD τ) (ms0_1 m hO t) fullShare (dat.after 1 t)
          ∗ owns (c : Thread nD τ) (ms0_2 m hO t) fullShare (dat.after 2 t)
          ∗ owns (c : Thread nD τ) (ms0_3 m hO t) fullShare (dat.after 3 t)
          ∗ owns (c : Thread nD τ) (ms0_4 m hO t) fullShare (dat.after 4 t)
          ∗ owns (c : Thread nD τ) (ms0_5 m hO t) fullShare (dat.after 5 t)))) :
    BodyObligation dat (defs₀ (F := F)) Variants.none () Set.univ := fun t => by
  rw [bigSep_W0, bigSep_W0]
  exact h t

/-! ## The frame run for any proof data -/

-- the launch theorem's implicit arguments are found by unifying its conclusion with this one, which takes unfolding
-- plain definitions in a metavariable's type
set_option backward.isDefEq.respectTransparency.types false in
/-- For any proof data of the region at the table's contents whose arrays are the region-entry contents, which lend
    whole shares, owe nothing, carry the class invariant with the table's half, and meet the body obligation: every
    weakly fair execution of the program terminates, and every final state satisfies the region's frame post. -/
theorem run_of (hO : Ok m) (dats : (p : Fin 1) → (c : Dev nD) → Dat τ (Elt F) Unit ℕ (UR sig nD τ) ℕ ((Pipeline.pin pcfgs fun _ => adm m hO) p) c)
    (hbody : ∀ c, BodyObligation (dats 0 c) (defs₀ (F := F)) Variants.none () Set.univ)
    (hshare : ∀ c w, (dats 0 c).share w = fullShare) (howed : ∀ c t, (dats 0 c).owed t = 0)
    (hA : ∀ c w, (dats 0 c).A w = V m c (Pipeline.arrRef spec0 w))
    (hΦ : ∀ c t, (dats 0 c).Φ t = iprop(Pipeline.ΦA spec0 c ∗ Pipeline.ΦT pre0 (tbl m) c)) :
    θ_run defs (onTc (τ := τ) (main (F := F))) (s₀ m ρ) (Pipeline.FramePost (Pipeline.pin pcfgs fun _ => adm m hO) dats 0 (V m)) :=
  Pipeline.θ_run_frameP pcfgs (fun _ => adm m hO) dats (0 : Fin 1) launch0 defs₀ Variants.none m ρ main
    (hbody := fun c => (hbody c).loose) (hshare := hshare) (howed := howed) (V := V m) (hmain := hmain m Variants.none)
    (hA := hA) (hpf := V_pre m) (hΦ := hΦ)

end Cert.KernelIdeal.Kit

end
-- ==== Proof.KIRun.lean ====
/-
  The kernel body at one grid point, run once over arbitrary staging buffers.

  The body stores the masked affine tile  y = (feat_blk · Wᵀ + bias) ⊙ mask_col  over the whole 4096 × 384 output tile,
  and then, for each of the sixteen index words g in turn, overwrites row  g − 4096·i  of the tile with the class-token
  row when  4096·i ≤ g < 4096·i + 4096  (signed), and leaves the tile alone otherwise.  Each of the sixteen guarded
  stores is taken both ways and the two outcomes are joined into one function of the tile before the next guard, so the
  tile after the body is the sixteen-fold composition of one guarded row insertion over the masked affine tile:
  `insRaw` on raw contents, `insV` on the tile's values.  The side condition the body assumes of each word (the row
  offset lies inside the tile whenever the guard holds) is taken as a hypothesis here and proved of every word elsewhere.
-/
import proofs.«420591_j37915971289108_2_alg».proof.Proof.Gen.KernelIdeal.Launch
import proofs.«420591_j37915971289108_2_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM : Memref sig .tc .smem S16 .i32 := Memref.whole main_arg2
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The class-token row as a guarded store's payload reads it off its staging buffer. -/
abbrev clsRow (arg6 : Memref sig .tc .vmem S1x384 .f32) (harg6 : arg6.IsWhole) (x4 : Vec F S1x384 .f32) : Vec F S1x384 .f32 :=
  k0_pay6 (View.readAt (Elt F) arg6.view (Rect.unit (s := S1x384) ![0, 0] S1x384.size inb_S1x384_S1x384_0_0).toLoadRect (harg6.unread x4))

/-- What one guarded insertion leaves of raw contents `g`: the row the word names overwritten when the word lies in the tile. -/
def insRaw (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (g : BufTy.Contents (Elt F) arg7.view.ty) : BufTy.Contents (Elt F) arg7.view.ty :=
  if hc : k0_cond1 i v = 1#1 then
    arg7.view.writes (Elt F) g [⟨Rect.unit (s := S4096x384) (k0_off1 i v) S1x384.size (k0_off1_inb i v hw hc), clsRow arg6 harg6 x4⟩]
  else g

/-- The raw contents after the masked product is stored over the whole tile. -/
def raw0 (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) : BufTy.Contents (Elt F) arg7.view.ty :=
  arg7.view.writes (Elt F) f5
    [⟨Rect.unit (s := S4096x384) ![0, 0] S4096x384.size inb_S4096x384_S4096x384_0_0,
      k0_pay5
        (View.readAt (Elt F) arg2.view (Rect.unit (s := S4096x80) ![0, 0] S4096x80.size inb_S4096x80_S4096x80_0_0).toLoadRect (harg2.unread x0))
        (View.readAt (Elt F) arg4.view (Rect.unit (s := S384x80) ![0, 0] S384x80.size inb_S384x80_S384x80_0_0).toLoadRect (harg4.unread x2))
        (View.readAt (Elt F) arg5.view (Rect.unit (s := S1x384) ![0, 0] S1x384.size inb_S1x384_S1x384_0_0).toLoadRect (harg5.unread x3))
        (View.readAt (Elt F) arg3.view (Rect.unit (s := S4096x1) ![0, 0] S4096x1.size inb_S4096x1_S4096x1_0_0).toLoadRect (harg3.unread x1))⟩]

theorem fold_raw0 (c : Dev nD) (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) :
    (View.loc (c : Thread nD τ) arg7.view ↦[arg7.view.set]{fullShare}
      arg7.view.writes (Elt F) f5
        [⟨Rect.unit (s := S4096x384) ![0, 0] S4096x384.size inb_S4096x384_S4096x384_0_0,
          k0_pay5
            (View.readAt (Elt F) arg2.view (Rect.unit (s := S4096x80) ![0, 0] S4096x80.size inb_S4096x80_S4096x80_0_0).toLoadRect (harg2.unread x0))
            (View.readAt (Elt F) arg4.view (Rect.unit (s := S384x80) ![0, 0] S384x80.size inb_S384x80_S384x80_0_0).toLoadRect (harg4.unread x2))
            (View.readAt (Elt F) arg5.view (Rect.unit (s := S1x384) ![0, 0] S1x384.size inb_S1x384_S1x384_0_0).toLoadRect (harg5.unread x3))
            (View.readAt (Elt F) arg3.view (Rect.unit (s := S4096x1) ![0, 0] S4096x1.size inb_S4096x1_S4096x1_0_0).toLoadRect (harg3.unread x1))⟩] : sProp 𝕄)
      ⊢ (View.loc (c : Thread nD τ) arg7.view ↦[arg7.view.set]{fullShare} raw0 arg2 harg2 arg3 harg3 arg4 harg4 arg5 harg5 arg7 x0 x1 x2 x3 f5) := .rfl

theorem fold_ins1 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk1 i v) (g : BufTy.Contents (Elt F) arg7.view.ty) :
    (View.loc (c : Thread nD τ) arg7.view ↦[arg7.view.set]{fullShare}
      (if hc : k0_cond1 i v = 1#1 then
        arg7.view.writes (Elt F) g [⟨Rect.unit (s := S4096x384) (k0_off1 i v) S1x384.size (k0_off1_inb i v hw' hc),
          k0_pay6 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins2 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk2 i v) (g : BufTy.Contents (Elt F) arg7.view.ty) :
    (View.loc (c : Thread nD τ) arg7.view ↦[arg7.view.set]{fullShare}
      (if hc : k0_cond2 i v = 1#1 then
        arg7.view.writes (Elt F) g [⟨Rect.unit (s := S4096x384) (k0_off2 i v) S1x384.size (k0_off2_inb i v hw' hc),
          k0_pay7 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins3 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk3 i v) (g : BufTy.Contents (Elt F) arg7.view.ty) :
    (View.loc (c : Thread nD τ) arg7.view ↦[arg7.view.set]{fullShare}
      (if hc : k0_cond3 i v = 1#1 then
        arg7.view.writes (Elt F) g [⟨Rect.unit (s := S4096x384) (k0_off3 i v) S1x384.size (k0_off3_inb i v hw' hc),
          k0_pay8 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins4 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk4 i v) (g : BufTy.Contents (Elt F) arg7.view.ty) :
    (View.loc (c : Thread nD τ) arg7.view ↦[arg7.view.set]{fullShare}
      (if hc : k0_cond4 i v = 1#1 then
        arg7.view.writes (Elt F) g [⟨Rect.unit (s := S4096x384) (k0_off4 i v) S1x384.size (k0_off4_inb i v hw' hc),
          k0_pay9 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins5 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk5 i v) (g : BufTy.Contents (Elt F) arg7.view.ty) :
    (View.loc (c : Thread nD τ) arg7.view ↦[arg7.view.set]{fullShare}
      (if hc : k0_cond5 i v = 1#1 then
        arg7.view.writes (Elt F) g [⟨Rect.unit (s := S4096x384) (k0_off5 i v) S1x384.size (k0_off5_inb i v hw' hc),
          k0_pay10 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins6 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk6 i v) (g : BufTy.Contents (Elt F) arg7.view.ty) :
    (View.loc (c : Thread nD τ) arg7.view ↦[arg7.view.set]{fullShare}
      (if hc : k0_cond6 i v = 1#1 then
        arg7.view.writes (Elt F) g [⟨Rect.unit (s := S4096x384) (k0_off6 i v) S1x384.size (k0_off6_inb i v hw' hc),
          k0_pay11 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins7 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk7 i v) (g : BufTy.Contents (Elt F) arg7.view.ty) :
    (View.loc (c : Thread nD τ) arg7.view ↦[arg7.view.set]{fullShare}
      (if hc : k0_cond7 i v = 1#1 then
        arg7.view.writes (Elt F) g [⟨Rect.unit (s := S4096x384) (k0_off7 i v) S1x384.size (k0_off7_inb i v hw' hc),
          k0_pay12 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins8 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk8 i v) (g : BufTy.Contents (Elt F) arg7.view.ty) :
    (View.loc (c : Thread nD τ) arg7.view ↦[arg7.view.set]{fullShare}
      (if hc : k0_cond8 i v = 1#1 then
        arg7.view.writes (Elt F) g [⟨Rect.unit (s := S4096x384) (k0_off8 i v) S1x384.size (k0_off8_inb i v hw' hc),
          k0_pay13 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins9 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk9 i v) (g : BufTy.Contents (Elt F) arg7.view.ty) :
    (View.loc (c : Thread nD τ) arg7.view ↦[arg7.view.set]{fullShare}
      (if hc : k0_cond9 i v = 1#1 then
        arg7.view.writes (Elt F) g [⟨Rect.unit (s := S4096x384) (k0_off9 i v) S1x384.size (k0_off9_inb i v hw' hc),
          k0_pay14 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins10 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk10 i v) (g : BufTy.Contents (Elt F) arg7.view.ty) :
    (View.loc (c : Thread nD τ) arg7.view ↦[arg7.view.set]{fullShare}
      (if hc : k0_cond10 i v = 1#1 then
        arg7.view.writes (Elt F) g [⟨Rect.unit (s := S4096x384) (k0_off10 i v) S1x384.size (k0_off10_inb i v hw' hc),
          k0_pay15 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins11 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk11 i v) (g : BufTy.Contents (Elt F) arg7.view.ty) :
    (View.loc (c : Thread nD τ) arg7.view ↦[arg7.view.set]{fullShare}
      (if hc : k0_cond11 i v = 1#1 then
        arg7.view.writes (Elt F) g [⟨Rect.unit (s := S4096x384) (k0_off11 i v) S1x384.size (k0_off11_inb i v hw' hc),
          k0_pay16 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins12 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk12 i v) (g : BufTy.Contents (Elt F) arg7.view.ty) :
    (View.loc (c : Thread nD τ) arg7.view ↦[arg7.view.set]{fullShare}
      (if hc : k0_cond12 i v = 1#1 then
        arg7.view.writes (Elt F) g [⟨Rect.unit (s := S4096x384) (k0_off12 i v) S1x384.size (k0_off12_inb i v hw' hc),
          k0_pay17 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins13 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk13 i v) (g : BufTy.Contents (Elt F) arg7.view.ty) :
    (View.loc (c : Thread nD τ) arg7.view ↦[arg7.view.set]{fullShare}
      (if hc : k0_cond13 i v = 1#1 then
        arg7.view.writes (Elt F) g [⟨Rect.unit (s := S4096x384) (k0_off13 i v) S1x384.size (k0_off13_inb i v hw' hc),
          k0_pay1 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins14 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk14 i v) (g : BufTy.Contents (Elt F) arg7.view.ty) :
    (View.loc (c : Thread nD τ) arg7.view ↦[arg7.view.set]{fullShare}
      (if hc : k0_cond14 i v = 1#1 then
        arg7.view.writes (Elt F) g [⟨Rect.unit (s := S4096x384) (k0_off14 i v) S1x384.size (k0_off14_inb i v hw' hc),
          k0_pay2 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins15 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk15 i v) (g : BufTy.Contents (Elt F) arg7.view.ty) :
    (View.loc (c : Thread nD τ) arg7.view ↦[arg7.view.set]{fullShare}
      (if hc : k0_cond15 i v = 1#1 then
        arg7.view.writes (Elt F) g [⟨Rect.unit (s := S4096x384) (k0_off15 i v) S1x384.size (k0_off15_inb i v hw' hc),
          k0_pay3 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

theorem fold_ins16 (c : Dev nD) (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (hw' : k0_chk16 i v) (g : BufTy.Contents (Elt F) arg7.view.ty) :
    (View.loc (c : Thread nD τ) arg7.view ↦[arg7.view.set]{fullShare}
      (if hc : k0_cond16 i v = 1#1 then
        arg7.view.writes (Elt F) g [⟨Rect.unit (s := S4096x384) (k0_off16 i v) S1x384.size (k0_off16_inb i v hw' hc),
          k0_pay4 (View.readAt (Elt F) arg6.view (Rect.unit (s := S1x384) ![0, 0] S1x384.size inb_S1x384_S1x384_0_0).toLoadRect (harg6.unread x4))⟩]
      else g) : sProp 𝕄)
      ⊢ (View.loc (c : Thread nD τ) arg7.view ↦[arg7.view.set]{fullShare} insRaw i arg6 harg6 arg7 x4 v hw g) := .rfl

set_option maxHeartbeats 16000000 in
/-- The body's run: from the five input buffers at their contents, the output buffer at anything and the table's half,
    the body ends with the inputs as they were and the output buffer at `R f`, `f` what it held before — `R` the
    sixteen guarded insertions over the masked affine tile, found by the run. -/
noncomputable def kernelRun (c : Dev nD) (i : grid0.Coords)
    (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg6 : Memref sig .tc .vmem S1x384 .f32) (harg6 : arg6.IsWhole) (arg7 : Memref sig .tc .vmem S4096x384 .f32) (harg7 : arg7.IsWhole)
    (x0 : Vec F S4096x80 .f32) (x1 : Vec F S4096x1 .f32) (x2 : Vec F S384x80 .f32) (x3 : Vec F S1x384 .f32) (x4 : Vec F S1x384 .f32)
    (xt : TbBuf (F := F) c tbM)
    (hchk : ∀ (i : grid0.Coords) (v : BitVec 32), k0_chk1 i v) :
    { R : BufTy.Contents (Elt F) arg7.view.ty → BufTy.Contents (Elt F) arg7.view.ty //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ tbPt c tbM xt
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} R f) ∗ tbPt c tbM xt) -∗ K ⟨⟩))
          ⊢ wp frame (wpE (defs₀ (F := F)) Variants.none c none) E (cc0__token_embed_kernel i tbM htbM arg2 harg2 arg3 harg3 arg4 harg4 arg5 harg5 arg6 harg6 arg7 harg7) K } := by
  refine ⟨?_, fun E K => ?run⟩
  case run =>
  simp only [cc0__token_embed_kernel_eq_skeleton]; unfold cc0__token_embed_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
  obtain rfl := harg2.eq_unread hf0
  obtain rfl := harg3.eq_unread hf1
  obtain rfl := harg4.eq_unread hf2
  obtain rfl := harg5.eq_unread hf3
  obtain rfl := harg6.eq_unread hf4
  set_option sl_exec.stopBefore "k0_cond1" in sl_exec (disch := first | sl_exact (hchk _ _))
  ihave H5 := (fold_raw0 c arg2 harg2 arg3 harg3 arg4 harg4 arg5 harg5 arg7 x0 x1 x2 x3 f5) $$ H5
  set_option sl_exec.stopBefore "k0_cond2" in sl_exec (disch := first | sl_exact (hchk _ _))
  ihave H5 := (fold_ins1 c i arg6 harg6 arg7 x4 _ (hchk _ _) (hchk _ _) _) $$ H5
  set_option sl_exec.stopBefore "k0_cond3" in sl_exec (disch := first | sl_exact (hchk _ _))
  ihave H5 := (fold_ins2 c i arg6 harg6 arg7 x4 _ (hchk _ _) (hchk _ _) _) $$ H5
  set_option sl_exec.stopBefore "k0_cond4" in sl_exec (disch := first | sl_exact (hchk _ _))
  ihave H5 := (fold_ins3 c i arg6 harg6 arg7 x4 _ (hchk _ _) (hchk _ _) _) $$ H5
  set_option sl_exec.stopBefore "k0_cond5" in sl_exec (disch := first | sl_exact (hchk _ _))
  ihave H5 := (fold_ins4 c i arg6 harg6 arg7 x4 _ (hchk _ _) (hchk _ _) _) $$ H5
  set_option sl_exec.stopBefore "k0_cond6" in sl_exec (disch := first | sl_exact (hchk _ _))
  ihave H5 := (fold_ins5 c i arg6 harg6 arg7 x4 _ (hchk _ _) (hchk _ _) _) $$ H5
  set_option sl_exec.stopBefore "k0_cond7" in sl_exec (disch := first | sl_exact (hchk _ _))
  ihave H5 := (fold_ins6 c i arg6 harg6 arg7 x4 _ (hchk _ _) (hchk _ _) _) $$ H5
  set_option sl_exec.stopBefore "k0_cond8" in sl_exec (disch := first | sl_exact (hchk _ _))
  ihave H5 := (fold_ins7 c i arg6 harg6 arg7 x4 _ (hchk _ _) (hchk _ _) _) $$ H5
  set_option sl_exec.stopBefore "k0_cond9" in sl_exec (disch := first | sl_exact (hchk _ _))
  ihave H5 := (fold_ins8 c i arg6 harg6 arg7 x4 _ (hchk _ _) (hchk _ _) _) $$ H5
  set_option sl_exec.stopBefore "k0_cond10" in sl_exec (disch := first | sl_exact (hchk _ _))
  ihave H5 := (fold_ins9 c i arg6 harg6 arg7 x4 _ (hchk _ _) (hchk _ _) _) $$ H5
  set_option sl_exec.stopBefore "k0_cond11" in sl_exec (disch := first | sl_exact (hchk _ _))
  ihave H5 := (fold_ins10 c i arg6 harg6 arg7 x4 _ (hchk _ _) (hchk _ _) _) $$ H5
  set_option sl_exec.stopBefore "k0_cond12" in sl_exec (disch := first | sl_exact (hchk _ _))
  ihave H5 := (fold_ins11 c i arg6 harg6 arg7 x4 _ (hchk _ _) (hchk _ _) _) $$ H5
  set_option sl_exec.stopBefore "k0_cond13" in sl_exec (disch := first | sl_exact (hchk _ _))
  ihave H5 := (fold_ins12 c i arg6 harg6 arg7 x4 _ (hchk _ _) (hchk _ _) _) $$ H5
  set_option sl_exec.stopBefore "k0_cond14" in sl_exec (disch := first | sl_exact (hchk _ _))
  ihave H5 := (fold_ins13 c i arg6 harg6 arg7 x4 _ (hchk _ _) (hchk _ _) _) $$ H5
  set_option sl_exec.stopBefore "k0_cond15" in sl_exec (disch := first | sl_exact (hchk _ _))
  ihave H5 := (fold_ins14 c i arg6 harg6 arg7 x4 _ (hchk _ _) (hchk _ _) _) $$ H5
  set_option sl_exec.stopBefore "k0_cond16" in sl_exec (disch := first | sl_exact (hchk _ _))
  ihave H5 := (fold_ins15 c i arg6 harg6 arg7 x4 _ (hchk _ _) (hchk _ _) _) $$ H5
  sl_exec (disch := first | sl_exact (hchk _ _))
  ihave H5 := (fold_ins16 c i arg6 harg6 arg7 x4 _ (hchk _ _) (hchk _ _) _) $$ H5
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; iexact H5
  iexact HT0

/-! ## The contents read as values of the tile -/

open Idealize.ShloMosaic.ValueIdx

/-- One guarded insertion on the tile's values: row `k0_off1 i v 0` becomes `row` when the word lies in tile `i`. -/
def insV (i : grid0.Coords) (row : Vec F S1x384 .f32) (v : BitVec 32) (o : Vec F S4096x384 .f32) : Vec F S4096x384 .f32 := fun y =>
  if k0_cond1 i v = 1#1 ∧ (y 0).val = k0_off1 i v 0 then row (ix2 (0 : Fin 1) (⟨(y 1).val, (y 1).isLt⟩ : Fin 384)) else o y

theorem off1_eq (i : grid0.Coords) (v : BitVec 32) : k0_off1 i v = ![k0_off1 i v 0, 0] := by
  unfold k0_off1; rfl

/-- Reading the raw contents after one guarded insertion: the insertion on values. -/
theorem read_insRaw (i : grid0.Coords) (arg6 : Memref sig .tc .vmem S1x384 .f32) (harg6 : arg6.IsWhole) (arg7 : Memref sig .tc .vmem S4096x384 .f32)
    (x4 : Vec F S1x384 .f32) (v : BitVec 32) (hw : k0_chk1 i v) (g : BufTy.Contents (Elt F) arg7.view.ty) :
    arg7.view.read (Elt F) (insRaw i arg6 harg6 arg7 x4 v hw g) = insV i (clsRow arg6 harg6 x4) v (arg7.view.read (Elt F) g) := by
  funext y
  unfold insRaw insV
  by_cases hc : k0_cond1 i v = 1#1
  · rw [dif_pos hc]
    rw [View.read_writes_cons_rows (d := ![4096, 384]) arg7.view g (k0_off1_inb i v hw hc) _ [] y (o := k0_off1 i v 0) (W := 1)
      (off1_eq i v) rfl rfl]
    rw [View.writes_nil]
    by_cases h : k0_off1 i v 0 ≤ (y 0).val ∧ (y 0).val < k0_off1 i v 0 + 1
    · rw [dif_pos h, if_pos ⟨hc, by omega⟩]
      congr 1
      funext a
      match a with
      | ⟨0, _⟩ => apply Fin.ext; show (y 0).val - k0_off1 i v 0 = 0; omega
      | ⟨1, _⟩ => apply Fin.ext; show (y 1).val - 0 = (y 1).val; omega
    · rw [dif_neg h, if_neg (fun hh => h (by omega))]
  · rw [dif_neg hc, if_neg (fun hh => hc hh.1)]

end Cert.KernelIdeal.Run

end
-- ==== Proof.KIRead.lean ====
/-
  The tile the body leaves, as a function of the blocks it was handed.

  Reading back the raw contents the run found: a load through a whole rectangle of a buffer held at contents `x`
  reads `x`; the masked affine store covers the tile, so the tile reads as that payload; each guarded insertion reads
  as the insertion on values; and each word the body loads from the table is the table's entry at that position.  So
  the tile after the body is the left fold of the guarded row insertion over the table's sixteen entries, in order,
  starting from the masked affine tile — whatever the output buffer held before.
-/
import proofs.«420591_j37915971289108_2_alg».proof.Proof.KIRun

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable {F : FTy → Type} [FloatOps F]

theorem zero2 : (![0, 0] : Fin 2 → ℕ) = fun _ => 0 :=
  funext fun a => by match a with | ⟨0, _⟩ => rfl | ⟨1, _⟩ => rfl

/-- A load through the whole rectangle of a whole buffer held at contents `x` reads `x`. -/
theorem readAt_whole {S : Shape} (arg : Memref sig .tc .vmem S .f32) (harg : arg.IsWhole) (x : Vec F S .f32) {off : Fin S.rank → ℕ}
    (h : off = fun _ => 0) (inb : ∀ a, off a + S.size a ≤ S.size a) :
    View.readAt (Elt F) arg.view (Rect.unit (s := S) off S.size inb).toLoadRect (harg.unread x) = x := by
  rw [View.readAt_eq_ld, harg.read_unread, View.ld_unit_zero h inb]

/-- The masked affine store covers the tile: the tile reads as its payload over the four input blocks. -/
theorem read_raw0 (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg7 : Memref sig .tc .vmem S4096x384 .f32)
    (x0 : Vec F S4096x80 .f32) (x1 : Vec F S4096x1 .f32) (x2 : Vec F S384x80 .f32) (x3 : Vec F S1x384 .f32)
    (f5 : BufTy.Contents (Elt F) arg7.view.ty) :
    arg7.view.read (Elt F) (raw0 arg2 harg2 arg3 harg3 arg4 harg4 arg5 harg5 arg7 x0 x1 x2 x3 f5) = k0_pay5 x0 x2 x3 x1 := by
  unfold raw0
  rw [readAt_whole arg2 harg2 x0 zero2, readAt_whole arg4 harg4 x2 zero2, readAt_whole arg5 harg5 x3 zero2, readAt_whole arg3 harg3 x1 zero2]
  funext y
  exact View.read_writes_cons_unit_of_mem arg7.view f5 inb_S4096x384_S4096x384_0_0 _ [] y y rfl
    (fun a => by match a with | ⟨0, _⟩ => exact (Nat.zero_add _).symm | ⟨1, _⟩ => exact (Nat.zero_add _).symm)

/-- The class-token row a guarded store writes is the row's staging buffer's contents, re-laid twice to the same shape. -/
theorem clsRow_eq (arg6 : Memref sig .tc .vmem S1x384 .f32) (harg6 : arg6.IsWhole) (x4 : Vec F S1x384 .f32) :
    clsRow arg6 harg6 x4 = k0_pay6 x4 := by
  unfold clsRow
  rw [readAt_whole arg6 harg6 x4 zero2]

/-- Entry `k` of the table as the body reads it through the table's whole buffer. -/
def wordOf (c : Dev nD) (xt : TbBuf (F := F) c tbM) (k : Fin 16) : BitVec 32 := tbM.view.read (Elt F) xt (ix1 k)

theorem sl_r_eq (c : Dev nD) (xt : TbBuf (F := F) c tbM) : kernelRun.sl.r (F := F) c xt = wordOf c xt (0 : Fin 16) := by
  unfold kernelRun.sl.r wordOf
  rw [View.readAt_apply]
  congr 1
  funext a
  match a with
  | ⟨0, _⟩ => apply Fin.ext; rfl
theorem sl_r_1_eq (c : Dev nD) (xt : TbBuf (F := F) c tbM) : kernelRun.sl.r_1 (F := F) c xt = wordOf c xt (1 : Fin 16) := by
  unfold kernelRun.sl.r_1 wordOf
  rw [View.readAt_apply]
  congr 1
  funext a
  match a with
  | ⟨0, _⟩ => apply Fin.ext; rfl
theorem sl_r_2_eq (c : Dev nD) (xt : TbBuf (F := F) c tbM) : kernelRun.sl.r_2 (F := F) c xt = wordOf c xt (2 : Fin 16) := by
  unfold kernelRun.sl.r_2 wordOf
  rw [View.readAt_apply]
  congr 1
  funext a
  match a with
  | ⟨0, _⟩ => apply Fin.ext; rfl
theorem sl_r_3_eq (c : Dev nD) (xt : TbBuf (F := F) c tbM) : kernelRun.sl.r_3 (F := F) c xt = wordOf c xt (3 : Fin 16) := by
  unfold kernelRun.sl.r_3 wordOf
  rw [View.readAt_apply]
  congr 1
  funext a
  match a with
  | ⟨0, _⟩ => apply Fin.ext; rfl
theorem sl_r_4_eq (c : Dev nD) (xt : TbBuf (F := F) c tbM) : kernelRun.sl.r_4 (F := F) c xt = wordOf c xt (4 : Fin 16) := by
  unfold kernelRun.sl.r_4 wordOf
  rw [View.readAt_apply]
  congr 1
  funext a
  match a with
  | ⟨0, _⟩ => apply Fin.ext; rfl
theorem sl_r_5_eq (c : Dev nD) (xt : TbBuf (F := F) c tbM) : kernelRun.sl.r_5 (F := F) c xt = wordOf c xt (5 : Fin 16) := by
  unfold kernelRun.sl.r_5 wordOf
  rw [View.readAt_apply]
  congr 1
  funext a
  match a with
  | ⟨0, _⟩ => apply Fin.ext; rfl
theorem sl_r_6_eq (c : Dev nD) (xt : TbBuf (F := F) c tbM) : kernelRun.sl.r_6 (F := F) c xt = wordOf c xt (6 : Fin 16) := by
  unfold kernelRun.sl.r_6 wordOf
  rw [View.readAt_apply]
  congr 1
  funext a
  match a with
  | ⟨0, _⟩ => apply Fin.ext; rfl
theorem sl_r_7_eq (c : Dev nD) (xt : TbBuf (F := F) c tbM) : kernelRun.sl.r_7 (F := F) c xt = wordOf c xt (7 : Fin 16) := by
  unfold kernelRun.sl.r_7 wordOf
  rw [View.readAt_apply]
  congr 1
  funext a
  match a with
  | ⟨0, _⟩ => apply Fin.ext; rfl
theorem sl_r_8_eq (c : Dev nD) (xt : TbBuf (F := F) c tbM) : kernelRun.sl.r_8 (F := F) c xt = wordOf c xt (8 : Fin 16) := by
  unfold kernelRun.sl.r_8 wordOf
  rw [View.readAt_apply]
  congr 1
  funext a
  match a with
  | ⟨0, _⟩ => apply Fin.ext; rfl
theorem sl_r_9_eq (c : Dev nD) (xt : TbBuf (F := F) c tbM) : kernelRun.sl.r_9 (F := F) c xt = wordOf c xt (9 : Fin 16) := by
  unfold kernelRun.sl.r_9 wordOf
  rw [View.readAt_apply]
  congr 1
  funext a
  match a with
  | ⟨0, _⟩ => apply Fin.ext; rfl
theorem sl_r_10_eq (c : Dev nD) (xt : TbBuf (F := F) c tbM) : kernelRun.sl.r_10 (F := F) c xt = wordOf c xt (10 : Fin 16) := by
  unfold kernelRun.sl.r_10 wordOf
  rw [View.readAt_apply]
  congr 1
  funext a
  match a with
  | ⟨0, _⟩ => apply Fin.ext; rfl
theorem sl_r_11_eq (c : Dev nD) (xt : TbBuf (F := F) c tbM) : kernelRun.sl.r_11 (F := F) c xt = wordOf c xt (11 : Fin 16) := by
  unfold kernelRun.sl.r_11 wordOf
  rw [View.readAt_apply]
  congr 1
  funext a
  match a with
  | ⟨0, _⟩ => apply Fin.ext; rfl
theorem sl_r_12_eq (c : Dev nD) (xt : TbBuf (F := F) c tbM) : kernelRun.sl.r_12 (F := F) c xt = wordOf c xt (12 : Fin 16) := by
  unfold kernelRun.sl.r_12 wordOf
  rw [View.readAt_apply]
  congr 1
  funext a
  match a with
  | ⟨0, _⟩ => apply Fin.ext; rfl
theorem sl_r_13_eq (c : Dev nD) (xt : TbBuf (F := F) c tbM) : kernelRun.sl.r_13 (F := F) c xt = wordOf c xt (13 : Fin 16) := by
  unfold kernelRun.sl.r_13 wordOf
  rw [View.readAt_apply]
  congr 1
  funext a
  match a with
  | ⟨0, _⟩ => apply Fin.ext; rfl
theorem sl_r_14_eq (c : Dev nD) (xt : TbBuf (F := F) c tbM) : kernelRun.sl.r_14 (F := F) c xt = wordOf c xt (14 : Fin 16) := by
  unfold kernelRun.sl.r_14 wordOf
  rw [View.readAt_apply]
  congr 1
  funext a
  match a with
  | ⟨0, _⟩ => apply Fin.ext; rfl
theorem sl_r_15_eq (c : Dev nD) (xt : TbBuf (F := F) c tbM) : kernelRun.sl.r_15 (F := F) c xt = wordOf c xt (15 : Fin 16) := by
  unfold kernelRun.sl.r_15 wordOf
  rw [View.readAt_apply]
  congr 1
  funext a
  match a with
  | ⟨0, _⟩ => apply Fin.ext; rfl

/-- The tile after the body: the guarded row insertion folded over the table's sixteen entries in order, from the masked
    affine tile. -/
def outTile (c : Dev nD) (i : grid0.Coords) (x0 : Vec F S4096x80 .f32) (x1 : Vec F S4096x1 .f32) (x2 : Vec F S384x80 .f32) (x3 : Vec F S1x384 .f32)
    (x4 : Vec F S1x384 .f32) (xt : TbBuf (F := F) c tbM) : Vec F S4096x384 .f32 :=
  [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)].foldl (fun acc v => insV i (k0_pay6 x4) v acc) (k0_pay5 x0 x2 x3 x1)

/-- What the run's contents read as, whatever the output buffer held before. -/
theorem kernelRun_read (c : Dev nD) (i : grid0.Coords)
    (arg2 : Memref sig .tc .vmem S4096x80 .f32) (harg2 : arg2.IsWhole) (arg3 : Memref sig .tc .vmem S4096x1 .f32) (harg3 : arg3.IsWhole)
    (arg4 : Memref sig .tc .vmem S384x80 .f32) (harg4 : arg4.IsWhole) (arg5 : Memref sig .tc .vmem S1x384 .f32) (harg5 : arg5.IsWhole)
    (arg6 : Memref sig .tc .vmem S1x384 .f32) (harg6 : arg6.IsWhole) (arg7 : Memref sig .tc .vmem S4096x384 .f32) (harg7 : arg7.IsWhole)
    (x0 : Vec F S4096x80 .f32) (x1 : Vec F S4096x1 .f32) (x2 : Vec F S384x80 .f32) (x3 : Vec F S1x384 .f32) (x4 : Vec F S1x384 .f32)
    (xt : TbBuf (F := F) c tbM)
    (hchk : ∀ (i : grid0.Coords) (v : BitVec 32), k0_chk1 i v) (f5 : BufTy.Contents (Elt F) arg7.view.ty) :
    arg7.view.read (Elt F) ((kernelRun c i arg2 harg2 arg3 harg3 arg4 harg4 arg5 harg5 arg6 harg6 arg7 harg7 x0 x1 x2 x3 x4 xt hchk).1 f5)
      = outTile c i x0 x1 x2 x3 x4 xt := by
  unfold outTile
  simp only [List.foldl]
  rw [← sl_r_eq c xt, ← sl_r_1_eq c xt, ← sl_r_2_eq c xt, ← sl_r_3_eq c xt, ← sl_r_4_eq c xt, ← sl_r_5_eq c xt, ← sl_r_6_eq c xt, ← sl_r_7_eq c xt, ← sl_r_8_eq c xt, ← sl_r_9_eq c xt, ← sl_r_10_eq c xt, ← sl_r_11_eq c xt, ← sl_r_12_eq c xt, ← sl_r_13_eq c xt, ← sl_r_14_eq c xt, ← sl_r_15_eq c xt, ← clsRow_eq arg6 harg6 x4]
  simp only [← read_raw0 arg2 harg2 arg3 harg3 arg4 harg4 arg5 harg5 arg7 x0 x1 x2 x3 f5]
  simp only [← read_insRaw i arg6 harg6 arg7 x4 _ (hchk _ _)]
  rfl

end Cert.KernelIdeal.Run

end
-- ==== Proof.KIWords.lean ====
/-
  Facts about the sixteen index words of the row-overwrite step.

  For a tile number n < 32 and a 32-bit word v read as a two's-complement integer, the guard of the
  overwrite is the test 4096·n ≤ v < 4096·n + 4096, and under the guard the row offset v − 4096·n,
  computed modulo 2^32, is the integer v − 4096·n, which lies in [0, 4096).  Nothing wraps because
  4096·n + 4096 ≤ 2^17.  The access of one row of 384 columns at that offset therefore stays inside
  the 4096 × 384 tile.  The sixteen copies of the guard, the offset and the side condition are the same
  functions.
-/
import proofs.«420591_j37915971289108_2_alg».proof.KernelIdeal
import Mathlib.Data.Fin.VecNotation

namespace Cert.KernelIdeal.Words

open Idealize.ShloMosaic
open Cert.KernelIdeal

/-- The tile's first row, 4096·n as a 32-bit product, is the integer 4096·n. -/
theorem base_toInt (n : Nat) (hn : n < 32) :
    (BitVec.ofNat 32 n * 4096#32).toInt = 4096 * (n : Int) := by
  rw [BitVec.toInt_eq_toNat_cond]
  simp only [BitVec.toNat_mul, BitVec.toNat_ofNat]
  omega

/-- One past the tile's last row, 4096·n + 4096 as a 32-bit sum, is the integer 4096·n + 4096. -/
theorem top_toInt (n : Nat) (hn : n < 32) :
    (BitVec.ofNat 32 n * 4096#32 + 4096#32).toInt = 4096 * (n : Int) + 4096 := by
  rw [BitVec.toInt_eq_toNat_cond]
  simp only [BitVec.toNat_add, BitVec.toNat_mul, BitVec.toNat_ofNat]
  omega

/-- The guard holds exactly when the word, as a signed integer, names a row of tile `i 0`. -/
theorem cond1_iff (i : grid0.Coords) (v : BitVec 32) :
    k0_cond1 i v = 1#1 ↔
      ((4096 * ((i 0).val : Int) ≤ v.toInt) ∧ (v.toInt < 4096 * ((i 0).val : Int) + 4096)) := by
  have hi : (i 0).val < 32 := (i 0).isLt
  unfold k0_cond1
  simp only [Scalar.cmpi, Scalar.muli, Scalar.addi, Scalar.andi, Scalar.extui, IntOp.cmpi,
    IntOp.muli, IntOp.addi, IntOp.andi]
  rw [BitVec.sle_eq_decide, BitVec.slt_eq_decide, base_toInt _ hi, top_toInt _ hi]
  by_cases hA : 4096 * ((i 0).val : Int) ≤ v.toInt <;>
    by_cases hB : v.toInt < 4096 * ((i 0).val : Int) + 4096 <;>
    simp [hA, hB]

/-- Under the guard the row offset is the integer difference between the word and the tile's first row. -/
theorem off1_row (i : grid0.Coords) (v : BitVec 32) (h : k0_cond1 i v = 1#1) :
    ((k0_off1 i v 0 : Nat) : Int) = v.toInt - 4096 * ((i 0).val : Int) := by
  have hi : (i 0).val < 32 := (i 0).isLt
  obtain ⟨hA, hB⟩ := (cond1_iff i v).mp h
  unfold k0_off1
  simp only [Scalar.subi, Scalar.muli, Scalar.indexCast, IntOp.subi, IntOp.muli,
    Matrix.cons_val_zero]
  rw [BitVec.toInt_eq_toNat_cond] at hA hB ⊢
  simp only [BitVec.toNat_sub, BitVec.toNat_mul, BitVec.toNat_ofNat]
  omega

/-- The column offset is zero. -/
theorem off1_col (i : grid0.Coords) (v : BitVec 32) : k0_off1 i v 1 = 0 := rfl

/-- The side condition of the first word: one row of 384 columns at the offset fits the 4096 × 384 tile. -/
theorem chk1 (i : grid0.Coords) (v : BitVec 32) : k0_chk1 i v := by
  intro h a
  have hrow := off1_row i v h
  obtain ⟨hA, hB⟩ := (cond1_iff i v).mp h
  refine Fin.cases ?_ (fun b => Fin.cases ?_ (fun c => c.elim0) b) a
  · show k0_off1 i v 0 + 1 ≤ 4096
    omega
  · show k0_off1 i v 1 + 384 ≤ 384
    rw [off1_col]

theorem cond2_eq : k0_cond2 = k0_cond1 := rfl
theorem off2_eq : k0_off2 = k0_off1 := rfl
theorem chk2 : ∀ (i : grid0.Coords) (v : BitVec 32), k0_chk2 i v := chk1

theorem cond3_eq : k0_cond3 = k0_cond1 := rfl
theorem off3_eq : k0_off3 = k0_off1 := rfl
theorem chk3 : ∀ (i : grid0.Coords) (v : BitVec 32), k0_chk3 i v := chk1

theorem cond4_eq : k0_cond4 = k0_cond1 := rfl
theorem off4_eq : k0_off4 = k0_off1 := rfl
theorem chk4 : ∀ (i : grid0.Coords) (v : BitVec 32), k0_chk4 i v := chk1

theorem cond5_eq : k0_cond5 = k0_cond1 := rfl
theorem off5_eq : k0_off5 = k0_off1 := rfl
theorem chk5 : ∀ (i : grid0.Coords) (v : BitVec 32), k0_chk5 i v := chk1

theorem cond6_eq : k0_cond6 = k0_cond1 := rfl
theorem off6_eq : k0_off6 = k0_off1 := rfl
theorem chk6 : ∀ (i : grid0.Coords) (v : BitVec 32), k0_chk6 i v := chk1

theorem cond7_eq : k0_cond7 = k0_cond1 := rfl
theorem off7_eq : k0_off7 = k0_off1 := rfl
theorem chk7 : ∀ (i : grid0.Coords) (v : BitVec 32), k0_chk7 i v := chk1

theorem cond8_eq : k0_cond8 = k0_cond1 := rfl
theorem off8_eq : k0_off8 = k0_off1 := rfl
theorem chk8 : ∀ (i : grid0.Coords) (v : BitVec 32), k0_chk8 i v := chk1

theorem cond9_eq : k0_cond9 = k0_cond1 := rfl
theorem off9_eq : k0_off9 = k0_off1 := rfl
theorem chk9 : ∀ (i : grid0.Coords) (v : BitVec 32), k0_chk9 i v := chk1

theorem cond10_eq : k0_cond10 = k0_cond1 := rfl
theorem off10_eq : k0_off10 = k0_off1 := rfl
theorem chk10 : ∀ (i : grid0.Coords) (v : BitVec 32), k0_chk10 i v := chk1

theorem cond11_eq : k0_cond11 = k0_cond1 := rfl
theorem off11_eq : k0_off11 = k0_off1 := rfl
theorem chk11 : ∀ (i : grid0.Coords) (v : BitVec 32), k0_chk11 i v := chk1

theorem cond12_eq : k0_cond12 = k0_cond1 := rfl
theorem off12_eq : k0_off12 = k0_off1 := rfl
theorem chk12 : ∀ (i : grid0.Coords) (v : BitVec 32), k0_chk12 i v := chk1

theorem cond13_eq : k0_cond13 = k0_cond1 := rfl
theorem off13_eq : k0_off13 = k0_off1 := rfl
theorem chk13 : ∀ (i : grid0.Coords) (v : BitVec 32), k0_chk13 i v := chk1

theorem cond14_eq : k0_cond14 = k0_cond1 := rfl
theorem off14_eq : k0_off14 = k0_off1 := rfl
theorem chk14 : ∀ (i : grid0.Coords) (v : BitVec 32), k0_chk14 i v := chk1

theorem cond15_eq : k0_cond15 = k0_cond1 := rfl
theorem off15_eq : k0_off15 = k0_off1 := rfl
theorem chk15 : ∀ (i : grid0.Coords) (v : BitVec 32), k0_chk15 i v := chk1

theorem cond16_eq : k0_cond16 = k0_cond1 := rfl
theorem off16_eq : k0_off16 = k0_off1 := rfl
theorem chk16 : ∀ (i : grid0.Coords) (v : BitVec 32), k0_chk16 i v := chk1

end Cert.KernelIdeal.Words
-- ==== Proof.KIFrame.lean ====
/-
  The frame of the kernel program, for any float instance: the program runs, and ends with its seven argument arrays
  as launched.

  The proof data of the one pipelined region: every window's array as the region finds it; after the body at a point
  each of the five input windows' staging buffers still at its block, and the output window's at the tile the body
  leaves there — the sixteen guarded row insertions folded over the table's entries from the masked affine tile of the
  point's blocks; the class invariant with the table's half share; whole shares; nothing owed.  The body at a generic
  point meets its obligation by the body's one run over arbitrary staging buffers, read back as that tile.  The region's
  launch theorem then gives the run, and the run read at the seven arguments is the frame.
-/
import proofs.«420591_j37915971289108_2_alg».proof.Proof.KIKit
import proofs.«420591_j37915971289108_2_alg».proof.Proof.KIRead
import proofs.«420591_j37915971289108_2_alg».proof.Proof.KIWords

set_option maxRecDepth 16384

noncomputable section

namespace Cert.KernelIdeal.Frame

open Cert.KernelIdeal Cert.KernelIdeal.Gen Cert.KernelIdeal.Kit Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- The proof data of the region on core `c`: the arrays as the region finds them; after the body at point `t` each
    input's buffer at its block (features, mask column, weights, bias row, class-token row, in the windows' order) and
    the output's at the tile the body leaves of those five blocks and the table's words; the class invariant and the
    table's half; full shares; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outTile c (grid0.coords t) (iblk m hO c 0 t) (iblk m hO c 1 t) (iblk m hO c 2 t) (iblk m hO c 3 t) (iblk m hO c 4 t) (tbl m 0)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) :
    (dats m hO 0 c).after 5 t = outTile c (grid0.coords t) (iblk m hO c 0 t) (iblk m hO c 1 t) (iblk m hO c 2 t) (iblk m hO c 3 t) (iblk m hO c 4 t) (tbl m 0) := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- The body at any point: the five inputs' memrefs hold their blocks, so the body's run applies; it hands the inputs
    and the table's half back as they were and the output's buffer at contents that read as the tile; the invariant
    passes through unread; the core owes nothing throughout. -/
theorem sound_body (hO : Ok m) (c : Dev nD) (t : Fin (cfgM m hO).N) :
    (iprop((dats m hO 0 c).Φ t.castSucc ∗ (dats m hO 0 c).owesAt () t.castSucc
        ∗ (∃ d, owns (c : Thread nD τ) (ms0_0 m hO t) fullShare ((dats m hO 0 c).before 0 t d))
        ∗ (∃ d, owns (c : Thread nD τ) (ms0_1 m hO t) fullShare ((dats m hO 0 c).before 1 t d))
        ∗ (∃ d, owns (c : Thread nD τ) (ms0_2 m hO t) fullShare ((dats m hO 0 c).before 2 t d))
        ∗ (∃ d, owns (c : Thread nD τ) (ms0_3 m hO t) fullShare ((dats m hO 0 c).before 3 t d))
        ∗ (∃ d, owns (c : Thread nD τ) (ms0_4 m hO t) fullShare ((dats m hO 0 c).before 4 t d))
        ∗ (∃ d, owns (c : Thread nD τ) (ms0_5 m hO t) fullShare ((dats m hO 0 c).before 5 t d))) : sProp 𝕄)
      ⊢ wp frame (wpE (defs₀ (F := F)) Variants.none c none) Set.univ (bodyAt0 (adm m hO) t) (fun _ =>
        iprop((dats m hO 0 c).Φ t.succ ∗ (dats m hO 0 c).owesAt () t.succ
          ∗ owns (c : Thread nD τ) (ms0_0 m hO t) fullShare ((dats m hO 0 c).after 0 t)
          ∗ owns (c : Thread nD τ) (ms0_1 m hO t) fullShare ((dats m hO 0 c).after 1 t)
          ∗ owns (c : Thread nD τ) (ms0_2 m hO t) fullShare ((dats m hO 0 c).after 2 t)
          ∗ owns (c : Thread nD τ) (ms0_3 m hO t) fullShare ((dats m hO 0 c).after 3 t)
          ∗ owns (c : Thread nD τ) (ms0_4 m hO t) fullShare ((dats m hO 0 c).after 4 t)
          ∗ owns (c : Thread nD τ) (ms0_5 m hO t) fullShare ((dats m hO 0 c).after 5 t))) := by
  unfold bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m hO c 0 t) (iblk m hO c 1 t) (iblk m hO c 2 t) (iblk m hO c 3 t) (iblk m hO c 4 t) (tbl m 0) Words.chk1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  iintro ⟨H0, H1, H2, H3, H4, ⟨%f5, H5⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact kernelRun_read c (grid0.coords t) _ _ _ _ _ _ _ _ _ _ _ _ _ _ _ _ _ _ Words.chk1 f5

/-- The library's body obligation, at every point. -/
theorem body_obligation (hO : Ok m) (c : Dev nD) : BodyObligation (dats (F := F) m hO 0 c) (defs₀ (F := F)) Variants.none () Set.univ :=
  body_obligation_of m hO (dats m hO 0 c) (sound_body m hO c)

/-! ## The run and the frame -/

/-- From any memory with zero counters every weakly fair execution of the program terminates, and every final state has
    every array of the region at what the proof data give and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  run_of m ρ hO (dats m hO) (body_obligation m hO) (fun c => (dats m hO 0 c).share_full fun _ => rfl) (fun _ _ => rfl)
    (A_eq m hO) (fun _ _ => rfl)

/-- The frame: the program runs and its seven argument arrays end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

end Cert.KernelIdeal.Frame

end
-- ==== Proof.Spec.lean ====
/-
  The function both programs compute, stated once over the argument arrays and literal shapes.

  Row r of the result is the class token wherever some entry of the index vector names row r, and
  otherwise the masked affine image of row r of the features:  mask r · (Σ_k feat[r,k] · W[j,k] + bias[j]),
  read with the mask as a condition (a set bit keeps the value, a clear bit gives zero).
  An index word names the row it holds when it is non-negative; a negative word names the row counted
  from the end (the wrap of array indexing), which is how the reference reads it.  Under the
  precondition that every index word is non-negative the two readings coincide.
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨2, ![131072, 80]⟩
abbrev SMask : Shape := ⟨2, ![16, 8192]⟩
abbrev SIdx : Shape := ⟨1, ![16]⟩
abbrev SW : Shape := ⟨2, ![384, 80]⟩
abbrev SVec : Shape := ⟨1, ![384]⟩
abbrev SOut : Shape := ⟨2, ![131072, 384]⟩

/-- The row an index word names when negative words wrap from the end of the 131072 rows. -/
def wrapRow (w : BitVec 32) : Int := if w.toInt < 0 then w.toInt + 131072 else w.toInt

/-- Row `r` is named by some entry of the index vector, negative entries wrapped. -/
def hitWrap (g : SIdx.Idx → BitVec 32) (r : Nat) : Prop := ∃ k : Fin 16, wrapRow (g (ix1 k)) = (r : Int)

/-- Row `r` is named by some entry of the index vector, read as the signed integer it holds. -/
def hit (g : SIdx.Idx → BitVec 32) (r : Nat) : Prop := ∃ k : Fin 16, (g (ix1 k)).toInt = (r : Int)

/-- The mask bit of flattened row `r` of the 16 × 8192 mask. -/
def maskAt (amask : SMask.Idx → BitVec 1) (r : Fin 131072) : BitVec 1 :=
  amask (ix2 (⟨r.val / 8192, by have := r.isLt; omega⟩ : Fin 16) (⟨r.val % 8192, Nat.mod_lt _ (by decide)⟩ : Fin 8192))

/-- The affine image of row `r` at column `j`: Σ_k feat[r,k] · W[j,k] + bias[j] on the extended reals. -/
def affine (feat : SFeat.Idx → EReal) (W : SW.Idx → EReal) (bias : SVec.Idx → EReal) (r : Fin 131072) (j : Fin 384) : EReal :=
  (∑ k : Fin 80, feat (ix2 r k) * W (ix2 j k)) + bias (ix1 j)

/-- The masked affine image: the affine value where the mask bit is set, zero elsewhere. -/
def masked (feat : SFeat.Idx → EReal) (amask : SMask.Idx → BitVec 1) (W : SW.Idx → EReal) (bias : SVec.Idx → EReal)
    (r : Fin 131072) (j : Fin 384) : EReal :=
  if maskAt amask r = 1#1 then affine feat W bias r j else 0

open Classical in
/-- The result with negative index words wrapped (the reference's reading). -/
def GWrap (feat : SFeat.Idx → EReal) (amask : SMask.Idx → BitVec 1) (g : SIdx.Idx → BitVec 32) (W : SW.Idx → EReal)
    (bias cls : SVec.Idx → EReal) : SOut.Idx → EReal := fun y =>
  if hitWrap g (y 0).val then cls (ix1 (y 1)) else masked feat amask W bias (y 0) (y 1)

open Classical in
/-- The result with index words read as they stand (the kernel's reading: a negative word names no row). -/
def G (feat : SFeat.Idx → EReal) (amask : SMask.Idx → BitVec 1) (g : SIdx.Idx → BitVec 32) (W : SW.Idx → EReal)
    (bias cls : SVec.Idx → EReal) : SOut.Idx → EReal := fun y =>
  if hit g (y 0).val then cls (ix1 (y 1)) else masked feat amask W bias (y 0) (y 1)

/-- With every index word non-negative the two readings are one function. -/
theorem GWrap_eq_G (feat : SFeat.Idx → EReal) (amask : SMask.Idx → BitVec 1) (g : SIdx.Idx → BitVec 32) (W : SW.Idx → EReal)
    (bias cls : SVec.Idx → EReal) (hg : ∀ k : Fin 16, 0 ≤ (g (ix1 k)).toInt) :
    GWrap feat amask g W bias cls = G feat amask g W bias cls := by
  funext y
  have h : hitWrap g (y 0).val ↔ hit g (y 0).val := by
    constructor
    · rintro ⟨k, hk⟩; refine ⟨k, ?_⟩; unfold wrapRow at hk; rw [if_neg (not_lt.mpr (hg k))] at hk; exact hk
    · rintro ⟨k, hk⟩; refine ⟨k, ?_⟩; unfold wrapRow; rw [if_neg (not_lt.mpr (hg k))]; exact hk
  unfold GWrap G
  by_cases hh : hit g (y 0).val
  · rw [if_pos (h.mpr hh), if_pos hh]
  · rw [if_neg (fun h' => hh (h.mp h')), if_neg hh]

end Cert.Spec

end
-- ==== Proof.KIBlocks.lean ====
/-
  The blocks the pipeline stages, read at an index.
-/
import proofs.«420591_j37915971289108_2_alg».proof.Proof.KIKit
import proofs.«420591_j37915971289108_2_alg».proof.Proof.KIRead
import Idealize.ShloMosaic.Lib.ValueIdx
import Idealize.ShloMosaic.Lib.ValueLayout
import Idealize.ShloMosaic.Lib.Pipeline.Value
import proofs.«420591_j37915971289108_2_alg».proof.Proof.Spec

set_option maxRecDepth 16384

noncomputable section

namespace Cert.KernelIdeal.Blocks

open Cert.KernelIdeal Cert.KernelIdeal.Gen Cert.KernelIdeal.Kit Cert.KernelIdeal.Run
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The printed index maps over the grid: the feature, mask and output windows move one block of rows per point, the
    weight, bias and class-token windows stay at block 0; the one grid coordinate is the point's number. -/
theorem idx_facts : ∀ t : Fin grid0.N, cc0_transform_0 (grid0.coords t) = ![t.val, 0] ∧ cc0_transform_1 (grid0.coords t) = ![t.val, 0]
    ∧ cc0_transform_2 (grid0.coords t) = ![0, 0] ∧ cc0_transform_3 (grid0.coords t) = ![0, 0] ∧ cc0_transform_4 (grid0.coords t) = ![0, 0]
    ∧ cc0_transform_5 (grid0.coords t) = ![t.val, 0] ∧ (grid0.coords t 0).val = t.val := by
  decide +kernel

theorem row_lt (t : Fin grid0.N) (r : Fin 4096) : 4096 * t.val + r.val < 131072 := by
  have h1 : t.val < 32 := t.isLt
  have h2 := r.isLt
  omega

theorem iblk0_apply (hO : Ok m) (c : Dev nD) (t : Fin (cfgM m hO).N) (r : Fin 4096) (k : Fin 80) :
    iblk m hO c 0 t (ix2 r k) = m ((c : Thread nD τ).loc main_arg0) (ix2 (⟨4096 * t.val + r.val, row_lt t r⟩ : Fin 131072) k) := by
  unfold iblk
  rw [← V_main_arg0 m c]
  show V m c main_arg0 ((((cfgM m hO).win 0).blk t).view.emb (ix2 r k)) = _
  congr 1
  funext a
  apply Fin.ext
  obtain ⟨e0, e1, e2, e3, e4, e5, e6⟩ := idx_facts t
  match a with
  | ⟨0, _⟩ =>
    show cc0_transform_0 (grid0.coords t) 0 * 4096 + 1 * r.val = 4096 * t.val + r.val
    rw [e0]; show t.val * 4096 + 1 * r.val = _; omega
  | ⟨1, _⟩ =>
    show cc0_transform_0 (grid0.coords t) 1 * 80 + 1 * k.val = k.val
    rw [e0]; show 0 * 80 + 1 * k.val = _; omega

theorem iblk1_apply (hO : Ok m) (c : Dev nD) (t : Fin (cfgM m hO).N) (r : Fin 4096) :
    iblk m hO c 1 t (ix2 r (0 : Fin 1)) = V m c main_v1 (ix2 (⟨4096 * t.val + r.val, row_lt t r⟩ : Fin 131072) (0 : Fin 1)) := by
  unfold iblk
  show V m c main_v1 ((((cfgM m hO).win 1).blk t).view.emb (ix2 r (0 : Fin 1))) = _
  congr 1
  funext a
  apply Fin.ext
  obtain ⟨e0, e1, e2, e3, e4, e5, e6⟩ := idx_facts t
  match a with
  | ⟨0, _⟩ =>
    show cc0_transform_1 (grid0.coords t) 0 * 4096 + 1 * r.val = 4096 * t.val + r.val
    rw [e1]; show t.val * 4096 + 1 * r.val = _; omega
  | ⟨1, _⟩ =>
    show cc0_transform_1 (grid0.coords t) 1 * 1 + 1 * 0 = 0
    rw [e1]; rfl

theorem iblk2_apply (hO : Ok m) (c : Dev nD) (t : Fin (cfgM m hO).N) (j : Fin 384) (k : Fin 80) :
    iblk m hO c 2 t (ix2 j k) = m ((c : Thread nD τ).loc main_arg4) (ix2 j k) := by
  unfold iblk
  rw [← V_main_arg4 m c]
  show V m c main_arg4 ((((cfgM m hO).win 2).blk t).view.emb (ix2 j k)) = _
  congr 1
  funext a
  apply Fin.ext
  obtain ⟨e0, e1, e2, e3, e4, e5, e6⟩ := idx_facts t
  match a with
  | ⟨0, _⟩ =>
    show cc0_transform_2 (grid0.coords t) 0 * 384 + 1 * j.val = j.val
    rw [e2]; show 0 * 384 + 1 * j.val = _; omega
  | ⟨1, _⟩ =>
    show cc0_transform_2 (grid0.coords t) 1 * 80 + 1 * k.val = k.val
    rw [e2]; show 0 * 80 + 1 * k.val = _; omega

theorem succ_ix2 (j : Fin 384) : (fun a : Fin 1 => (ix2 (0 : Fin 1) j : (⟨2, ![1, 384]⟩ : Shape).Idx) a.succ) = (ix1 j : (⟨1, ![384]⟩ : Shape).Idx) :=
  funext fun a => by match a with | ⟨0, _⟩ => rfl

theorem iblk3_apply (hO : Ok m) (c : Dev nD) (t : Fin (cfgM m hO).N) (j : Fin 384) :
    iblk m hO c 3 t (ix2 (0 : Fin 1) j) = m ((c : Thread nD τ).loc main_arg5) (ix1 j) := by
  unfold iblk
  have e : V m c main_v2 ((((cfgM m hO).win 3).blk t).view.emb (ix2 (0 : Fin 1) j)) = V m c main_v2 (ix2 (0 : Fin 1) j) := by
    congr 1
    funext a
    apply Fin.ext
    obtain ⟨e0, e1, e2, e3, e4, e5, e6⟩ := idx_facts t
    match a with
    | ⟨0, _⟩ =>
      show cc0_transform_3 (grid0.coords t) 0 * 1 + 1 * 0 = 0
      rw [e3]; rfl
    | ⟨1, _⟩ =>
      show cc0_transform_3 (grid0.coords t) 1 * 384 + 1 * j.val = j.val
      rw [e3]; show 0 * 384 + 1 * j.val = _; omega
  refine e.trans ?_
  rw [V_main_v2 m c]
  exact (shapeCast_addUnit_apply (![384] : Fin 1 → Nat) _ shapeCasts_S384_S1x384 (ix2 (0 : Fin 1) j)).trans (congrArg _ (succ_ix2 j))

theorem iblk4_apply (hO : Ok m) (c : Dev nD) (t : Fin (cfgM m hO).N) (j : Fin 384) :
    iblk m hO c 4 t (ix2 (0 : Fin 1) j) = m ((c : Thread nD τ).loc main_arg6) (ix1 j) := by
  unfold iblk
  have e : V m c main_v3 ((((cfgM m hO).win 4).blk t).view.emb (ix2 (0 : Fin 1) j)) = V m c main_v3 (ix2 (0 : Fin 1) j) := by
    congr 1
    funext a
    apply Fin.ext
    obtain ⟨e0, e1, e2, e3, e4, e5, e6⟩ := idx_facts t
    match a with
    | ⟨0, _⟩ =>
      show cc0_transform_4 (grid0.coords t) 0 * 1 + 1 * 0 = 0
      rw [e4]; rfl
    | ⟨1, _⟩ =>
      show cc0_transform_4 (grid0.coords t) 1 * 384 + 1 * j.val = j.val
      rw [e4]; show 0 * 384 + 1 * j.val = _; omega
  refine e.trans ?_
  rw [V_main_v3 m c]
  exact (shapeCast_addUnit_apply (![384] : Fin 1 → Nat) _ shapeCasts_S384_S1x384 (ix2 (0 : Fin 1) j)).trans (congrArg _ (succ_ix2 j))

/-- An entry of the table read through its whole buffer is the buffer's entry. -/
theorem wordOf_eq (c : Dev nD) (xt : TbBuf (F := F) c tbM) (k : Fin 16) :
    wordOf c xt k = (xt : S16.Idx → BitVec 32) (ix1 k) := by
  unfold wordOf
  rw [View.read_apply, cast_eq]
  rfl

/-- Entry `k` of the table as the region finds it is the index argument's entry. -/
theorem word_apply (c : Dev nD) (k : Fin 16) :
    wordOf c (tbl m 0) k = (m ((c : Thread nD τ).loc main_arg2) : S16.Idx → BitVec 32) (ix1 k) := by
  obtain rfl : c = 0 := Subsingleton.elim _ _
  refine (wordOf_eq (F := F) (0 : Dev nD) (tbl m 0) k).trans ?_
  show (V m (0 : Dev nD) main_arg2 : S16.Idx → BitVec 32) (ix1 k) = _
  rw [V_main_arg2 m 0]

/-! ## The mask column at the exact instance -/

/-- The mask column the region finds is the flattened mask read as 1 or 0 on the extended reals. -/
theorem mask2d_apply (m : (ℓ : Loc nD τ sig) → Buf (Elt Ideal) ℓ) (c : Dev nD) (R : Fin 131072) :
    V m c main_v1 (ix2 R (0 : Fin 1))
      = if Cert.Spec.maskAt (m ((c : Thread nD τ).loc main_arg1)) R = 1#1 then (1 : EReal) else 0 := by
  rw [V_main_v1 m c]
  show FloatOps.uitofp (F := Ideal) .f32 (shapeCast S131072x1 (m ((c : Thread nD τ).loc main_arg1)) shapeCasts_S16x8192_S131072x1 (ix2 R (0 : Fin 1))) = _
  rw [shapeCast_apply (m ((c : Thread nD τ).loc main_arg1)) shapeCasts_S16x8192_S131072x1 (ix2 R (0 : Fin 1))
    (ix2 (⟨R.val / 8192, by have := R.isLt; omega⟩ : Fin 16) (⟨R.val % 8192, Nat.mod_lt _ (by decide)⟩ : Fin 8192))
    (by
      show (S16x8192.rowMajor (ix2 (⟨R.val / 8192, _⟩ : Fin 16) (⟨R.val % 8192, _⟩ : Fin 8192))).val = (S131072x1.rowMajor (ix2 R (0 : Fin 1))).val
      rw [Shape.rowMajor_val_two, Shape.rowMajor_val_two]
      show R.val / 8192 * 8192 + R.val % 8192 = R.val * 1 + 0
      omega)]
  unfold Cert.Spec.maskAt
  generalize (m ((c : Thread nD τ).loc main_arg1)) (ix2 (⟨R.val / 8192, _⟩ : Fin 16) (⟨R.val % 8192, _⟩ : Fin 8192)) = b
  show ((b.toNat : ℝ) : EReal) = _
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · rw [if_neg (by decide)]; simp
  · rw [if_pos rfl]; simp

end Cert.KernelIdeal.Blocks

end
-- ==== Proof.KIIns.lean ====
/-
  Sixteen guarded row insertions, read at an index.

  One guarded insertion replaces row  v − 4096·t  of a 4096 × 384 tile by a fixed row when the word v,
  read as a signed integer, lies in [4096·t, 4096·t + 4096), t the tile number; otherwise it leaves the
  tile as it was.  Folding the insertion over a list of words gives a tile whose entry at (r, j) is the
  fixed row's entry j if some word of the list equals 4096·t + r as an integer, and the original entry
  otherwise.  The order of the words does not matter because every insertion writes the same row.
-/
import proofs.«420591_j37915971289108_2_alg».proof.Proof.KIRun
import proofs.«420591_j37915971289108_2_alg».proof.Proof.KIWords
import Idealize.ShloMosaic.Lib.ValueIdx

noncomputable section

namespace Cert.KernelIdeal.Ins

open Cert.KernelIdeal Cert.KernelIdeal.Run Cert.KernelIdeal.Words Idealize.ShloMosaic Idealize.ShloMosaic.ValueIdx

variable {F : FTy → Type} [FloatOps F]

/-- The guarded insertions of a list of words, one after another, on the tile's values. -/
def insAll (i : grid0.Coords) (row : Vec F S1x384 .f32) (ws : List (BitVec 32)) (o : Vec F S4096x384 .f32) :
    Vec F S4096x384 .f32 :=
  ws.foldl (fun acc v => insV i row v acc) o

theorem insAll_nil (i : grid0.Coords) (row : Vec F S1x384 .f32) (o : Vec F S4096x384 .f32) :
    insAll i row [] o = o := rfl

theorem insAll_cons (i : grid0.Coords) (row : Vec F S1x384 .f32) (v : BitVec 32) (ws : List (BitVec 32))
    (o : Vec F S4096x384 .f32) : insAll i row (v :: ws) o = insAll i row ws (insV i row v o) := rfl

open Classical in
/-- The entry at `y` after all insertions: the fixed row's entry if some word of the list hits row `y 0`,
    the original entry otherwise. -/
theorem insAll_apply (i : grid0.Coords) (row : Vec F S1x384 .f32) (ws : List (BitVec 32))
    (o : Vec F S4096x384 .f32) (y : S4096x384.Idx) :
    insAll i row ws o y =
      if (∃ v ∈ ws, k0_cond1 i v = 1#1 ∧ (y 0).val = k0_off1 i v 0) then
        row (ix2 (0 : Fin 1) (⟨(y 1).val, (y 1).isLt⟩ : Fin 384))
      else o y := by
  induction ws generalizing o with
  | nil =>
    rw [insAll_nil, if_neg]
    rintro ⟨v, hv, -⟩
    cases hv
  | cons w ws ih =>
    rw [insAll_cons, ih]
    by_cases hw : k0_cond1 i w = 1#1 ∧ (y 0).val = k0_off1 i w 0
    · -- the first word hits: whatever the later words do, the entry is the fixed row's
      have hex : ∃ v ∈ w :: ws, k0_cond1 i v = 1#1 ∧ (y 0).val = k0_off1 i v 0 :=
        ⟨w, List.mem_cons.2 (Or.inl rfl), hw⟩
      rw [if_pos hex]
      by_cases hws : ∃ v ∈ ws, k0_cond1 i v = 1#1 ∧ (y 0).val = k0_off1 i v 0
      · rw [if_pos hws]
      · rw [if_neg hws]
        unfold insV
        rw [if_pos hw]
    · -- the first word misses: a hit in the whole list is a hit in its tail
      have hiff : (∃ v ∈ w :: ws, k0_cond1 i v = 1#1 ∧ (y 0).val = k0_off1 i v 0) ↔
          (∃ v ∈ ws, k0_cond1 i v = 1#1 ∧ (y 0).val = k0_off1 i v 0) := by
        constructor
        · rintro ⟨v, hv, hp⟩
          rcases List.mem_cons.1 hv with rfl | hv
          · exact absurd hp hw
          · exact ⟨v, hv, hp⟩
        · rintro ⟨v, hv, hp⟩
          exact ⟨v, List.mem_cons.2 (Or.inr hv), hp⟩
      by_cases hws : ∃ v ∈ ws, k0_cond1 i v = 1#1 ∧ (y 0).val = k0_off1 i v 0
      · rw [if_pos hws, if_pos (hiff.2 hws)]
      · rw [if_neg hws, if_neg (fun h => hws (hiff.1 h))]
        unfold insV
        rw [if_neg hw]

/-- A word hits local row `r` of tile `i 0` exactly when, as an integer, it is `4096 · (i 0) + r`. -/
theorem hit_iff (i : grid0.Coords) (v : BitVec 32) (r : Nat) (hr : r < 4096) :
    (k0_cond1 i v = 1#1 ∧ r = k0_off1 i v 0) ↔ v.toInt = 4096 * ((i 0).val : Int) + (r : Int) := by
  constructor
  · rintro ⟨hc, hr'⟩
    have hrow := off1_row i v hc
    omega
  · intro hv
    have hc : k0_cond1 i v = 1#1 := (cond1_iff i v).2 ⟨by omega, by omega⟩
    have hrow := off1_row i v hc
    exact ⟨hc, by omega⟩

open Classical in
/-- The entry at `y` after all insertions, with the hit read as an equation between integers. -/
theorem insAll_apply' (i : grid0.Coords) (row : Vec F S1x384 .f32) (ws : List (BitVec 32))
    (o : Vec F S4096x384 .f32) (y : S4096x384.Idx) :
    insAll i row ws o y =
      if (∃ v ∈ ws, v.toInt = 4096 * ((i 0).val : Int) + ((y 0).val : Int)) then
        row (ix2 (0 : Fin 1) (⟨(y 1).val, (y 1).isLt⟩ : Fin 384))
      else o y := by
  rw [insAll_apply]
  have hy : (y 0).val < 4096 := (y 0).isLt
  have hiff : (∃ v ∈ ws, k0_cond1 i v = 1#1 ∧ (y 0).val = k0_off1 i v 0) ↔
      (∃ v ∈ ws, v.toInt = 4096 * ((i 0).val : Int) + ((y 0).val : Int)) := by
    constructor
    · rintro ⟨v, hv, hp⟩
      exact ⟨v, hv, (hit_iff i v _ hy).1 hp⟩
    · rintro ⟨v, hv, hp⟩
      exact ⟨v, hv, (hit_iff i v _ hy).2 hp⟩
  exact if_congr hiff rfl rfl

end Cert.KernelIdeal.Ins

end
-- ==== Proof.KIPayload.lean ====
/-
  The kernel's two payloads, read at an index.

  The value a tile stores first is, at row p and column q of the tile,
      ((Σ_k feat[p, k] · W[q, k]) + bias[0, q]) · mask[p, 0]:
  the narrowing of the two matrix operands is the identity on exact values, the matrix product contracts
  the second axis of both operands into a zero accumulator, the bias row is repeated down the rows and
  the mask column across the columns. The value stored for a class-token row is the class-token row
  itself: flattening a one-row array and restoring its row axis changes nothing.
-/
import proofs.«420591_j37915971289108_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product's operand indices, axis by axis -/

theorem lhs_dot_0 (i : S4096x384.Idx) (q : dot_S4096x80_S384x80_S4096x384_1_1_0_0_n_n.contr.Idx) :
    (dot_S4096x80_S384x80_S4096x384_1_1_0_0_n_n.lhsIdx i q 0).val = (i 0).val := by
  unfold DotDims.lhsIdx
  rw [dif_neg (show ¬(0 : Fin S4096x80.rank) ∈ dot_S4096x80_S384x80_S4096x384_1_1_0_0_n_n.lhsBatch by decide), dif_pos (show (0 : Fin S4096x80.rank) ∈ dot_S4096x80_S384x80_S4096x384_1_1_0_0_n_n.lhsNonContracting by decide)]
  rfl
theorem lhs_dot_1 (i : S4096x384.Idx) (q : dot_S4096x80_S384x80_S4096x384_1_1_0_0_n_n.contr.Idx) :
    (dot_S4096x80_S384x80_S4096x384_1_1_0_0_n_n.lhsIdx i q 1).val = (q ⟨0, by decide⟩).val :=
  dot_S4096x80_S384x80_S4096x384_1_1_0_0_n_n.lhsIdx_val_of_single rfl i q
theorem rhs_dot_0 (i : S4096x384.Idx) (q : dot_S4096x80_S384x80_S4096x384_1_1_0_0_n_n.contr.Idx) :
    (dot_S4096x80_S384x80_S4096x384_1_1_0_0_n_n.rhsIdx i q 0).val = (i 1).val := by
  unfold DotDims.rhsIdx
  rw [dif_neg (show ¬(0 : Fin S384x80.rank) ∈ dot_S4096x80_S384x80_S4096x384_1_1_0_0_n_n.rhsBatch by decide), dif_pos (show (0 : Fin S384x80.rank) ∈ dot_S4096x80_S384x80_S4096x384_1_1_0_0_n_n.rhsNonContracting by decide)]
  rfl
theorem rhs_dot_1 (i : S4096x384.Idx) (q : dot_S4096x80_S384x80_S4096x384_1_1_0_0_n_n.contr.Idx) :
    (dot_S4096x80_S384x80_S4096x384_1_1_0_0_n_n.rhsIdx i q 1).val = (q ⟨0, by decide⟩).val :=
  dot_S4096x80_S384x80_S4096x384_1_1_0_0_n_n.rhsIdx_val_of_single rfl i q

/-- The matrix product into a zero accumulator, at row `p` and column `q`: the sum over the contracted
    axis of the left operand's row `p` times the right operand's row `q`. -/
theorem matmul_zero_apply (a : FVec Ideal S4096x80 .bf16) (b : FVec Ideal S384x80 .bf16) (p : Fin 4096) (q : Fin 384) :
    matmul dot_S4096x80_S384x80_S4096x384_1_1_0_0_n_n none a b (constant (F := Ideal) S4096x384 .f32 0x00000000#32) (ix2 p q)
      = ∑ k : Fin 80, a (ix2 p k) * b (ix2 q k) := by
  simp only [matmul]
  rw [Ideal.matmul_constant_zero_apply, ← Equiv.sum_comp (contrEquiv1 dot_S4096x80_S384x80_S4096x384_1_1_0_0_n_n 80 rfl rfl).symm]
  refine Finset.sum_congr rfl fun k _ => ?_
  have hk := contrEquiv1_symm_val dot_S4096x80_S384x80_S4096x384_1_1_0_0_n_n 80 rfl rfl k
  have el : dot_S4096x80_S384x80_S4096x384_1_1_0_0_n_n.lhsIdx (ix2 p q) ((contrEquiv1 dot_S4096x80_S384x80_S4096x384_1_1_0_0_n_n 80 rfl rfl).symm k) = ix2 p k := funext fun a => Fin.ext (by
    match a with
    | ⟨0, _⟩ => exact lhs_dot_0 _ _
    | ⟨1, _⟩ => exact (lhs_dot_1 _ _).trans hk)
  have er : dot_S4096x80_S384x80_S4096x384_1_1_0_0_n_n.rhsIdx (ix2 p q) ((contrEquiv1 dot_S4096x80_S384x80_S4096x384_1_1_0_0_n_n 80 rfl rfl).symm k) = ix2 q k := funext fun a => Fin.ext (by
    match a with
    | ⟨0, _⟩ => exact rhs_dot_0 _ _
    | ⟨1, _⟩ => exact (rhs_dot_1 _ _).trans hk)
  rw [el, er]

/-! ## One column repeated across the columns -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads -/

/-- The tile's first stored value at row `p`, column `q`. -/
theorem pay5_apply (x0 : Vec Ideal S4096x80 .f32) (x2 : Vec Ideal S384x80 .f32) (x3 : Vec Ideal S1x384 .f32)
    (x1 : Vec Ideal S4096x1 .f32) (p : Fin 4096) (q : Fin 384) :
    k0_pay5 (F := Ideal) x0 x2 x3 x1 (ix2 p q)
      = ((∑ k : Fin 80, x0 (ix2 p k) * x2 (ix2 q k)) + x3 (ix2 (0 : Fin 1) q)) * x1 (ix2 p (0 : Fin 1)) := by
  unfold k0_pay5
  rw [mulf_apply, addf_apply, matmul_zero_apply, shapeCast_self, shapeCast_self,
    broadcastTo_1b_ab_apply, broadcastTo_a1_ab_apply]
  simp only [truncf_apply]

/-! The class-token row as stored is the class-token row as loaded, at every one of the sixteen places
    the kernel stores it, and whatever the float values are. -/

theorem pay1_eq {F : FTy → Type} [FloatOps F] (x4 : Vec F S1x384 .f32) : k0_pay1 (F := F) x4 = x4 :=
  shapeCast_shapeCast x4 shapeCasts_S1x384_S384 shapeCasts_S384_S1x384
theorem pay2_eq {F : FTy → Type} [FloatOps F] (x4 : Vec F S1x384 .f32) : k0_pay2 (F := F) x4 = x4 :=
  shapeCast_shapeCast x4 shapeCasts_S1x384_S384 shapeCasts_S384_S1x384
theorem pay3_eq {F : FTy → Type} [FloatOps F] (x4 : Vec F S1x384 .f32) : k0_pay3 (F := F) x4 = x4 :=
  shapeCast_shapeCast x4 shapeCasts_S1x384_S384 shapeCasts_S384_S1x384
theorem pay4_eq {F : FTy → Type} [FloatOps F] (x4 : Vec F S1x384 .f32) : k0_pay4 (F := F) x4 = x4 :=
  shapeCast_shapeCast x4 shapeCasts_S1x384_S384 shapeCasts_S384_S1x384
theorem pay6_eq {F : FTy → Type} [FloatOps F] (x4 : Vec F S1x384 .f32) : k0_pay6 (F := F) x4 = x4 :=
  shapeCast_shapeCast x4 shapeCasts_S1x384_S384 shapeCasts_S384_S1x384
theorem pay7_eq {F : FTy → Type} [FloatOps F] (x4 : Vec F S1x384 .f32) : k0_pay7 (F := F) x4 = x4 :=
  shapeCast_shapeCast x4 shapeCasts_S1x384_S384 shapeCasts_S384_S1x384
theorem pay8_eq {F : FTy → Type} [FloatOps F] (x4 : Vec F S1x384 .f32) : k0_pay8 (F := F) x4 = x4 :=
  shapeCast_shapeCast x4 shapeCasts_S1x384_S384 shapeCasts_S384_S1x384
theorem pay9_eq {F : FTy → Type} [FloatOps F] (x4 : Vec F S1x384 .f32) : k0_pay9 (F := F) x4 = x4 :=
  shapeCast_shapeCast x4 shapeCasts_S1x384_S384 shapeCasts_S384_S1x384
theorem pay10_eq {F : FTy → Type} [FloatOps F] (x4 : Vec F S1x384 .f32) : k0_pay10 (F := F) x4 = x4 :=
  shapeCast_shapeCast x4 shapeCasts_S1x384_S384 shapeCasts_S384_S1x384
theorem pay11_eq {F : FTy → Type} [FloatOps F] (x4 : Vec F S1x384 .f32) : k0_pay11 (F := F) x4 = x4 :=
  shapeCast_shapeCast x4 shapeCasts_S1x384_S384 shapeCasts_S384_S1x384
theorem pay12_eq {F : FTy → Type} [FloatOps F] (x4 : Vec F S1x384 .f32) : k0_pay12 (F := F) x4 = x4 :=
  shapeCast_shapeCast x4 shapeCasts_S1x384_S384 shapeCasts_S384_S1x384
theorem pay13_eq {F : FTy → Type} [FloatOps F] (x4 : Vec F S1x384 .f32) : k0_pay13 (F := F) x4 = x4 :=
  shapeCast_shapeCast x4 shapeCasts_S1x384_S384 shapeCasts_S384_S1x384
theorem pay14_eq {F : FTy → Type} [FloatOps F] (x4 : Vec F S1x384 .f32) : k0_pay14 (F := F) x4 = x4 :=
  shapeCast_shapeCast x4 shapeCasts_S1x384_S384 shapeCasts_S384_S1x384
theorem pay15_eq {F : FTy → Type} [FloatOps F] (x4 : Vec F S1x384 .f32) : k0_pay15 (F := F) x4 = x4 :=
  shapeCast_shapeCast x4 shapeCasts_S1x384_S384 shapeCasts_S384_S1x384
theorem pay16_eq {F : FTy → Type} [FloatOps F] (x4 : Vec F S1x384 .f32) : k0_pay16 (F := F) x4 = x4 :=
  shapeCast_shapeCast x4 shapeCasts_S1x384_S384 shapeCasts_S384_S1x384
theorem pay17_eq {F : FTy → Type} [FloatOps F] (x4 : Vec F S1x384 .f32) : k0_pay17 (F := F) x4 = x4 :=
  shapeCast_shapeCast x4 shapeCasts_S1x384_S384 shapeCasts_S384_S1x384

/-- The class-token row as stored, read at column `q`. -/
theorem pay6_apply {F : FTy → Type} [FloatOps F] (x4 : Vec F S1x384 .f32) (q : Fin 384) :
    k0_pay6 (F := F) x4 (ix2 (0 : Fin 1) q) = x4 (ix2 (0 : Fin 1) q) := by
  rw [pay6_eq]

end Cert.KernelIdeal.Payload

end
-- ==== Proof.KITile.lean ====
/-
  One tile of the kernel is the specification on that tile's rows.

  Tile t holds rows 4096·t … 4096·t + 4095 of the result.  After the body its entry at local row r and
  column j is the class token's entry j when some table word, read as a signed integer, equals
  4096·t + r, and the masked affine value otherwise.  The table's sixteen words are the index vector's
  entries, so "some table word equals 4096·t + r" says the index vector names global row 4096·t + r;
  the class-token row as stored is the class token; and the masked affine value is the affine image of
  the global row times a mask factor that is one where the mask bit is set and zero elsewhere, that is,
  the affine image where the bit is set and zero elsewhere.
-/
import proofs.«420591_j37915971289108_2_alg».proof.Proof.KIRead
import proofs.«420591_j37915971289108_2_alg».proof.Proof.KIIns
import proofs.«420591_j37915971289108_2_alg».proof.Proof.KIPayload
import proofs.«420591_j37915971289108_2_alg».proof.Proof.Spec

noncomputable section

open scoped BigOperators

namespace Cert.KernelIdeal.Tile

open Cert.KernelIdeal Cert.KernelIdeal.Gen Cert.KernelIdeal.Run Cert.KernelIdeal.Ins Cert.KernelIdeal.Payload
open Idealize.ShloMosaic Idealize.ShloMosaic.ValueIdx

/-- Local row `r` of tile `i 0` is a row of the whole array: there are 32 tiles of 4096 rows. -/
theorem tileRow_lt (i : grid0.Coords) (r : Fin 4096) : 4096 * (i 0).val + r.val < 131072 := by
  have hi : (i 0).val < 32 := (i 0).isLt
  have hr := r.isLt
  omega

/-- The global row that local row `r` of tile `i 0` is. -/
abbrev tileRow (i : grid0.Coords) (r : Fin 4096) : Fin 131072 := ⟨4096 * (i 0).val + r.val, tileRow_lt i r⟩

/-- Some one of the table's sixteen words, read signed, is the global row of local row `r` exactly when
    the index vector names that row. -/
theorem words_hit_iff (c : Dev nD) (i : grid0.Coords) (xt : TbBuf (F := Ideal) c tbM) (g : Cert.Spec.SIdx.Idx → BitVec 32)
    (ht : ∀ k : Fin 16, wordOf c xt k = g (ix1 k)) (r : Fin 4096) :
    (∃ v ∈ [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)], v.toInt = 4096 * ((i 0).val : Int) + (r.val : Int))
      ↔ Cert.Spec.hit g (tileRow i r).val := by
  have hL : [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)] = List.ofFn (fun k : Fin 16 => wordOf c xt k) := rfl
  have hrow : ((tileRow i r).val : Int) = 4096 * ((i 0).val : Int) + (r.val : Int) := by
    show ((4096 * (i 0).val + r.val : Nat) : Int) = _
    omega
  rw [hL]
  constructor
  · rintro ⟨v, hv, hp⟩
    obtain ⟨k, hk⟩ := (List.mem_ofFn).mp hv
    exact ⟨k, by rw [← ht k, hk, hp, hrow]⟩
  · rintro ⟨k, hk⟩
    exact ⟨wordOf c xt k, (List.mem_ofFn).mpr ⟨k, rfl⟩, by rw [ht k, hk, hrow]⟩

open Classical in
/-- The tile after the body, at local row `r` and column `j`, is the specified result at the global row. -/
theorem tile_apply (c : Dev nD) (i : grid0.Coords) (x0 : Vec Ideal S4096x80 .f32) (x1 : Vec Ideal S4096x1 .f32)
    (x2 : Vec Ideal S384x80 .f32) (x3 x4 : Vec Ideal S1x384 .f32) (xt : TbBuf (F := Ideal) c tbM)
    (feat : Cert.Spec.SFeat.Idx → EReal) (amask : Cert.Spec.SMask.Idx → BitVec 1) (g : Cert.Spec.SIdx.Idx → BitVec 32)
    (W : Cert.Spec.SW.Idx → EReal) (bias cls : Cert.Spec.SVec.Idx → EReal)
    (h0 : ∀ (r : Fin 4096) (k : Fin 80), x0 (ix2 r k) = feat (ix2 (tileRow i r) k))
    (h1 : ∀ r : Fin 4096, x1 (ix2 r (0 : Fin 1)) = if Cert.Spec.maskAt amask (tileRow i r) = 1#1 then (1 : EReal) else 0)
    (h2 : ∀ (j : Fin 384) (k : Fin 80), x2 (ix2 j k) = W (ix2 j k))
    (h3 : ∀ j : Fin 384, x3 (ix2 (0 : Fin 1) j) = bias (ix1 j))
    (h4 : ∀ j : Fin 384, x4 (ix2 (0 : Fin 1) j) = cls (ix1 j))
    (ht : ∀ k : Fin 16, wordOf c xt k = g (ix1 k)) (r : Fin 4096) (j : Fin 384) :
    outTile c i x0 x1 x2 x3 x4 xt (ix2 r j) = Cert.Spec.G feat amask g W bias cls (ix2 (tileRow i r) j) := by
  have hout : outTile c i x0 x1 x2 x3 x4 xt
      = insAll i (k0_pay6 x4) [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)] (k0_pay5 x0 x2 x3 x1) := rfl
  rw [hout, insAll_apply']
  unfold Cert.Spec.G
  show (if (∃ v ∈ [wordOf c xt (0 : Fin 16), wordOf c xt (1 : Fin 16), wordOf c xt (2 : Fin 16), wordOf c xt (3 : Fin 16), wordOf c xt (4 : Fin 16), wordOf c xt (5 : Fin 16), wordOf c xt (6 : Fin 16), wordOf c xt (7 : Fin 16), wordOf c xt (8 : Fin 16), wordOf c xt (9 : Fin 16), wordOf c xt (10 : Fin 16), wordOf c xt (11 : Fin 16), wordOf c xt (12 : Fin 16), wordOf c xt (13 : Fin 16), wordOf c xt (14 : Fin 16), wordOf c xt (15 : Fin 16)], v.toInt = 4096 * ((i 0).val : Int) + (r.val : Int))
        then k0_pay6 x4 (ix2 (0 : Fin 1) j) else k0_pay5 x0 x2 x3 x1 (ix2 r j))
      = if Cert.Spec.hit g (tileRow i r).val then cls (ix1 j) else Cert.Spec.masked feat amask W bias (tileRow i r) j
  have hiff := words_hit_iff c i xt g ht r
  by_cases hh : Cert.Spec.hit g (tileRow i r).val
  · rw [if_pos (hiff.mpr hh), if_pos hh, pay6_apply, h4]
  · rw [if_neg (fun h => hh (hiff.mp h)), if_neg hh, pay5_apply]
    simp only [h0, h1, h2, h3]
    unfold Cert.Spec.masked Cert.Spec.affine
    by_cases hm : Cert.Spec.maskAt amask (tileRow i r) = 1#1
    · rw [if_pos hm, if_pos hm, mul_one]
    · rw [if_neg hm, if_neg hm, mul_zero]

end Cert.KernelIdeal.Tile

end
-- ==== Proof.KIValue.lean ====
/-
  The idealized kernel's result array is the specification of the argument arrays.

  At every grid point the output tile the body leaves is, entry by entry, the specification read at the tile's rows
  (`Tile.tile_apply`, over the blocks read at an index); the output window's blocks, one per point, tile the 131072 rows,
  so the array written back block by block ends as the specification itself, and the run's post names it so, the
  seven argument arrays unchanged.
-/
import proofs.«420591_j37915971289108_2_alg».proof.Proof.KIFrame
import proofs.«420591_j37915971289108_2_alg».proof.Proof.KIBlocks
import proofs.«420591_j37915971289108_2_alg».proof.Proof.KITile

set_option maxRecDepth 16384

noncomputable section

namespace Cert.KernelIdeal.Value

open Cert.KernelIdeal Cert.KernelIdeal.Gen Cert.KernelIdeal.Kit Cert.KernelIdeal.Run Cert.KernelIdeal.Frame Cert.KernelIdeal.Blocks
open Cert.KernelIdeal.Tile
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The specification at core `c`'s argument arrays. -/
abbrev Gm (c : Dev nD) : S131072x384.Idx → EReal :=
  Cert.Spec.G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))

/-- The first global row of point `t`'s tile plus `r`, as the tile lemma spells it. -/
theorem tileRow_coords (t : Fin grid0.N) (r : Fin 4096) : tileRow (grid0.coords t) r = (⟨4096 * t.val + r.val, row_lt t r⟩ : Fin 131072) :=
  Fin.ext (by
    show 4096 * (grid0.coords t 0).val + r.val = 4096 * t.val + r.val
    rw [(idx_facts t).2.2.2.2.2.2])

/-- WHAT POINT `t` WRITES BACK is block `t` of the specification. -/
theorem flushed5_eq (c : Dev nD) (t : Fin (cfgM m (ok m)).N) :
    (dats m (ok m) 0 c).flushed 5 t = (((cfgM m (ok m)).win 5).blk t).view.read (Elt Ideal) (Gm m c) := by
  show ((cfgM m (ok m)).win 5).cut (grid0.coords t) ((dats m (ok m) 0 c).after 5 t) = _
  rw [after0_5]
  refine funext (fun (y : S4096x384.Idx) => ?_)
  obtain ⟨r, j, rfl⟩ : ∃ (r : Fin 4096) (j : Fin 384), y = ix2 r j := ⟨y 0, y 1, eq_ix2 y⟩
  have h0 : ∀ (r : Fin 4096) (k : Fin 80), (iblk m (ok m) c 0 t : Vec Ideal S4096x80 .f32) (ix2 r k)
      = (m ((c : Thread nD τ).loc main_arg0)) (ix2 (tileRow (grid0.coords t) r) k) :=
    fun r k => (iblk0_apply m (ok m) c t r k).trans (by rw [tileRow_coords])
  have h1 : ∀ r : Fin 4096, (iblk m (ok m) c 1 t : Vec Ideal S4096x1 .f32) (ix2 r (0 : Fin 1))
      = if Cert.Spec.maskAt (m ((c : Thread nD τ).loc main_arg1)) (tileRow (grid0.coords t) r) = 1#1 then (1 : EReal) else 0 :=
    fun r => (iblk1_apply m (ok m) c t r).trans ((mask2d_apply m c _).trans (by rw [tileRow_coords]))
  refine (tile_apply c (grid0.coords t) (iblk m (ok m) c 0 t) (iblk m (ok m) c 1 t) (iblk m (ok m) c 2 t) (iblk m (ok m) c 3 t) (iblk m (ok m) c 4 t) (tbl m 0)
    (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
    h0 h1 (fun j k => iblk2_apply m (ok m) c t j k) (fun j => iblk3_apply m (ok m) c t j) (fun j => iblk4_apply m (ok m) c t j)
    (fun k => word_apply m c k) r j).trans ?_
  show Gm m c (ix2 (tileRow (grid0.coords t) r) j) = Gm m c ((((cfgM m (ok m)).win 5).blk t).view.emb (ix2 r j))
  congr 1
  funext a
  apply Fin.ext
  obtain ⟨e0, e1, e2, e3, e4, e5, e6⟩ := idx_facts t
  match a with
  | ⟨0, _⟩ =>
    show 4096 * (grid0.coords t 0).val + r.val = cc0_transform_5 (grid0.coords t) 0 * 4096 + 1 * r.val
    rw [e5, e6]; show _ = t.val * 4096 + 1 * r.val; omega
  | ⟨1, _⟩ =>
    show j.val = cc0_transform_5 (grid0.coords t) 1 * 384 + 1 * j.val
    rw [e5]; show _ = 0 * 384 + 1 * j.val; omega

/-- An index of the result array is in point `t`'s block iff each coordinate is in the block's range on its axis. -/
theorem mem_blk5 (t : Fin (cfgM m (ok m)).N) (i : S131072x384.Idx) :
    i ∈ (((cfgM m (ok m)).win 5).blk t).view.set ↔ ∀ a : Fin 2, cc0_transform_5 (grid0.coords t) a * S4096x384.size a ≤ (i a).val ∧ (i a).val < cc0_transform_5 (grid0.coords t) a * S4096x384.size a + S4096x384.size a := by
  have h : (((cfgM m (ok m)).win 5).blk t).view.set = (((cfgM m (ok m)).win 5).rect t).set :=
    View.set_slice_whole main_v4 (((cfgM m (ok m)).win 5).rect t)
  exact (iff_of_eq (congrArg (fun S => i ∈ S) h)).trans Rect.mem_set_unit

/-- The output window's blocks, one per point and each written back, tile the result array. -/
theorem cover5 (i : S131072x384.Idx) :
    ∃ t : Fin (cfgM m (ok m)).N, ((cfgM m (ok m)).win 5).flush t = true ∧ i ∈ (((cfgM m (ok m)).win 5).blk t).view.set := by
  have hi0 : (i 0).val < 131072 := (i 0).isLt
  have hi1 : (i 1).val < 384 := (i 1).isLt
  refine ⟨(⟨(i 0).val / 4096, by show (i 0).val / 4096 < 32; omega⟩ : Fin grid0.N), flush0_5 (adm m (ok m)) _, ?_⟩
  refine (mem_blk5 m _ i).mpr ?_
  obtain ⟨e0, e1, e2, e3, e4, e5, e6⟩ := idx_facts (⟨(i 0).val / 4096, by show (i 0).val / 4096 < 32; omega⟩ : Fin grid0.N)
  intro a
  match a with
  | ⟨0, _⟩ =>
    rw [e5]
    show (i 0).val / 4096 * 4096 ≤ (i 0).val ∧ (i 0).val < (i 0).val / 4096 * 4096 + 4096
    omega
  | ⟨1, _⟩ =>
    rw [e5]
    show 0 * 384 ≤ (i 1).val ∧ (i 1).val < 0 * 384 + 384
    omega

/-- THE RESULT ARRAY after the run is the specification. -/
theorem final5 (c : Dev nD) : (dats m (ok m) 0 c).arrAt 5 (cfgM m (ok m)).N = Gm m c :=
  (dats m (ok m) 0 c).arrAt_eq_of_cover 5 (Gm m c) (fun t _ => flushed5_eq m c t) (cover5 m)

/-- The run, read: the result array at the specification of the argument arrays, the arguments unchanged. -/
theorem run : θ_run defs (onTc (τ := τ) (main (F := Ideal))) ⟨m, fun _ => 0, ρ⟩ (fun r => ∀ c : Dev nD,
      r.2.mem ((c.tc : Thread nD τ).loc main_v4) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 5).trans (final5 m c),
      ((h c).1 0).trans (((dats m (ok m) 0 c).arrAt_in 0 rfl _).trans ((A_eq m (ok m) c 0).trans (V_main_arg0 m c))),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).1 2).trans (((dats m (ok m) 0 c).arrAt_in 2 rfl _).trans ((A_eq m (ok m) c 2).trans (V_main_arg4 m c))),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c)⟩)
    (run_main m ρ (ok m))

end Cert.KernelIdeal.Value

end
-- ==== Proof.RefScatter.lean ====
/-
  A scatter whose body returns the update, read at one element of the result.

  The scatter is a left fold over the update indices: an update index that lands inside the operand
  replaces the element it lands on by the update's element, and one that lands outside is dropped.
  Read at a fixed element `i` of the result the fold therefore leaves the operand's element when no
  update index lands on `i`; and when at least one does and every update index landing on `i`
  carries one and the same value `v`, it leaves `v`, in whatever order the updates are taken.
-/
import Idealize.ShloMosaic.PureOps.ShapeOps

namespace Cert.RefScatter

open Idealize.ShloMosaic

variable {α : Type} {s si u : Shape} {w : Nat}

open Classical in
/-- The fold over ANY list of update positions, read at `i`: if every position of the list that lands
    on `i` carries `v`, the fold's element at `i` is `v` when some position of the list lands on `i`
    and the starting array's element when none does. -/
theorem foldl_overwrite_apply (d : ScatterDims s si u) (idx : IVec si w) (upd : u.Idx → α) (i : s.Idx) (v : α)
    (L : List (Fin u.numel))
    (hv : ∀ n ∈ L, d.resultIdx? (u.rowMajor.symm n) idx = some i → upd (u.rowMajor.symm n) = v)
    (x : s.Idx → α) :
    (L.foldl (fun r n =>
        match d.resultIdx? (u.rowMajor.symm n) idx with
        | some i => fun i' => if i' = i then (fun _ b => b) (r i) (upd (u.rowMajor.symm n)) else r i'
        | none => r) x) i
      = if (∃ n ∈ L, d.resultIdx? (u.rowMajor.symm n) idx = some i) then v else x i := by
  induction L generalizing x with
  | nil => simp
  | cons a L ih =>
    rw [List.foldl_cons, ih (fun n hn => hv n (List.mem_cons_of_mem a hn))]
    by_cases hL : ∃ n ∈ L, d.resultIdx? (u.rowMajor.symm n) idx = some i
    · obtain ⟨n, hn, hn'⟩ := hL
      rw [if_pos ⟨n, hn, hn'⟩, if_pos ⟨n, List.mem_cons_of_mem a hn, hn'⟩]
    · rw [if_neg hL]
      cases ha : d.resultIdx? (u.rowMajor.symm a) idx with
      | none =>
        have hno : ¬ ∃ n ∈ a :: L, d.resultIdx? (u.rowMajor.symm n) idx = some i := by
          rintro ⟨n, hn, hn'⟩
          rcases List.mem_cons.mp hn with rfl | hn
          · rw [ha] at hn'; cases hn'
          · exact hL ⟨n, hn, hn'⟩
        rw [if_neg hno]
      | some i₀ =>
        by_cases hi : i = i₀
        · subst hi
          have hva := hv a (List.mem_cons_self) ha
          rw [if_pos ⟨a, List.mem_cons_self, ha⟩]
          show (if i = i then upd (u.rowMajor.symm a) else x i) = v
          rw [if_pos rfl, hva]
        · have hno : ¬ ∃ n ∈ a :: L, d.resultIdx? (u.rowMajor.symm n) idx = some i := by
            rintro ⟨n, hn, hn'⟩
            rcases List.mem_cons.mp hn with rfl | hn
            · rw [ha] at hn'; exact hi (Option.some.inj hn').symm
            · exact hL ⟨n, hn, hn'⟩
          rw [if_neg hno]
          show (if i = i₀ then upd (u.rowMajor.symm a) else x i) = x i
          rw [if_neg hi]

/-- No update index lands on `i`: the scatter leaves the operand's element there. -/
theorem scatter_overwrite_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine (foldl_overwrite_apply d idx upd i (x i) _ (fun n _ hn => absurd hn (h _)) x).trans ?_
  exact ite_self _

/-- Some update index lands on `i`, and every update index that lands on `i` carries `v`: the
    scatter's element at `i` is `v`. -/
theorem scatter_overwrite_hit (d : ScatterDims s si u) (x : s.Idx → α) (idx : IVec si w) (upd : u.Idx → α) (i : s.Idx)
    (v : α) (j₀ : u.Idx) (h₀ : d.resultIdx? j₀ idx = some i)
    (hv : ∀ j : u.Idx, d.resultIdx? j idx = some i → upd j = v) :
    Host.scatter d (fun _ b => b) x idx upd i = v := by
  unfold Host.scatter
  refine (foldl_overwrite_apply d idx upd i v _ (fun n _ hn => hv _ hn) x).trans ?_
  exact if_pos ⟨u.rowMajor j₀, List.mem_finRange _, by rw [Equiv.symm_apply_apply]; exact h₀⟩

end Cert.RefScatter
-- ==== Proof.RefValue.lean ====
/-
  The reference computes the specified function (negative index words wrapped).

  The reference's last operation scatters the class-token rows into the masked affine image of the
  features, at the rows the index vector names after negative words are wrapped by the row count, with a
  body that returns the update. Update index (k, j) lands on element (r, j) of the result exactly when
  the wrapped k-th index word is r, and every update index carries the class token's j-th element.
  So an element of a row some index word names is the class token's, and an element of any other row is
  the operand's: the masked affine image, read stage by stage down to the arguments.
-/
import proofs.«420591_j37915971289108_2_alg».proof.Proof.Spec
import proofs.«420591_j37915971289108_2_alg».proof.Proof.Gen.ReferenceIdeal.Read
import proofs.«420591_j37915971289108_2_alg».proof.Proof.RefScatter

noncomputable section

open scoped BigOperators

namespace Cert.RefValue

open Idealize.ShloMosaic Idealize.ShloMosaic.ValueIdx Cert.ReferenceIdeal Cert.ReferenceIdeal.Gen Cert.ReferenceIdeal.Read

/-- The scatter's dimension numbers: one scattered axis (the rows), one window axis (the columns). -/
abbrev D := scatter_S131072x384_S16x1_S16x384_1_0_0_1

/-! ## Where an update index lands -/

/-- The window of update index `j` starts, on the row axis, at the index word of `j`'s row, read signed. -/
theorem start_0 (j : S16x384.Idx) (idx : IVec S16x1 32) :
    D.start j idx 0 = (idx (ix2 (j 0) (0 : Fin 1))).toInt := by
  unfold ScatterDims.start
  rw [dif_pos (show (0 : Fin S131072x384.rank) ∈ D.scatterDimsToOperandDims from List.mem_singleton.mpr rfl)]
  have hsi : D.siIdx j ⟨List.idxOf (0 : Fin S131072x384.rank) D.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no index word addresses, the window starts at zero. -/
theorem start_1 (j : S16x384.Idx) (idx : IVec S16x1 32) : D.start j idx 1 = 0 := by
  unfold ScatterDims.start
  rw [dif_neg (show ¬ (1 : Fin S131072x384.rank) ∈ D.scatterDimsToOperandDims by decide)]

/-- The row axis is an inserted one: the window has no extent there. -/
theorem window_0 (j : S16x384.Idx) : D.window j 0 = 0 := by
  unfold ScatterDims.window
  rw [dif_neg (show ¬ (0 : Fin S131072x384.rank) ∈ D.sKept by decide)]

/-- On the column axis the window coordinate is the update index's column. -/
theorem window_1 (j : S16x384.Idx) : D.window j 1 = (j 1).val := by
  unfold ScatterDims.window
  rw [dif_pos (show (1 : Fin S131072x384.rank) ∈ D.sKept by decide)]
  rfl

/-- Update index `j` lands on element `(r, c)` exactly when the index word of `j`'s row, read signed, is
    `r`, and `j`'s column is `c`. -/
theorem resultIdx_eq_some_iff (j : S16x384.Idx) (idx : IVec S16x1 32) (r : Fin 131072) (c : Fin 384) :
    D.resultIdx? j idx = some (ix2 r c)
      ↔ (idx (ix2 (j 0) (0 : Fin 1))).toInt = (r.val : Int) ∧ (j 1).val = c.val := by
  unfold ScatterDims.resultIdx?
  constructor
  · intro h
    split at h
    · rename_i hc
      have h' := Option.some.inj h
      have h0 : (D.start j idx 0 + (D.window j 0 : Int)).toNat = r.val := congrArg (fun f => (f 0).val) h'
      have h1 : (D.start j idx 1 + (D.window j 1 : Int)).toNat = c.val := congrArg (fun f => (f 1).val) h'
      have hc0 := (hc 0).1
      rw [start_0, window_0] at h0 hc0
      rw [start_1, window_1] at h1
      constructor <;> omega
    · cases h
  · rintro ⟨h0, h1⟩
    have hr := r.isLt
    have hj := idx2_lt1 j
    have hc : ∀ a, 0 ≤ D.start j idx a + (D.window j a : Int) ∧ D.start j idx a + (D.window j a : Int) < (S131072x384.size a : Int) := by
      intro a
      match a with
      | ⟨0, _⟩ =>
        show 0 ≤ D.start j idx 0 + (D.window j 0 : Int) ∧ D.start j idx 0 + (D.window j 0 : Int) < ((131072 : Nat) : Int)
        rw [start_0, window_0, h0]; omega
      | ⟨1, _⟩ =>
        show 0 ≤ D.start j idx 1 + (D.window j 1 : Int) ∧ D.start j idx 1 + (D.window j 1 : Int) < ((384 : Nat) : Int)
        rw [start_1, window_1]; omega
    rw [dif_pos hc]
    refine congrArg some (funext fun a => Fin.ext ?_)
    match a with
    | ⟨0, _⟩ =>
      show (D.start j idx 0 + (D.window j 0 : Int)).toNat = r.val
      rw [start_0, window_0, h0]; omega
    | ⟨1, _⟩ =>
      show (D.start j idx 1 + (D.window j 1 : Int)).toNat = c.val
      rw [start_1, window_1]; omega

/-! ## The scatter's three operands at an index -/

/-- The scatter's index word for row `k`, read signed, is the row the `k`-th argument word names with
    negative words wrapped: adding the row count to a negative 32-bit word does not overflow. -/
theorem v14_toInt (x2 : (⟨S16, .i32⟩ : BufTy).Contents (Elt Ideal)) (k : Fin 16) :
    (val_main_v14 (F := Ideal) x2 (ix2 k (0 : Fin 1))).toInt = Spec.wrapRow (x2 (ix1 k)) := by
  have hi : idx_main_v14 (ix2 k (0 : Fin 1)) = ix1 k := funext fun a => Fin.ext (by match a with | ⟨0, _⟩ => rfl)
  rw [val_main_v14_apply, val_main_v13_apply, val_main_v10_apply, val_main_v12_apply, val_main_v9_apply,
    val_main_v11_apply, val_main_c_apply, val_main_c_0_apply, hi]
  unfold Spec.wrapRow
  generalize x2 (ix1 k) = g
  have hc : IntOp.cmpi .slt g 0#32 = BitVec.ofBool (decide (g.toInt < 0)) := rfl
  rw [hc]
  by_cases hneg : g.toInt < 0
  · rw [if_pos hneg, decide_eq_true hneg]
    show (Scalar.select 1#1 (IntOp.addi g 131072#32) g).toInt = _
    rw [select_one]
    unfold IntOp.addi
    have hlt := g.isLt
    rw [BitVec.toInt_eq_toNat_cond] at hneg ⊢
    rw [BitVec.toInt_eq_toNat_cond, BitVec.toNat_add]
    simp only [BitVec.toNat_ofNat]
    split_ifs at hneg ⊢ <;> omega
  · rw [if_neg hneg, decide_eq_false hneg]
    show (Scalar.select 0#1 (IntOp.addi g 131072#32) g).toInt = _
    rw [select_zero]

/-- Every update element of column `c` is the class token's `c`-th element. -/
theorem v8_apply (x6 : (⟨S384, .f32⟩ : BufTy).Contents (Elt Ideal)) (j : S16x384.Idx) (c : Fin 384) (hj : (j 1).val = c.val) :
    val_main_v8 (F := Ideal) x6 j = x6 (ix1 c) := by
  rw [val_main_v8_apply]
  congr 1
  funext a
  match a with
  | ⟨0, _⟩ => exact Fin.ext hj

/-- The scatter's operand at `(r, c)` is the masked affine image of row `r` of the features at column `c`. -/
theorem v7_apply (x0 : (⟨S131072x80, .f32⟩ : BufTy).Contents (Elt Ideal)) (x1 : (⟨S16x8192, .i1⟩ : BufTy).Contents (Elt Ideal))
    (x4 : (⟨S384x80, .f32⟩ : BufTy).Contents (Elt Ideal)) (x5 : (⟨S384, .f32⟩ : BufTy).Contents (Elt Ideal))
    (r : Fin 131072) (c : Fin 384) :
    val_main_v7 (F := Ideal) x0 x1 x4 x5 (ix2 r c) = Spec.masked x0 x1 x4 x5 r c := by
  have e0 : idx_main_v0 (idx_main_v6 (idx_main_call0_v0 (ix2 r c)))
      = ix2 (⟨r.val / 8192, by have := r.isLt; omega⟩ : Fin 16) (⟨r.val % 8192, Nat.mod_lt _ (by decide)⟩ : Fin 8192) :=
    funext fun a => Fin.ext (by match a with | ⟨0, _⟩ => rfl | ⟨1, _⟩ => rfl)
  have e3 : idx_main_v3 (idx_main_v4 (ix2 r c)) = ix1 c :=
    funext fun a => Fin.ext (by match a with | ⟨0, _⟩ => rfl)
  have el : ∀ k : Fin 80, lidx_main_v2 (ix2 r c) k = ix2 r k := fun k =>
    funext fun a => Fin.ext (by match a with | ⟨0, _⟩ => rfl | ⟨1, _⟩ => rfl)
  have er : ∀ k : Fin 80, idx_main_v1 (ridx_main_v2 (ix2 r c) k) = ix2 c k := fun k =>
    funext fun a => Fin.ext (by match a with | ⟨0, _⟩ => rfl | ⟨1, _⟩ => rfl)
  rw [val_main_v7_apply, val_main_call0_v0_apply, val_main_v6_apply, val_main_v0_apply, val_main_v5_apply,
    val_main_v2_apply, val_main_v4_apply, val_main_v3_apply, val_main_call0_v1_apply, val_main_cst_apply, e0, e3]
  simp only [val_main_v1_apply, el, er, Ideal.addf_def, Ideal.ofBits_def, Ideal.ofBits_zero_f32]
  unfold Spec.masked Spec.maskAt Spec.affine
  by_cases hm : x1 (ix2 (⟨r.val / 8192, by have := r.isLt; omega⟩ : Fin 16) (⟨r.val % 8192, Nat.mod_lt _ (by decide)⟩ : Fin 8192)) = 1#1
  · rw [if_pos hm, hm, select_one]
  · rw [if_neg hm, eq_zero_of_ne_one hm, select_zero]

/-! ## The reference's result -/

open Classical in
/-- The reference's result is the specified function with negative index words wrapped. -/
theorem ref_eq (x0 : (⟨S131072x80, .f32⟩ : BufTy).Contents (Elt Ideal)) (x1 : (⟨S16x8192, .i1⟩ : BufTy).Contents (Elt Ideal))
    (x2 : (⟨S16, .i32⟩ : BufTy).Contents (Elt Ideal)) (x4 : (⟨S384x80, .f32⟩ : BufTy).Contents (Elt Ideal))
    (x5 x6 : (⟨S384, .f32⟩ : BufTy).Contents (Elt Ideal)) :
    Cert.ReferenceIdeal.Read.val_main_v15 (F := Ideal) x0 x1 x2 x4 x5 x6 = Cert.Spec.GWrap x0 x1 x2 x4 x5 x6 := by
  funext y
  obtain ⟨r, c, rfl⟩ : ∃ (r : Fin 131072) (c : Fin 384), y = ix2 r c := ⟨y 0, y 1, eq_ix2 y⟩
  unfold val_main_v15 Spec.GWrap
  show Host.scatter D (fun _ b => b) (val_main_v7 (F := Ideal) x0 x1 x4 x5) (val_main_v14 (F := Ideal) x2)
      (val_main_v8 (F := Ideal) x6) (ix2 r c) = if Spec.hitWrap x2 r.val then x6 (ix1 c) else Spec.masked x0 x1 x4 x5 r c
  by_cases hh : Spec.hitWrap x2 r.val
  · rw [if_pos hh]
    obtain ⟨k, hk⟩ := hh
    refine RefScatter.scatter_overwrite_hit D _ _ _ (ix2 r c) (x6 (ix1 c)) (ix2 k c) ?_ ?_
    · exact (resultIdx_eq_some_iff _ _ r c).mpr ⟨(v14_toInt x2 k).trans hk, rfl⟩
    · intro j hj
      exact v8_apply x6 j c ((resultIdx_eq_some_iff _ _ r c).mp hj).2
  · rw [if_neg hh]
    rw [RefScatter.scatter_overwrite_miss D _ _ _ (ix2 r c) ?_]
    · exact v7_apply x0 x1 x4 x5 r c
    · intro j hj
      have h := ((resultIdx_eq_some_iff _ _ r c).mp hj).1
      exact hh ⟨j 0, (v14_toInt x2 (j 0)).symm.trans h⟩

end Cert.RefValue

end
-- ==== Proof.PreIdx.lean ====
/-
  The integer conjunct of the precondition, read back.

  The precondition is a conjunction whose last conjunct is the conjunction, over the sixteen index
  words, of the signed comparison  word ≥ 0.  If the precondition evaluates to true, that last conjunct
  is true, so every one of the sixteen comparisons is true, and a true signed comparison of a word
  against the zero word says that the word, read as a two's-complement integer, is non-negative.
-/
import proofs.«420591_j37915971289108_2_alg».proof.Pre_finite_inputs
import Idealize.ShloMosaic.Lib.Affine
import Idealize.ShloMosaic.Lib.ReduceAll
import Idealize.ShloMosaic.Lib.StableHlo.Predicate
import Idealize.ShloMosaic.Lib.ValueIdx

namespace Cert.PreIdx

open Idealize.ShloMosaic Idealize.ShloMosaic.ValueIdx
open Cert.Pre_finite_inputs

/-- The rank-0 shape has exactly one index. -/
instance : Subsingleton S_.Idx := ⟨fun _ _ => funext fun d => d.elim0⟩

/-- Where the precondition holds, every index word is non-negative as a signed integer. -/
theorem gidx_nonneg {F : FTy → Type} [FloatOps F] [Cert.Pre_finite_inputs.Facts]
    (a0 : FVec F S131072x80 .f32) (a1 : IVec S16x8192 1) (a2 : IVec S16 32) (a3 : IVec S131072 32)
    (a4 : FVec F S384x80 .f32) (a5 a6 : FVec F S384 .f32)
    (h : Cert.Pre_finite_inputs.fn (F := F) a0 a1 a2 a3 a4 a5 a6 = (fun _ => 1#1)) :
    ∀ k : Fin 16, 0 ≤ (a2 (ValueIdx.ix1 k)).toInt := by
  intro k
  -- the value of the predicate at its one index
  have h0 := congrFun h ix0
  dsimp only [fn, fn_part1] at h0
  -- the last conjunct: the conjunction over all sixteen words of the comparison with zero
  obtain ⟨-, h1⟩ := IntOp.andi_eq_one.1 h0
  -- a conjunction that is true is true at every word
  have h2 := Host.reduce_andi_all _ _ _ _ ix0 h1 (ix1 k)
  -- the comparison at word k is the signed comparison against the zero word
  have h3 : (0#32).toInt ≤ (a2 (ix1 k)).toInt := IntOp.cmpi_sge.1 h2
  simpa using h3

end Cert.PreIdx
-- ==== Proof.lean ====
/-
  The certificate's five claims.

  The kernel computes, tile by tile, the masked affine image of the features and then overwrites with the class token
  every row that an entry of the index vector names; the reference computes the same masked image and scatters the class
  token into the rows the index vector names, a negative entry wrapped from the end.  Under the precondition — every
  float input finite and every index entry non-negative — an entry names the same row in both readings, and both
  programs end with the one function `Spec.G` of the argument arrays: the kernel by its run read tile by tile and
  tiled over the array (`KernelIdeal.Value.run`), the reference by its run read at an index, its scatter read entry by entry
  (`RefValue.ref_eq`, `Spec.GWrap_eq_G`).  The precondition's finiteness is not used: the two sides are equal term by
  term on the extended reals (a mask bit multiplies by one or by zero).  The three frames: the kernel's two readings by
  the pipeline's frame run over the body's run, whose assumed side conditions (a row offset inside the tile whenever the
  guard holds) are facts of two's-complement arithmetic; the reference's by its run with the result dropped.  The
  idealization rewrote nothing, so `preserves` is trivial.
-/
import proofs.«420591_j37915971289108_2_alg».proof.Defs
import proofs.«420591_j37915971289108_2_alg».proof.Proof.Gen.Kernel
import proofs.«420591_j37915971289108_2_alg».proof.Proof.Gen.Kernel.Skeleton
import proofs.«420591_j37915971289108_2_alg».proof.Proof.Gen.Kernel.Launch
import proofs.«420591_j37915971289108_2_alg».proof.Proof.Gen.Kernel.Flash
import proofs.«420591_j37915971289108_2_alg».proof.Proof.Gen.KernelIdeal
import proofs.«420591_j37915971289108_2_alg».proof.Proof.Gen.KernelIdeal.Skeleton
import proofs.«420591_j37915971289108_2_alg».proof.Proof.Gen.KernelIdeal.Launch
import proofs.«420591_j37915971289108_2_alg».proof.Proof.Gen.KernelIdeal.Flash
import proofs.«420591_j37915971289108_2_alg».proof.Proof.Gen.ReferenceIdeal
import proofs.«420591_j37915971289108_2_alg».proof.Proof.Gen.ReferenceIdeal.Run
import proofs.«420591_j37915971289108_2_alg».proof.Proof.Gen.ReferenceIdeal.Read
import proofs.«420591_j37915971289108_2_alg».proof.Proof.Gen.Pre_finite_inputs
import proofs.«420591_j37915971289108_2_alg».proof.Proof.KFrame
import proofs.«420591_j37915971289108_2_alg».proof.Proof.KIValue
import proofs.«420591_j37915971289108_2_alg».proof.Proof.RefValue
import proofs.«420591_j37915971289108_2_alg».proof.Proof.PreIdx
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m g _ => Cert.Kernel.Frame.frame m g (Cert.Kernel.Kit.ok m)

theorem frame_ki : Cert.frame_KernelIdeal := fun m g _ => Cert.KernelIdeal.Frame.frame m g (Cert.KernelIdeal.Kit.ok m)

theorem frame_ri : Cert.frame_ReferenceIdeal := fun m ρ _ =>
  (θ_run Cert.ReferenceIdeal.defs _ _).mono (fun _ h c => (h c).2.2.2.2) (Cert.ReferenceIdeal.Value.run (F := Ideal) m ρ)

/-- Both idealized programs end with `Spec.G` of the argument arrays. -/
theorem algebraic : Cert.algebraic_KernelIdeal_ReferenceIdeal := by
  intro m g m' g' hpre hagree
  refine ⟨fun c => Cert.KernelIdeal.Value.Gm m c, fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2), fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.2.1, (h c).2.2.2.1, (h c).2.2.2.2.1, (h c).2⟩) (Cert.KernelIdeal.Value.run m g)
  · refine (θ_run Cert.ReferenceIdeal.defs _ _).mono (fun _ h c => ?_) (Cert.ReferenceIdeal.Value.run (F := Ideal) m' g')
    obtain ⟨a0, a1, a2, a3, a4, a5, a6⟩ := hagree c
    refine ⟨(h c).1.trans ?_, (h c).2.1.trans a1, (h c).2.2.1.trans a2, (h c).2.2.2.1.trans a3, (h c).2.2.2.2⟩
    rw [Cert.ReferenceIdeal.Read.val_main_v15_eq, Cert.RefValue.ref_eq, a0, a1, a2, a4, a5, a6]
    exact Cert.Spec.GWrap_eq_G _ _ _ _ _ _ (Cert.PreIdx.gidx_nonneg _ _ _ _ _ _ _ (hpre c))

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
